-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x512x4 : Shape := ⟨3, ![32, 512, 4]⟩
abbrev S32x512 : Shape := ⟨2, ![32, 512]⟩
abbrev S32x2x32768 : Shape := ⟨3, ![32, 2, 32768]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S18x64 : Shape := ⟨2, ![18, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x512x4 : S_.BroadcastsInDim S32x512x4 (![] : Fin 0 → Fin S32x512x4.rank)
  reducesTo_S32x512x4_S_d0_1_2 : S32x512x4.ReducesTo [0, 1, 2] S_
  bcast_S_S32x512 : S_.BroadcastsInDim S32x512 (![] : Fin 0 → Fin S32x512.rank)
  reducesTo_S32x512_S_d0_1 : S32x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S18x64 : S_.BroadcastsInDim S18x64 (![] : Fin 0 → Fin S18x64.rank)
  reducesTo_S18x64_S_d0_1 : S18x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S32x2x32768 : S_.BroadcastsInDim S32x2x32768 (![] : Fin 0 → Fin S32x2x32768.rank)
  reducesTo_S32x2x32768_S_d0_1_2 : S32x2x32768.ReducesTo [0, 1, 2] S_

variable [Facts]

def fn_part7 {F : FTy → Type} [FloatOps F] (main_arg4 : IVec S32x2x32768 32) (main_arg26 : FVec F S10 .f32) (main_v118 : IVec S_ 1) (main_v119 : FVec F S64x10 .f32) : IVec S_ 1 :=
  let main_cst_46 : FVec F S_ .f32 := constant S_ .f32 0x7F800000#32
  let main_v120 : FVec F S64x10 .f32 := broadcastInDim S64x10 ![] bcast_S_S64x10 main_cst_46
  let main_v121 : IVec S64x10 1 := cmpf .olt main_v119 main_v120
  let main_c_47 : IVec S_ 1 := constantI S_ 1 1#1
  let main_v122 : IVec S_ 1 := (fun x v => Host.reduce IntOp.andi x v reducesTo_S64x10_S_d0_1 h_S_) main_v121 main_c_47
  let main_v123 : IVec S_ 1 := andi main_v118 main_v122
  let main_v124 : FVec F S10 .f32 := Host.absf main_arg26
  let main_cst_48 : FVec F S_ .f32 := constant S_ .f32 0x7F800000#32
  let main_v125 : FVec F S10 .f32 := broadcastInDim S10 ![] bcast_S_S10 main_cst_48
  let main_v126 : IVec S10 1 := cmpf .olt main_v124 main_v125
  let main_c_49 : IVec S_ 1 := constantI S_ 1 1#1
  let main_v127 : IVec S_ 1 := (fun x v => Host.reduce IntOp.andi x v reducesTo_S10_S_d0 h_S_) main_v126 main_c_49
  let main_v128 : IVec S_ 1 := andi main_v123 main_v127
  let main_c_50 : IVec S_ 32 := constantI S_ 32 0#32
  let main_v129 : IVec S32x2x32768 32 := broadcastInDim S32x2x32768 ![] bcast_S_S32x2x32768 main_c_50
  let main_v130 : IVec S32x2x32768 1 := cmpi .sge main_arg4 main_v129
  let main_c_51 : IVec S_ 32 := constantI S_ 32 512#32
  let main_v131 : IVec S32x2x32768 32 := broadcastInDim S32x2x32768 ![] bcast_S_S32x2x32768 main_c_51
  let main_v132 : IVec S32x2x32768 1 := cmpi .slt main_arg4 main_v131
  let main_v133 : IVec S32x2x32768 1 := andi main_v130 main_v132
  let main_c_52 : IVec S_ 1 := constantI S_ 1 1#1
  let main_v134 : IVec S_ 1 := (fun x v => Host.reduce IntOp.andi x v reducesTo_S32x2x32768_S_d0_1_2 h_S_) main_v133 main_c_52
  let main_v135 : IVec S_ 1 := andi main_v128 main_v134
  main_v135

def fn_part6 {F : FTy → Type} [FloatOps F] (main_arg4 : IVec S32x2x32768 32) (main_arg22 : FVec F S64 .f32) (main_arg23 : FVec F S64x64 .f32) (main_arg24 : FVec F S64 .f32) (main_arg25 : FVec F S64x10 .f32) (main_arg26 : FVec F S10 .f32) (main_v98 : IVec S_ 1) (main_v101 : IVec S18x64 1) (main_c_39 : IVec S_ 1) : IVec S_ 1 :=
  let main_v102 : IVec S_ 1 := (fun x v => Host.reduce IntOp.andi x v reducesTo_S18x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg23
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x10 .f32 := Host.absf main_arg25
  fn_part7 (F := F) main_arg4 main_arg26 main_v118 main_v119

def fn_part5 {F : FTy → Type} [FloatOps F] (main_arg4 : IVec S32x2x32768 32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x8 .f32 := Host.absf main_arg19
  let main_cst_34 : FVec F S_ .f32 := constant S_ .f32 0x7F800000#32
  let main_v90 : FVec F S128x8 .f32 := broadcastInDim S128x8 ![] bcast_S_S128x8 main_cst_34
  let main_v91 : IVec S128x8 1 := cmpf .olt main_v89 main_v90
  let main_c_35 : IVec S_ 1 := constantI S_ 1 1#1
  let main_v92 : IVec S_ 1 := (fun x v => Host.reduce IntOp.andi x v reducesTo_S128x8_S_d0_1 h_S_) main_v91 main_c_35
  let main_v93 : IVec S_ 1 := andi main_v88 main_v92
  let main_v94 : FVec F S8 .f32 := Host.absf main_arg20
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  let main_v99 : FVec F S18x64 .f32 := Host.absf main_arg21
  let main_cst_38 : FVec F S_ .f32 := constant S_ .f32 0x7F800000#32
  let main_v100 : FVec F S18x64 .f32 := broadcastInDim S18x64 ![] bcast_S_S18x64 main_cst_38
  let main_v101 : IVec S18x64 1 := cmpf .olt main_v99 main_v100
  let main_c_39 : IVec S_ 1 := constantI S_ 1 1#1
  fn_part6 (F := F) main_arg4 main_arg22 main_arg23 main_arg24 main_arg25 main_arg26 main_v98 main_v101 main_c_39

def fn_part4 {F : FTy → Type} [FloatOps F] (main_arg4 : IVec S32x2x32768 32) (main_arg15 : FVec F S256 .f32) (main_arg16 : FVec F S256 .f32) (main_arg17 : FVec F S256x128 .f32) (main_arg18 : FVec F S128 .f32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg4 main_arg19 main_arg20 main_arg21 main_arg22 main_arg23 main_arg24 main_arg25 main_arg26 main_v83 main_v84 main_cst_32

def fn_part3 {F : FTy → Type} [FloatOps F] (main_arg4 : IVec S32x2x32768 32) (main_arg12 : FVec F S256 .f32) (main_arg13 : FVec F S256 .f32) (main_arg14 : FVec F S256 .f32) (main_arg15 : FVec F S256 .f32) (main_arg16 : FVec F S256 .f32) (main_arg17 : FVec F S256x128 .f32) (main_arg18 : FVec F S128 .f32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg4 main_arg15 main_arg16 main_arg17 main_arg18 main_arg19 main_arg20 main_arg21 main_arg22 main_arg23 main_arg24 main_arg25 main_arg26 main_v63 main_v67

def fn_part2 {F : FTy → Type} [FloatOps F] (main_arg4 : IVec S32x2x32768 32) (main_arg8 : FVec F S512 .f32) (main_arg9 : FVec F S512 .f32) (main_arg10 : FVec F S512 .f32) (main_arg11 : FVec F S512x256 .f32) (main_arg12 : FVec F S256 .f32) (main_arg13 : FVec F S256 .f32) (main_arg14 : FVec F S256 .f32) (main_arg15 : FVec F S256 .f32) (main_arg16 : FVec F S256 .f32) (main_arg17 : FVec F S256x128 .f32) (main_arg18 : FVec F S128 .f32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg4 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : IVec S32x2x32768 32) (main_arg5 : FVec F S1024x512 .f32) (main_arg6 : FVec F S512 .f32) (main_arg7 : FVec F S512 .f32) (main_arg8 : FVec F S512 .f32) (main_arg9 : FVec F S512 .f32) (main_arg10 : FVec F S512 .f32) (main_arg11 : FVec F S512x256 .f32) (main_arg12 : FVec F S256 .f32) (main_arg13 : FVec F S256 .f32) (main_arg14 : FVec F S256 .f32) (main_arg15 : FVec F S256 .f32) (main_arg16 : FVec F S256 .f32) (main_arg17 : FVec F S256x128 .f32) (main_arg18 : FVec F S128 .f32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg4 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S32x512x1024 .f32) (main_arg1 : FVec F S32x512x4 .f32) (main_arg2 : FVec F S32x512x4 .f32) (main_arg3 : FVec F S32x512 .f32) (main_arg4 : IVec S32x2x32768 32) (main_arg5 : FVec F S1024x512 .f32) (main_arg6 : FVec F S512 .f32) (main_arg7 : FVec F S512 .f32) (main_arg8 : FVec F S512 .f32) (main_arg9 : FVec F S512 .f32) (main_arg10 : FVec F S512 .f32) (main_arg11 : FVec F S512x256 .f32) (main_arg12 : FVec F S256 .f32) (main_arg13 : FVec F S256 .f32) (main_arg14 : FVec F S256 .f32) (main_arg15 : FVec F S256 .f32) (main_arg16 : FVec F S256 .f32) (main_arg17 : FVec F S256x128 .f32) (main_arg18 : FVec F S128 .f32) (main_arg19 : FVec F S128x8 .f32) (main_arg20 : FVec F S8 .f32) (main_arg21 : FVec F S18x64 .f32) (main_arg22 : FVec F S64 .f32) (main_arg23 : FVec F S64x64 .f32) (main_arg24 : FVec F S64 .f32) (main_arg25 : FVec F S64x10 .f32) (main_arg26 : FVec F S10 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x4 .f32 := Host.absf main_arg1
  let main_cst_0 : FVec F S_ .f32 := constant S_ .f32 0x7F800000#32
  let main_v5 : FVec F S32x512x4 .f32 := broadcastInDim S32x512x4 ![] bcast_S_S32x512x4 main_cst_0
  let main_v6 : IVec S32x512x4 1 := cmpf .olt main_v4 main_v5
  let main_c_1 : IVec S_ 1 := constantI S_ 1 1#1
  let main_v7 : IVec S_ 1 := (fun x v => Host.reduce IntOp.andi x v reducesTo_S32x512x4_S_d0_1_2 h_S_) main_v6 main_c_1
  let main_v8 : IVec S_ 1 := andi main_v3 main_v7
  let main_v9 : FVec F S32x512x4 .f32 := Host.absf main_arg2
  let main_cst_2 : FVec F S_ .f32 := constant S_ .f32 0x7F800000#32
  let main_v10 : FVec F S32x512x4 .f32 := broadcastInDim S32x512x4 ![] bcast_S_S32x512x4 main_cst_2
  let main_v11 : IVec S32x512x4 1 := cmpf .olt main_v9 main_v10
  let main_c_3 : IVec S_ 1 := constantI S_ 1 1#1
  let main_v12 : IVec S_ 1 := (fun x v => Host.reduce IntOp.andi x v reducesTo_S32x512x4_S_d0_1_2 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S32x512x1024 : Shape := ⟨3, ![32, 512, 1024]⟩
abbrev S32x512x4 : Shape := ⟨3, ![32, 512, 4]⟩
abbrev S32x512 : Shape := ⟨2, ![32, 512]⟩
abbrev S32x2x32768 : Shape := ⟨3, ![32, 2, 32768]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S18x64 : Shape := ⟨2, ![18, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S16384x1024 : Shape := ⟨2, ![16384, 1024]⟩
abbrev S16384x8 : Shape := ⟨2, ![16384, 8]⟩
abbrev S1024x1024 : Shape := ⟨2, ![1024, 1024]⟩
abbrev S1024x8 : Shape := ⟨2, ![1024, 8]⟩
abbrev S1x512 : Shape := ⟨2, ![1, 512]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1x8 : Shape := ⟨2, ![1, 8]⟩
abbrev S32x512x8 : Shape := ⟨3, ![32, 512, 8]⟩
abbrev S_ : Shape := ⟨0, ![]⟩
abbrev S32x512x1 : Shape := ⟨3, ![32, 512, 1]⟩
abbrev S32x512x9 : Shape := ⟨3, ![32, 512, 9]⟩
abbrev S32x1x32768 : Shape := ⟨3, ![32, 1, 32768]⟩
abbrev S32x32768 : Shape := ⟨2, ![32, 32768]⟩
abbrev S32x32768x1 : Shape := ⟨3, ![32, 32768, 1]⟩
abbrev S32x32768x10 : Shape := ⟨3, ![32, 32768, 10]⟩
abbrev S1x8192x1 : Shape := ⟨3, ![1, 8192, 1]⟩
abbrev S1x512x9 : Shape := ⟨3, ![1, 512, 9]⟩
abbrev S1x8192x10 : Shape := ⟨3, ![1, 8192, 10]⟩
abbrev S8192x1 : Shape := ⟨2, ![8192, 1]⟩
abbrev S512x9 : Shape := ⟨2, ![512, 9]⟩
abbrev S8192x512 : Shape := ⟨2, ![8192, 512]⟩
abbrev S8192x9 : Shape := ⟨2, ![8192, 9]⟩
abbrev S8192x18 : Shape := ⟨2, ![8192, 18]⟩
abbrev S8192x64 : Shape := ⟨2, ![8192, 64]⟩
abbrev S1x64 : Shape := ⟨2, ![1, 64]⟩
abbrev S8192x10 : Shape := ⟨2, ![8192, 10]⟩
abbrev S1x10 : Shape := ⟨2, ![1, 10]⟩
abbrev S1048576x10 : Shape := ⟨2, ![1048576, 10]⟩

abbrev nBuf : Space → Nat
  | .hbm => 50
  | .vmem => 34
  | .smem => 0
  | _ => 0

abbrev bufTy : (tb : Table) → Fin (tcTables nBuf tb) → BufTy
  | .hbm, ⟨0, _⟩ => ⟨S32x512x1024, .f32⟩
  | .hbm, ⟨1, _⟩ => ⟨S32x512x4, .f32⟩
  | .hbm, ⟨2, _⟩ => ⟨S32x512x4, .f32⟩
  | .hbm, ⟨3, _⟩ => ⟨S32x512, .f32⟩
  | .hbm, ⟨4, _⟩ => ⟨S32x2x32768, .i32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x8, .f32⟩
  | .hbm, ⟨20, _⟩ => ⟨S8, .f32⟩
  | .hbm, ⟨21, _⟩ => ⟨S18x64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S64x10, .f32⟩
  | .hbm, ⟨26, _⟩ => ⟨S10, .f32⟩
  | .hbm, ⟨27, _⟩ => ⟨S16384x1024, .f32⟩
  | .hbm, ⟨28, _⟩ => ⟨S1024x512, .bf16⟩
  | .hbm, ⟨29, _⟩ => ⟨S512x256, .bf16⟩
  | .hbm, ⟨30, _⟩ => ⟨S256x128, .bf16⟩
  | .hbm, ⟨31, _⟩ => ⟨S128x8, .bf16⟩
  | .hbm, ⟨32, _⟩ => ⟨S16384x8, .f32⟩
  | .hbm, ⟨33, _⟩ => ⟨S32x512x8, .f32⟩
  | .hbm, ⟨34, _⟩ => ⟨S_, .f32⟩
  | .hbm, ⟨35, _⟩ => ⟨S32x512x4, .f32⟩
  | .hbm, ⟨36, _⟩ => ⟨S32x512x4, .f32⟩
  | .hbm, ⟨37, _⟩ => ⟨S32x512x1, .f32⟩
  | .hbm, ⟨38, _⟩ => ⟨S32x512x9, .f32⟩
  | .hbm, ⟨39, _⟩ => ⟨S32x1x32768, .i32⟩
  | .hbm, ⟨40, _⟩ => ⟨S32x32768, .i32⟩
  | .hbm, ⟨41, _⟩ => ⟨S32x32768x1, .i32⟩
  | .hbm, ⟨42, _⟩ => ⟨S32x1x32768, .i32⟩
  | .hbm, ⟨43, _⟩ => ⟨S32x32768, .i32⟩
  | .hbm, ⟨44, _⟩ => ⟨S32x32768x1, .i32⟩
  | .hbm, ⟨45, _⟩ => ⟨S18x64, .bf16⟩
  | .hbm, ⟨46, _⟩ => ⟨S64x64, .bf16⟩
  | .hbm, ⟨47, _⟩ => ⟨S64x10, .bf16⟩
  | .hbm, ⟨48, _⟩ => ⟨S32x32768x10, .f32⟩
  | .hbm, ⟨49, _⟩ => ⟨S1048576x10, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512x256, .bf16⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256x128, .bf16⟩
  | .local _ .vmem, ⟨15, _⟩ => ⟨S128, .f32⟩
  | .local _ .vmem, ⟨16, _⟩ => ⟨S128x8, .bf16⟩
  | .local _ .vmem, ⟨17, _⟩ => ⟨S8, .f32⟩
  | .local _ .vmem, ⟨18, _⟩ => ⟨S1024x8, .f32⟩
  | .local _ .vmem, ⟨19, _⟩ => ⟨S1024x8, .f32⟩
  | .local _ .vmem, ⟨20, _⟩ => ⟨S1x8192x1, .i32⟩
  | .local _ .vmem, ⟨21, _⟩ => ⟨S1x8192x1, .i32⟩
  | .local _ .vmem, ⟨22, _⟩ => ⟨S1x8192x1, .i32⟩
  | .local _ .vmem, ⟨23, _⟩ => ⟨S1x8192x1, .i32⟩
  | .local _ .vmem, ⟨24, _⟩ => ⟨S1x512x9, .f32⟩
  | .local _ .vmem, ⟨25, _⟩ => ⟨S1x512x9, .f32⟩
  | .local _ .vmem, ⟨26, _⟩ => ⟨S18x64, .bf16⟩
  | .local _ .vmem, ⟨27, _⟩ => ⟨S64, .f32⟩
  | .local _ .vmem, ⟨28, _⟩ => ⟨S64x64, .bf16⟩
  | .local _ .vmem, ⟨29, _⟩ => ⟨S64, .f32⟩
  | .local _ .vmem, ⟨30, _⟩ => ⟨S64x10, .bf16⟩
  | .local _ .vmem, ⟨31, _⟩ => ⟨S10, .f32⟩
  | .local _ .vmem, ⟨32, _⟩ => ⟨S1x8192x10, .f32⟩
  | .local _ .vmem, ⟨33, _⟩ => ⟨S1x8192x10, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x8 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S18x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x10 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x8192x10 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  shapeCasts_S32x512x1024_S16384x1024 : S32x512x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  shapeCasts_S16384x8_S32x512x8 : S16384x8.ShapeCasts S32x512x8
  bcast_S_S32x512x4 : S_.BroadcastsInDim S32x512x4 (![] : Fin 0 → Fin S32x512x4.rank)
  bcast_S32x512_S32x512x1_0_1 : S32x512.BroadcastsInDim S32x512x1 (![0, 1] : Fin 2 → Fin S32x512x1.rank)
  concatenates_S32x512x4_S32x512x4_S32x512x1_S32x512x9_d2 : Shape.Concatenates [S32x512x4, S32x512x4, S32x512x1] S32x512x9 2
  slices_S32x2x32768_S32x1x32768_0_0_0 : S32x2x32768.Slices ![0, 0, 0] S32x1x32768
  shapeCasts_S32x1x32768_S32x32768 : S32x1x32768.ShapeCasts S32x32768
  bcast_S32x32768_S32x32768x1_0_1 : S32x32768.BroadcastsInDim S32x32768x1 (![0, 1] : Fin 2 → Fin S32x32768x1.rank)
  slices_S32x2x32768_S32x1x32768_0_1_0 : S32x2x32768.Slices ![0, 1, 0] S32x1x32768
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  inb_S1x512x9_S1x512x9_0_0_0 : ∀ a, (![0, 0, 0] : Fin 3 → Nat) a + S1x512x9.size a ≤ S1x512x9.size a
  h_S1x512x9 : 0 < S1x512x9.numel
  shapeCasts_S1x512x9_S512x9 : S1x512x9.ShapeCasts S512x9
  iota_S8192x512_d1_w32 : S8192x512.Iotas .tc 32 [1]
  broadcasts_S8192x1_S8192x512 : S8192x1.Broadcasts S8192x512
  natLt_1_32 : 1 < 32
  concatenates_S8192x9_S8192x9_S8192x18_d1 : Shape.Concatenates [S8192x9, S8192x9] S8192x18 1
  inb_S18x64_S18x64_0_0 : ∀ a, (![0, 0] : Fin 2 → Nat) a + S18x64.size a ≤ S18x64.size a
  h_S18x64 : 0 < S18x64.numel
  shapeCasts_S18x64_S18x64 : S18x64.ShapeCasts S18x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S8192x10 : S1x10.Broadcasts S8192x10
  inb_S1x8192x10_S1x8192x10_0_0_0 : ∀ a, (![0, 0, 0] : Fin 3 → Nat) a + S1x8192x10.size a ≤ S1x8192x10.size a
  h_S1x8192x10 : 0 < S1x8192x10.numel
  shapeCasts_S1x8192x10_S8192x10 : S1x8192x10.ShapeCasts S8192x10
  shapeCasts_S8192x10_S1x8192x10 : S8192x10.ShapeCasts S1x8192x10
  shapeCasts_S32x32768x10_S1048576x10 : S32x32768x10.ShapeCasts S1048576x10
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x8_S1024x8_1_0_0_1_n_n_wf : DotDims.WF S1024x128 S128x8 S1024x8 [1] [0] [0] [1] [] []
  dot_S8192x512_S512x9_S8192x9_1_0_0_1_n_n_wf : DotDims.WF S8192x512 S512x9 S8192x9 [1] [0] [0] [1] [] []
  dot_S8192x18_S18x64_S8192x64_1_0_0_1_n_n_wf : DotDims.WF S8192x18 S18x64 S8192x64 [1] [0] [0] [1] [] []
  dot_S8192x64_S64x64_S8192x64_1_0_0_1_n_n_wf : DotDims.WF S8192x64 S64x64 S8192x64 [1] [0] [0] [1] [] []
  dot_S8192x64_S64x10_S8192x10_1_0_0_1_n_n_wf : DotDims.WF S8192x64 S64x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .bf16 = 32 ∨ (Rect.block (s := S256x128) S256x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x8.size a ≤ S128x8.size a
  hwx0_15 : ∀ i : grid0.Coords, EltTy.bits .bf16 = 32 ∨ (Rect.block (s := S128x8) S128x8.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S8.size a ≤ S8.size a
  hwx0_16 : ∀ i : grid0.Coords, EltTy.bits .f32 = 32 ∨ (Rect.block (s := S8) S8.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x8.size a ≤ S16384x8.size a
  hwx0_17 : ∀ i : grid0.Coords, EltTy.bits .f32 = 32 ∨ (Rect.block (s := S16384x8) S1024x8.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x1.size a ≤ S32x32768x1.size a
  hwx1_0 : ∀ i : grid1.Coords, EltTy.bits .i32 = 32 ∨ (Rect.block (s := S32x32768x1) S1x8192x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x1.size a ≤ S32x32768x1.size a
  hwx1_1 : ∀ i : grid1.Coords, EltTy.bits .i32 = 32 ∨ (Rect.block (s := S32x32768x1) S1x8192x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x9.size a ≤ S32x512x9.size a
  hwx1_2 : ∀ i : grid1.Coords, EltTy.bits .f32 = 32 ∨ (Rect.block (s := S32x512x9) S1x512x9.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S18x64.size a ≤ S18x64.size a
  hwx1_3 : ∀ i : grid1.Coords, EltTy.bits .bf16 = 32 ∨ (Rect.block (s := S18x64) S18x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x10.size a ≤ S64x10.size a
  hwx1_7 : ∀ i : grid1.Coords, EltTy.bits .bf16 = 32 ∨ (Rect.block (s := S64x10) S64x10.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10.size a ≤ S10.size a
  hwx1_8 : ∀ i : grid1.Coords, EltTy.bits .f32 = 32 ∨ (Rect.block (s := S10) S10.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x8192x10.size a ≤ S32x32768x10.size a
  hwx1_9 : ∀ i : grid1.Coords, EltTy.bits .f32 = 32 ∨ (Rect.block (s := S32x32768x10) S1x8192x10.size (cc1_transform_9 i) (hinb1_9 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S8192x512_S512x9_S8192x9_1_0_0_1_n_n : DotDims S8192x512 S512x9 S8192x9 where
  lhsContracting := [1]
  rhsContracting := [0]
  lhsNonContracting := [0]
  rhsNonContracting := [1]
  lhsBatch := []
  rhsBatch := []
  wf := dot_S8192x512_S512x9_S8192x9_1_0_0_1_n_n_wf
def dot_S8192x18_S18x64_S8192x64_1_0_0_1_n_n : DotDims S8192x18 S18x64 S8192x64 where
  lhsContracting := [1]
  rhsContracting := [0]
  lhsNonContracting := [0]
  rhsNonContracting := [1]
  lhsBatch := []
  rhsBatch := []
  wf := dot_S8192x18_S18x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S128x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg20) S8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v5) S1024x8.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v13) S1x8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x9.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S18x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg22) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg24) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S64x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg26) S10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S1x8192x10.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32x512x1024 : Shape := ⟨3, ![32, 512, 1024]⟩
abbrev S32x512x4 : Shape := ⟨3, ![32, 512, 4]⟩
abbrev S32x512 : Shape := ⟨2, ![32, 512]⟩
abbrev S32x2x32768 : Shape := ⟨3, ![32, 2, 32768]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x8 : Shape := ⟨2, ![128, 8]⟩
abbrev S8 : Shape := ⟨1, ![8]⟩
abbrev S18x64 : Shape := ⟨2, ![18, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S16384x1024 : Shape := ⟨2, ![16384, 1024]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x8 : Shape := ⟨2, ![16384, 8]⟩
abbrev S1x8 : Shape := ⟨2, ![1, 8]⟩
abbrev S32x512x8 : Shape := ⟨3, ![32, 512, 8]⟩
abbrev S32x512x1 : Shape := ⟨3, ![32, 512, 1]⟩
abbrev S32x512x9 : Shape := ⟨3, ![32, 512, 9]⟩
abbrev S32x1x32768 : Shape := ⟨3, ![32, 1, 32768]⟩
abbrev S32x32768 : Shape := ⟨2, ![32, 32768]⟩
abbrev S32x32768x1 : Shape := ⟨3, ![32, 32768, 1]⟩
abbrev S1 : Shape := ⟨1, ![1]⟩
abbrev S1x1x1 : Shape := ⟨3, ![1, 1, 1]⟩
abbrev S32x32768x9 : Shape := ⟨3, ![32, 32768, 9]⟩
abbrev S32x32768x18 : Shape := ⟨3, ![32, 32768, 18]⟩
abbrev S1048576x18 : Shape := ⟨2, ![1048576, 18]⟩
abbrev S1048576x64 : Shape := ⟨2, ![1048576, 64]⟩
abbrev S1x64 : Shape := ⟨2, ![1, 64]⟩
abbrev S1048576x10 : Shape := ⟨2, ![1048576, 10]⟩
abbrev S1x10 : Shape := ⟨2, ![1, 10]⟩

abbrev nBuf : Space → Nat
  | .hbm => 177
  | .vmem => 0
  | .smem => 0
  | _ => 0

abbrev hbmTy0_0 (i : Nat) : BufTy := match i % 128 with
  | 0 => ⟨S32x512x1024, .f32⟩
  | 1 => ⟨S32x512x4, .f32⟩
  | 2 => ⟨S32x512x4, .f32⟩
  | 3 => ⟨S32x512, .f32⟩
  | 4 => ⟨S32x2x32768, .i32⟩
  | 5 => ⟨S1024x512, .f32⟩
  | 6 => ⟨S512, .f32⟩
  | 7 => ⟨S512, .f32⟩
  | 8 => ⟨S512, .f32⟩
  | 9 => ⟨S512, .f32⟩
  | 10 => ⟨S512, .f32⟩
  | 11 => ⟨S512x256, .f32⟩
  | 12 => ⟨S256, .f32⟩
  | 13 => ⟨S256, .f32⟩
  | 14 => ⟨S256, .f32⟩
  | 15 => ⟨S256, .f32⟩
  | 16 => ⟨S256, .f32⟩
  | 17 => ⟨S256x128, .f32⟩
  | 18 => ⟨S128, .f32⟩
  | 19 => ⟨S128x8, .f32⟩
  | 20 => ⟨S8, .f32⟩
  | 21 => ⟨S18x64, .f32⟩
  | 22 => ⟨S64, .f32⟩
  | 23 => ⟨S64x64, .f32⟩
  | 24 => ⟨S64, .f32⟩
  | 25 => ⟨S64x10, .f32⟩
  | 26 => ⟨S10, .f32⟩
  | 27 => ⟨S16384x1024, .f32⟩
  | 28 => ⟨S16384x512, .f32⟩
  | 29 => ⟨S1x512, .f32⟩
  | 30 => ⟨S16384x512, .f32⟩
  | 31 => ⟨S16384x512, .f32⟩
  | 32 => ⟨S1x512, .f32⟩
  | 33 => ⟨S16384x512, .f32⟩
  | 34 => ⟨S16384x512, .f32⟩
  | 35 => ⟨S1x512, .f32⟩
  | 36 => ⟨S16384x512, .f32⟩
  | 37 => ⟨S16384x512, .f32⟩
  | 38 => ⟨S_, .f32⟩
  | 39 => ⟨S512, .f32⟩
  | 40 => ⟨S512, .f32⟩
  | 41 => ⟨S512, .f32⟩
  | 42 => ⟨S1x512, .f32⟩
  | 43 => ⟨S16384x512, .f32⟩
  | 44 => ⟨S16384x512, .f32⟩
  | 45 => ⟨S1x512, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x256, .f32⟩
  | 52 => ⟨S1x256, .f32⟩
  | 53 => ⟨S16384x256, .f32⟩
  | 54 => ⟨S16384x256, .f32⟩
  | 55 => ⟨S1x256, .f32⟩
  | 56 => ⟨S16384x256, .f32⟩
  | 57 => ⟨S16384x256, .f32⟩
  | 58 => ⟨S1x256, .f32⟩
  | 59 => ⟨S16384x256, .f32⟩
  | 60 => ⟨S16384x256, .f32⟩
  | 61 => ⟨S_, .f32⟩
  | 62 => ⟨S256, .f32⟩
  | 63 => ⟨S256, .f32⟩
  | 64 => ⟨S256, .f32⟩
  | 65 => ⟨S1x256, .f32⟩
  | 66 => ⟨S16384x256, .f32⟩
  | 67 => ⟨S16384x256, .f32⟩
  | 68 => ⟨S1x256, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S16384x128, .f32⟩
  | 75 => ⟨S1x128, .f32⟩
  | 76 => ⟨S16384x128, .f32⟩
  | 77 => ⟨S16384x128, .f32⟩
  | 78 => ⟨S_, .f32⟩
  | 79 => ⟨S16384x128, .f32⟩
  | 80 => ⟨S16384x128, .f32⟩
  | 81 => ⟨S16384x8, .f32⟩
  | 82 => ⟨S1x8, .f32⟩
  | 83 => ⟨S16384x8, .f32⟩
  | 84 => ⟨S16384x8, .f32⟩
  | 85 => ⟨S16384x8, .f32⟩
  | 86 => ⟨S16384x8, .f32⟩
  | 87 => ⟨S_, .f32⟩
  | 88 => ⟨S16384x8, .f32⟩
  | 89 => ⟨S16384x8, .f32⟩
  | 90 => ⟨S_, .f32⟩
  | 91 => ⟨S16384x8, .f32⟩
  | 92 => ⟨S16384x8, .f32⟩
  | 93 => ⟨S32x512x8, .f32⟩
  | 94 => ⟨S_, .f32⟩
  | 95 => ⟨S32x512x4, .f32⟩
  | 96 => ⟨S32x512x4, .f32⟩
  | 97 => ⟨S32x512x1, .f32⟩
  | 98 => ⟨S32x512x9, .f32⟩
  | 99 => ⟨S32x1x32768, .i32⟩
  | 100 => ⟨S32x32768, .i32⟩
  | 101 => ⟨S32x32768x1, .i32⟩
  | 102 => ⟨S32x1x32768, .i32⟩
  | 103 => ⟨S32x32768, .i32⟩
  | 104 => ⟨S32x32768x1, .i32⟩
  | 105 => ⟨S_, .i32⟩
  | 106 => ⟨S32x32768x1, .i32⟩
  | 107 => ⟨S32x32768x1, .i1⟩
  | 108 => ⟨S_, .i32⟩
  | 109 => ⟨S32x32768x1, .i32⟩
  | 110 => ⟨S32x32768x1, .i32⟩
  | 111 => ⟨S32x32768x1, .i32⟩
  | 112 => ⟨S1, .i32⟩
  | 113 => ⟨S_, .i32⟩
  | 114 => ⟨S32x32768x1, .i32⟩
  | 115 => ⟨S32x32768x1, .i1⟩
  | 116 => ⟨S1x1x1, .i32⟩
  | 117 => ⟨S32x32768x1, .i32⟩
  | 118 => ⟨S32x32768x1, .i1⟩
  | 119 => ⟨S32x32768x1, .i1⟩
  | 120 => ⟨S_, .i1⟩
  | 121 => ⟨S32x32768, .i1⟩
  | 122 => ⟨S32x32768x9, .f32⟩
  | 123 => ⟨S32x32768x9, .i1⟩
  | 124 => ⟨S_, .f32⟩
  | 125 => ⟨S32x32768x9, .f32⟩
  | 126 => ⟨S32x32768x9, .f32⟩
  | 127 => ⟨S_, .i32⟩
  | _ => ⟨S32x512x1024, .f32⟩

abbrev hbmTy0_1 (i : Nat) : BufTy := match i % 128 with
  | 0 => ⟨S32x32768x1, .i32⟩
  | 1 => ⟨S32x32768x1, .i1⟩
  | 2 => ⟨S_, .i32⟩
  | 3 => ⟨S32x32768x1, .i32⟩
  | 4 => ⟨S32x32768x1, .i32⟩
  | 5 => ⟨S32x32768x1, .i32⟩
  | 6 => ⟨S1, .i32⟩
  | 7 => ⟨S_, .i32⟩
  | 8 => ⟨S32x32768x1, .i32⟩
  | 9 => ⟨S32x32768x1, .i1⟩
  | 10 => ⟨S1x1x1, .i32⟩
  | 11 => ⟨S32x32768x1, .i32⟩
  | 12 => ⟨S32x32768x1, .i1⟩
  | 13 => ⟨S32x32768x1, .i1⟩
  | 14 => ⟨S_, .i1⟩
  | 15 => ⟨S32x32768, .i1⟩
  | 16 => ⟨S32x32768x9, .f32⟩
  | 17 => ⟨S32x32768x9, .i1⟩
  | 18 => ⟨S_, .f32⟩
  | 19 => ⟨S32x32768x9, .f32⟩
  | 20 => ⟨S32x32768x9, .f32⟩
  | 21 => ⟨S32x32768x18, .f32⟩
  | 22 => ⟨S1048576x18, .f32⟩
  | 23 => ⟨S1048576x64, .f32⟩
  | 24 => ⟨S1x64, .f32⟩
  | 25 => ⟨S1048576x64, .f32⟩
  | 26 => ⟨S1048576x64, .f32⟩
  | 27 => ⟨S_, .f32⟩
  | 28 => ⟨S1048576x64, .f32⟩
  | 29 => ⟨S1048576x64, .f32⟩
  | 30 => ⟨S1048576x64, .f32⟩
  | 31 => ⟨S1x64, .f32⟩
  | 32 => ⟨S1048576x64, .f32⟩
  | 33 => ⟨S1048576x64, .f32⟩
  | 34 => ⟨S_, .f32⟩
  | 35 => ⟨S1048576x64, .f32⟩
  | 36 => ⟨S1048576x64, .f32⟩
  | 37 => ⟨S1048576x10, .f32⟩
  | 38 => ⟨S1x10, .f32⟩
  | 39 => ⟨S1048576x10, .f32⟩
  | 40 => ⟨S1048576x10, .f32⟩
  | 41 => ⟨S1048576x10, .f32⟩
  | 42 => ⟨S1048576x10, .f32⟩
  | 43 => ⟨S_, .f32⟩
  | 44 => ⟨S1048576x10, .f32⟩
  | 45 => ⟨S1048576x10, .f32⟩
  | 46 => ⟨S_, .f32⟩
  | 47 => ⟨S1048576x10, .f32⟩
  | 48 => ⟨S1048576x10, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call0_cst : Ref sig .tc := ⟨.hbm, 48, rfl⟩
abbrev main_call0_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call1_cst : Ref sig .tc := ⟨.hbm, 71, rfl⟩
abbrev main_call1_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call2_cst : Ref sig .tc := ⟨.hbm, 78, rfl⟩
abbrev main_call2_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_1 : Ref sig .tc := ⟨.hbm, 87, rfl⟩
abbrev main_v52 : Ref sig .tc := ⟨.hbm, 88, rfl⟩
abbrev main_v53 : Ref sig .tc := ⟨.hbm, 89, rfl⟩
abbrev main_cst_2 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_3 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_1 : Ref sig .tc := ⟨.hbm, 112, rfl⟩
abbrev main_call3_c_2 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_c_3 : Ref sig .tc := ⟨.hbm, 120, rfl⟩
abbrev main_call3_v11 : Ref sig .tc := ⟨.hbm, 121, rfl⟩
abbrev main_call3_v12 : Ref sig .tc := ⟨.hbm, 122, rfl⟩
abbrev main_call3_v13 : Ref sig .tc := ⟨.hbm, 123, rfl⟩
abbrev main_call3_cst : Ref sig .tc := ⟨.hbm, 124, rfl⟩
abbrev main_call3_v14 : Ref sig .tc := ⟨.hbm, 125, rfl⟩
abbrev main_v67 : Ref sig .tc := ⟨.hbm, 126, rfl⟩
abbrev main_call4_c : Ref sig .tc := ⟨.hbm, 127, rfl⟩
abbrev main_call4_v0 : Ref sig .tc := ⟨.hbm, 128, rfl⟩
abbrev main_call4_v1 : Ref sig .tc := ⟨.hbm, 129, rfl⟩
abbrev main_call4_c_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_c_1 : Ref sig .tc := ⟨.hbm, 134, rfl⟩
abbrev main_call4_c_2 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_call4_c_3 : Ref sig .tc := ⟨.hbm, 142, rfl⟩
abbrev main_call4_v11 : Ref sig .tc := ⟨.hbm, 143, rfl⟩
abbrev main_call4_v12 : Ref sig .tc := ⟨.hbm, 144, rfl⟩
abbrev main_call4_v13 : Ref sig .tc := ⟨.hbm, 145, rfl⟩
abbrev main_call4_cst : Ref sig .tc := ⟨.hbm, 146, rfl⟩
abbrev main_call4_v14 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_call5_cst : Ref sig .tc := ⟨.hbm, 155, rfl⟩
abbrev main_call5_v0 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_call6_cst : Ref sig .tc := ⟨.hbm, 162, rfl⟩
abbrev main_call6_v0 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_4 : Ref sig .tc := ⟨.hbm, 171, rfl⟩
abbrev main_v87 : Ref sig .tc := ⟨.hbm, 172, rfl⟩
abbrev main_v88 : Ref sig .tc := ⟨.hbm, 173, rfl⟩
abbrev main_cst_5 : Ref sig .tc := ⟨.hbm, 174, rfl⟩
abbrev main_v89 : Ref sig .tc := ⟨.hbm, 175, rfl⟩
abbrev main_v90 : Ref sig .tc := ⟨.hbm, 176, rfl⟩

abbrev nD : Nat := 1
abbrev τ : Topo := Topo.v7x

variable {F : FTy → Type} [FloatOps F]

class Facts₀ : Prop where
  shapeCasts_S32x512x1024_S16384x1024 : S32x512x1024.ShapeCasts S16384x1024
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S512 : S_.BroadcastsInDim S512 (![] : Fin 0 → Fin S512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S256 : S_.BroadcastsInDim S256 (![] : Fin 0 → Fin S256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  shapeCasts_S16384x8_S32x512x8 : S16384x8.ShapeCasts S32x512x8
  bcast_S_S32x512x4 : S_.BroadcastsInDim S32x512x4 (![] : Fin 0 → Fin S32x512x4.rank)
  bcast_S32x512_S32x512x1_0_1 : S32x512.BroadcastsInDim S32x512x1 (![0, 1] : Fin 2 → Fin S32x512x1.rank)
  concatenates_S32x512x4_S32x512x4_S32x512x1_S32x512x9_d2 : Shape.Concatenates [S32x512x4, S32x512x4, S32x512x1] S32x512x9 2
  slices_S32x2x32768_S32x1x32768_0_0_0 : S32x2x32768.Slices ![0, 0, 0] S32x1x32768
  shapeCasts_S32x1x32768_S32x32768 : S32x1x32768.ShapeCasts S32x32768
  bcast_S32x32768_S32x32768x1_0_1 : S32x32768.BroadcastsInDim S32x32768x1 (![0, 1] : Fin 2 → Fin S32x32768x1.rank)
  slices_S32x2x32768_S32x1x32768_0_1_0 : S32x2x32768.Slices ![0, 1, 0] S32x1x32768
  bcast_S_S32x32768x1 : S_.BroadcastsInDim S32x32768x1 (![] : Fin 0 → Fin S32x32768x1.rank)
  bcast_S1_S1x1x1_2 : S1.BroadcastsInDim S1x1x1 (![2] : Fin 1 → Fin S1x1x1.rank)
  bcast_S1x1x1_S32x32768x1_0_1_2 : S1x1x1.BroadcastsInDim S32x32768x1 (![0, 1, 2] : Fin 3 → Fin S32x32768x1.rank)
  reducesTo_S32x32768x1_S32x32768_d2 : S32x32768x1.ReducesTo [2] S32x32768
  h_S_ : 0 < S_.numel
  bcast_S32x32768_S32x32768x9_0_1 : S32x32768.BroadcastsInDim S32x32768x9 (![0, 1] : Fin 2 → Fin S32x32768x9.rank)
  bcast_S_S32x32768x9 : S_.BroadcastsInDim S32x32768x9 (![] : Fin 0 → Fin S32x32768x9.rank)
  concatenates_S32x32768x9_S32x32768x9_S32x32768x18_d2 : Shape.Concatenates [S32x32768x9, S32x32768x9] S32x32768x18 2
  shapeCasts_S32x32768x18_S1048576x18 : S32x32768x18.ShapeCasts S1048576x18
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  bcast_S_S1048576x10 : S_.BroadcastsInDim S1048576x10 (![] : Fin 0 → Fin S1048576x10.rank)
  dot_S16384x1024_S1024x512_S16384x512_1_0_0_1_n_n_wf : DotDims.WF S16384x1024 S1024x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x8_S16384x8_1_0_0_1_n_n_wf : DotDims.WF S16384x128 S128x8 S16384x8 [1] [0] [0] [1] [] []
  gather_S32x512x9_S32x32768x1_S32x32768x9_2_1_0_0_1_2_119_wf : GatherDims.WF S32x512x9 S32x32768x1 S32x32768x9 [2] [1] [0] [1] [0] 2 ![1, 1, 9]
  dot_S1048576x18_S18x64_S1048576x64_1_0_0_1_n_n_wf : DotDims.WF S1048576x18 S18x64 S1048576x64 [1] [0] [0] [1] [] []
  dot_S1048576x64_S64x64_S1048576x64_1_0_0_1_n_n_wf : DotDims.WF S1048576x64 S64x64 S1048576x64 [1] [0] [0] [1] [] []
  dot_S1048576x64_S64x10_S1048576x10_1_0_0_1_n_n_wf : DotDims.WF S1048576x64 S64x10 S1048576x10 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def gather_S32x512x9_S32x32768x1_S32x32768x9_2_1_0_0_1_2_119 : GatherDims S32x512x9 S32x32768x1 S32x32768x9 where
  offsetDims := [2]
  collapsedSliceDims := [1]
  operandBatchingDims := [0]
  startIndicesBatchingDims := [0]
  startIndexMap := [1]
  indexVectorDim := 2
  sliceSizes := ![1, 1, 9]
  wf := gather_S32x512x9_S32x32768x1_S32x32768x9_2_1_0_0_1_2_119_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x10_S1048576x10_1_0_0_1_n_n : DotDims S1048576x64 S64x10 S1048576x10 where
  lhsContracting := [1]
  rhsContracting := [0]
  lhsNonContracting := [0]
  rhsNonContracting := [1]
  lhsBatch := []
  rhsBatch := []
  wf := dot_S1048576x64_S64x10_S1048576x10_1_0_0_1_n_n_wf

class Facts : Prop extends Facts₀ where

variable [Facts]
-- ==== Proof.KINode.lean ====
/-
  Region 0 of the program's @main (its node kernel), at any buffer contents `V` the region may be entered from.

  Each input window's block at a grid point is read off its array; the kernel body, run on whole staging buffers
  holding the input blocks, leaves the inputs as they were and the output buffer at one function of the input blocks
  (its one store, of the value the body computes from its loads); with that, the pipeline's proof data — the arrays
  as the region finds them, each input buffer at its block after the body, the output buffer at that function — meets
  the library's body obligation at every grid point.
-/
import proofs.«419047_j46299747451450_1_alg».proof.Proof.Gen.KernelIdeal.Launch
import proofs.«419047_j46299747451450_1_alg».proof.Proof.Gen.KernelIdeal.Skeleton
import proofs.«419047_j46299747451450_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not: where it is not
    fetched its block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not: where it is not
    fetched its block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not: where it is not
    fetched its block index has not moved since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not: where it is not
    fetched its block index has not moved since the last fetch. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not: where it is not
    fetched its block index has not moved since the last fetch. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not: where it is not
    fetched its block index has not moved since the last fetch. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not: where it is not
    fetched its block index has not moved since the last fetch. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not: where it is not
    fetched its block index has not moved since the last fetch. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not: where it is not
    fetched its block index has not moved since the last fetch. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not: where it is not
    fetched its block index has not moved since the last fetch. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not: where it is not
    fetched its block index has not moved since the last fetch. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not: where it is not
    fetched its block index has not moved since the last fetch. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not: where it is not
    fetched its block index has not moved since the last fetch. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take their buffer whole -/

abbrev r0_S1024x1024 : Rect S1024x1024 := Rect.unit (s := S1024x1024) ![0, 0] S1024x1024.size inb_S1024x1024_S1024x1024_0_0
abbrev r0_S1024x512 : Rect S1024x512 := Rect.unit (s := S1024x512) ![0, 0] S1024x512.size inb_S1024x512_S1024x512_0_0
abbrev r0_S512 : Rect S512 := Rect.unit (s := S512) ![0] S512.size inb_S512_S512_0
abbrev r0_S512x256 : Rect S512x256 := Rect.unit (s := S512x256) ![0, 0] S512x256.size inb_S512x256_S512x256_0_0
abbrev r0_S256 : Rect S256 := Rect.unit (s := S256) ![0] S256.size inb_S256_S256_0
abbrev r0_S256x128 : Rect S256x128 := Rect.unit (s := S256x128) ![0, 0] S256x128.size inb_S256x128_S256x128_0_0
abbrev r0_S128 : Rect S128 := Rect.unit (s := S128) ![0] S128.size inb_S128_S128_0
abbrev r0_S128x8 : Rect S128x8 := Rect.unit (s := S128x8) ![0, 0] S128x8.size inb_S128x8_S128x8_0_0
abbrev r0_S8 : Rect S8 := Rect.unit (s := S8) ![0] S8.size inb_S8_S8_0
abbrev r0_S1024x8 : Rect S1024x8 := Rect.unit (s := S1024x8) ![0, 0] S1024x8.size inb_S1024x8_S1024x8_0_0

/-! ## What the body leaves in the output window's buffer -/

/-- The output buffer after the body, from the input windows' blocks: the one store, of the value the body computes
    from its loads, covering the buffer. -/
def out0_17 (x0 : Vec F S1024x1024 .f32) (x1 : Vec F S1024x512 .bf16) (x2 : Vec F S512 .f32) (x3 : Vec F S512 .f32) (x4 : Vec F S512 .f32) (x5 : Vec F S512 .f32) (x6 : Vec F S512 .f32) (x7 : Vec F S512x256 .bf16) (x8 : Vec F S256 .f32) (x9 : Vec F S256 .f32) (x10 : Vec F S256 .f32) (x11 : Vec F S256 .f32) (x12 : Vec F S256 .f32) (x13 : Vec F S256x128 .bf16) (x14 : Vec F S128 .f32) (x15 : Vec F S128x8 .bf16) (x16 : Vec F S8 .f32) : Vec F S1024x8 .f32 :=
  View.canon [⟨r0_S1024x8, k0_pay1 (k0_pay2 (View.ld x0 r0_S1024x1024) (View.ld x1 r0_S1024x512) (View.ld x2 r0_S512) (View.ld x3 r0_S512) (View.ld x4 r0_S512) (View.ld x5 r0_S512) (View.ld x6 r0_S512) (View.ld x7 r0_S512x256) (View.ld x8 r0_S256)) (View.ld x9 r0_S256) (View.ld x10 r0_S256) (View.ld x11 r0_S256) (View.ld x12 r0_S256) (View.ld x13 r0_S256x128) (View.ld x14 r0_S128) (View.ld x15 r0_S128x8) (View.ld x16 r0_S8)⟩]

/-- The store covers the buffer. -/
theorem cover0_17 (p0 : Vec F S1024x8 .f32) (y : S1024x8.Idx) :
    ∃ pc ∈ ([⟨r0_S1024x8, p0⟩] : List (View.Piece (Elt F) S1024x8 .f32)), y ∈ pc.1.set :=
  View.cover_of_tiled [⟨r0_S1024x8, p0⟩] S1024x8.size (by rfl) y

/-! ## The body's triple -/

set_option maxHeartbeats 4000000 in
/-- The kernel body on whole staging memrefs, the inputs' at contents `xW` and the output's at anything, runs to the
    continuation holding the inputs' as they were and the output's at `out0_17` of the inputs'. -/
theorem sound_kernel0 (c : Dev nD) (E : Set ℕ) (i : grid0.Coords) (a0 : Memref sig .tc .vmem S1024x1024 .f32) (ha0 : a0.IsWhole) (a1 : Memref sig .tc .vmem S1024x512 .bf16) (ha1 : a1.IsWhole) (a2 : Memref sig .tc .vmem S512 .f32) (ha2 : a2.IsWhole) (a3 : Memref sig .tc .vmem S512 .f32) (ha3 : a3.IsWhole) (a4 : Memref sig .tc .vmem S512 .f32) (ha4 : a4.IsWhole) (a5 : Memref sig .tc .vmem S512 .f32) (ha5 : a5.IsWhole) (a6 : Memref sig .tc .vmem S512 .f32) (ha6 : a6.IsWhole) (a7 : Memref sig .tc .vmem S512x256 .bf16) (ha7 : a7.IsWhole) (a8 : Memref sig .tc .vmem S256 .f32) (ha8 : a8.IsWhole) (a9 : Memref sig .tc .vmem S256 .f32) (ha9 : a9.IsWhole) (a10 : Memref sig .tc .vmem S256 .f32) (ha10 : a10.IsWhole) (a11 : Memref sig .tc .vmem S256 .f32) (ha11 : a11.IsWhole) (a12 : Memref sig .tc .vmem S256 .f32) (ha12 : a12.IsWhole) (a13 : Memref sig .tc .vmem S256x128 .bf16) (ha13 : a13.IsWhole) (a14 : Memref sig .tc .vmem S128 .f32) (ha14 : a14.IsWhole) (a15 : Memref sig .tc .vmem S128x8 .bf16) (ha15 : a15.IsWhole) (a16 : Memref sig .tc .vmem S8 .f32) (ha16 : a16.IsWhole) (a17 : Memref sig .tc .vmem S1024x8 .f32) (ha17 : a17.IsWhole)
    (x0 : Vec F S1024x1024 .f32) (x1 : Vec F S1024x512 .bf16) (x2 : Vec F S512 .f32) (x3 : Vec F S512 .f32) (x4 : Vec F S512 .f32) (x5 : Vec F S512 .f32) (x6 : Vec F S512 .f32) (x7 : Vec F S512x256 .bf16) (x8 : Vec F S256 .f32) (x9 : Vec F S256 .f32) (x10 : Vec F S256 .f32) (x11 : Vec F S256 .f32) (x12 : Vec F S256 .f32) (x13 : Vec F S256x128 .bf16) (x14 : Vec F S128 .f32) (x15 : Vec F S128x8 .bf16) (x16 : Vec F S8 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare (out0_17 x0 x1 x2 x3 x4 x5 x6 x7 x8 x9 x10 x11 x12 x13 x14 x15 x16)) -∗ K ⟨⟩))
      ⊢ wp frame (wpE (defs₀ (F := F)) Variants.none c none) E (cc0__node_kernel i a0 ha0 a1 ha1 a2 ha2 a3 ha3 a4 ha4 a5 ha5 a6 ha6 a7 ha7 a8 ha8 a9 ha9 a10 ha10 a11 ha11 a12 ha12 a13 ha13 a14 ha14 a15 ha15 a16 ha16 a17 ha17) K := by
  simp only [cc0__node_kernel_eq_skeleton]; unfold cc0__node_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  try dsimp only
  exact View.read_writes_eq_canon _ _ _ (cover0_17 _)

/-! ## The pipeline's proof data -/

/-- The proof data of pipeline 0 on core `c`: the arrays as the region finds them; after the body at point `t` each
    input's buffer at its block and the output's at `out0_17` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨_ + 18, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t))

set_option maxHeartbeats 4000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel0 c Set.univ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIEdge.lean ====
/-
  Region 1 of the program's @main (its edge kernel), at any buffer contents `V` the region may be entered from.

  Each input window's block at a grid point is read off its array; the kernel body, run on whole staging buffers
  holding the input blocks, leaves the inputs as they were and the output buffer at one function of the input blocks
  (its one store, of the value the body computes from its loads); with that, the pipeline's proof data — the arrays
  as the region finds them, each input buffer at its block after the body, the output buffer at that function — meets
  the library's body obligation at every grid point.
-/
import proofs.«419047_j46299747451450_1_alg».proof.Proof.Gen.KernelIdeal.Launch
import proofs.«419047_j46299747451450_1_alg».proof.Proof.Gen.KernelIdeal.Skeleton
import proofs.«419047_j46299747451450_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched its block index has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not: where it is not
    fetched its block index has not moved since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not: where it is not
    fetched its block index has not moved since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not: where it is not
    fetched its block index has not moved since the last fetch. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take their buffer whole -/

abbrev r1_S1x8192x1 : Rect S1x8192x1 := Rect.unit (s := S1x8192x1) ![0, 0, 0] S1x8192x1.size inb_S1x8192x1_S1x8192x1_0_0_0
abbrev r1_S1x512x9 : Rect S1x512x9 := Rect.unit (s := S1x512x9) ![0, 0, 0] S1x512x9.size inb_S1x512x9_S1x512x9_0_0_0
abbrev r1_S18x64 : Rect S18x64 := Rect.unit (s := S18x64) ![0, 0] S18x64.size inb_S18x64_S18x64_0_0
abbrev r1_S64 : Rect S64 := Rect.unit (s := S64) ![0] S64.size inb_S64_S64_0
abbrev r1_S64x64 : Rect S64x64 := Rect.unit (s := S64x64) ![0, 0] S64x64.size inb_S64x64_S64x64_0_0
abbrev r1_S64x10 : Rect S64x10 := Rect.unit (s := S64x10) ![0, 0] S64x10.size inb_S64x10_S64x10_0_0
abbrev r1_S10 : Rect S10 := Rect.unit (s := S10) ![0] S10.size inb_S10_S10_0
abbrev r1_S1x8192x10 : Rect S1x8192x10 := Rect.unit (s := S1x8192x10) ![0, 0, 0] S1x8192x10.size inb_S1x8192x10_S1x8192x10_0_0_0

/-! ## What the body leaves in the output window's buffer -/

/-- The output buffer after the body, from the input windows' blocks: the one store, of the value the body computes
    from its loads, covering the buffer. -/
def out1_9 (x0 : Vec F S1x8192x1 .i32) (x1 : Vec F S1x8192x1 .i32) (x2 : Vec F S1x512x9 .f32) (x3 : Vec F S18x64 .bf16) (x4 : Vec F S64 .f32) (x5 : Vec F S64x64 .bf16) (x6 : Vec F S64 .f32) (x7 : Vec F S64x10 .bf16) (x8 : Vec F S10 .f32) : Vec F S1x8192x10 .f32 :=
  View.canon [⟨r1_S1x8192x10, k1_pay1 (k1_pay2 (View.ld x0 r1_S1x8192x1) (View.ld x1 r1_S1x8192x1) (View.ld x2 r1_S1x512x9) (View.ld x3 r1_S18x64) (View.ld x4 r1_S64) (View.ld x5 r1_S64x64)) (k1_pay3 (View.ld x6 r1_S64)) (View.ld x7 r1_S64x10) (View.ld x8 r1_S10)⟩]

/-- The store covers the buffer. -/
theorem cover1_9 (p0 : Vec F S1x8192x10 .f32) (y : S1x8192x10.Idx) :
    ∃ pc ∈ ([⟨r1_S1x8192x10, p0⟩] : List (View.Piece (Elt F) S1x8192x10 .f32)), y ∈ pc.1.set :=
  View.cover_of_tiled [⟨r1_S1x8192x10, p0⟩] S1x8192x10.size (by rfl) y

/-! ## The body's triple -/

set_option maxHeartbeats 4000000 in
/-- The kernel body on whole staging memrefs, the inputs' at contents `xW` and the output's at anything, runs to the
    continuation holding the inputs' as they were and the output's at `out1_9` of the inputs'. -/
theorem sound_kernel1 (c : Dev nD) (E : Set ℕ) (i : grid1.Coords) (a0 : Memref sig .tc .vmem S1x8192x1 .i32) (ha0 : a0.IsWhole) (a1 : Memref sig .tc .vmem S1x8192x1 .i32) (ha1 : a1.IsWhole) (a2 : Memref sig .tc .vmem S1x512x9 .f32) (ha2 : a2.IsWhole) (a3 : Memref sig .tc .vmem S18x64 .bf16) (ha3 : a3.IsWhole) (a4 : Memref sig .tc .vmem S64 .f32) (ha4 : a4.IsWhole) (a5 : Memref sig .tc .vmem S64x64 .bf16) (ha5 : a5.IsWhole) (a6 : Memref sig .tc .vmem S64 .f32) (ha6 : a6.IsWhole) (a7 : Memref sig .tc .vmem S64x10 .bf16) (ha7 : a7.IsWhole) (a8 : Memref sig .tc .vmem S10 .f32) (ha8 : a8.IsWhole) (a9 : Memref sig .tc .vmem S1x8192x10 .f32) (ha9 : a9.IsWhole)
    (x0 : Vec F S1x8192x1 .i32) (x1 : Vec F S1x8192x1 .i32) (x2 : Vec F S1x512x9 .f32) (x3 : Vec F S18x64 .bf16) (x4 : Vec F S64 .f32) (x5 : Vec F S64x64 .bf16) (x6 : Vec F S64 .f32) (x7 : Vec F S64x10 .bf16) (x8 : Vec F S10 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out1_9 x0 x1 x2 x3 x4 x5 x6 x7 x8)) -∗ K ⟨⟩))
      ⊢ wp frame (wpE (defs₀ (F := F)) Variants.none c none) E (cc1__edge_kernel i a0 ha0 a1 ha1 a2 ha2 a3 ha3 a4 ha4 a5 ha5 a6 ha6 a7 ha7 a8 ha8 a9 ha9) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of pipeline 1 on core `c`: the arrays as the region finds them; after the body at point `t` each
    input's buffer at its block and the output's at `out1_9` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the program's @main: three stretches of host lines around its two kernel regions.

  The buffer contents at each boundary are a fold from the launch memory: a host stretch applies its operations; a
  region leaves each of its arrays at what the pipeline's write-backs leave (an input's as entered) and every other
  buffer as entered. Each region is entered from and left at "every unscoped buffer whole at the boundary's
  contents, the generator register at some state, nothing owed". Every weakly fair execution from a memory with
  zero counters terminates, and in the final memory every unscoped buffer holds the last boundary's contents.
-/
import proofs.«419047_j46299747451450_1_alg».proof.Proof.KINode
import proofs.«419047_j46299747451450_1_alg».proof.Proof.KIEdge
import proofs.«419047_j46299747451450_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns from. -/
abbrev W5 : Dev nD → Valuation τ sig (Elt F) := fun c => StableHlo.after hostOps2 (W4 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the kernel's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at the exit contents; the generator register goes into the kernel's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of core `c` holds the last boundary's contents `W5 m ρ c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KIFrame.lean ====
/-
  The program's frame: every argument array reaches the end as launched.

  Read through the fold of the buffer contents, an argument's buffer walks back to the launch memory: no host line
  writes an argument, and a region leaves an input window's array as entered and does not touch a buffer that is no
  array of its windows.
-/
import proofs.«419047_j46299747451450_1_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := StableHlo.after_of_writes_sub hostOps0 _ hostOps0_writes (r := main_arg6) (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_writes_sub hostOps0 _ hostOps0_writes (r := main_arg7) (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := StableHlo.after_of_writes_sub hostOps0 _ hostOps0_writes (r := main_arg8) (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (r := main_arg9) (by decide)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := (W2_arr m ρ c 5).trans (((dat0 (V1 m ρ) c).arrAt_in 5 rfl _).trans (A_eq0 (V1 m ρ) c 5))
    _ = W0 m ρ c (Proc.devRef .tc main_arg9) := StableHlo.after_of_writes_sub hostOps0 _ hostOps0_writes (r := main_arg9) (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (r := main_arg10) (by decide)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := (W2_arr m ρ c 6).trans (((dat0 (V1 m ρ) c).arrAt_in 6 rfl _).trans (A_eq0 (V1 m ρ) c 6))
    _ = W0 m ρ c (Proc.devRef .tc main_arg10) := StableHlo.after_of_writes_sub hostOps0 _ hostOps0_writes (r := main_arg10) (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (r := main_arg11) (by decide)
    _ = W3 m ρ c (Proc.devRef .tc main_arg11) := W4_of_ne m ρ c main_arg11 (by decide)
    _ = W2 m ρ c (Proc.devRef .tc main_arg11) := StableHlo.after_of_writes_sub hostOps1 _ hostOps1_writes (r := main_arg11) (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (r := main_arg12) (by decide)
    _ = W3 m ρ c (Proc.devRef .tc main_arg12) := W4_of_ne m ρ c main_arg12 (by decide)
    _ = W2 m ρ c (Proc.devRef .tc main_arg12) := StableHlo.after_of_writes_sub hostOps1 _ hostOps1_writes (r := main_arg12) (by decide)
    _ = W1 m ρ c (Proc.devRef .tc main_arg12) := (W2_arr m ρ c 8).trans (((dat0 (V1 m ρ) c).arrAt_in 8 rfl _).trans (A_eq0 (V1 m ρ) c 8))
    _ = W0 m ρ c (Proc.devRef .tc main_arg12) := StableHlo.after_of_writes_sub hostOps0 _ hostOps0_writes (r := main_arg12) (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (r := main_arg13) (by decide)
    _ = W3 m ρ c (Proc.devRef .tc main_arg13) := W4_of_ne m ρ c main_arg13 (by decide)
    _ = W2 m ρ c (Proc.devRef .tc main_arg13) := StableHlo.after_of_writes_sub hostOps1 _ hostOps1_writes (r := main_arg13) (by decide)
    _ = W1 m ρ c (Proc.devRef .tc main_arg13) := (W2_arr m ρ c 9).trans (((dat0 (V1 m ρ) c).arrAt_in 9 rfl _).trans (A_eq0 (V1 m ρ) c 9))
    _ = W0 m ρ c (Proc.devRef .tc main_arg13) := StableHlo.after_of_writes_sub hostOps0 _ hostOps0_writes (r := main_arg13) (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 _ hostOps2_writes (r := main_arg14) (by decide)
    _ = W3 m ρ c (Proc.devRef .tc main_arg14) := W4_of_ne m ρ c main_arg14 (by decide)
    _ = W2 m ρ c (Proc.devRef .tc main_arg14) := StableHlo.after_of_writes_sub hostOps1 _ hostOps1_writes (r := main_arg14) (by decide)
    _ = W1 m ρ c (Proc.devRef .tc main_arg14) := (W2_arr m ρ c 10).trans (((dat0 (V1 m ρ) c).arrAt_in 10 rfl _).trans (A_eq0 (V1 m ρ) c 10))
    _ = W0 m ρ c (Proc.devRef .tc main_arg14) := StableHlo.after_of_writes_sub hostOps0 _ hostOps0_writes (r := main_arg14) (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 _ hostOps2_writes (r := main_arg15) (by decide)
    _ = W3 m ρ c (Proc.devRef .tc main_arg15) := W4_of_ne m ρ c main_arg15 (by decide)
    _ = W2 m ρ c (Proc.devRef .tc main_arg15) := StableHlo.after_of_writes_sub hostOps1 _ hostOps1_writes (r := main_arg15) (by decide)
    _ = W1 m ρ c (Proc.devRef .tc main_arg15) := (W2_arr m ρ c 11).trans (((dat0 (V1 m ρ) c).arrAt_in 11 rfl _).trans (A_eq0 (V1 m ρ) c 11))
    _ = W0 m ρ c (Proc.devRef .tc main_arg15) := StableHlo.after_of_writes_sub hostOps0 _ hostOps0_writes (r := main_arg15) (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 _ hostOps2_writes (r := main_arg16) (by decide)
    _ = W3 m ρ c (Proc.devRef .tc main_arg16) := W4_of_ne m ρ c main_arg16 (by decide)
    _ = W2 m ρ c (Proc.devRef .tc main_arg16) := StableHlo.after_of_writes_sub hostOps1 _ hostOps1_writes (r := main_arg16) (by decide)
    _ = W1 m ρ c (Proc.devRef .tc main_arg16) := (W2_arr m ρ c 12).trans (((dat0 (V1 m ρ) c).arrAt_in 12 rfl _).trans (A_eq0 (V1 m ρ) c 12))
    _ = W0 m ρ c (Proc.devRef .tc main_arg16) := StableHlo.after_of_writes_sub hostOps0 _ hostOps0_writes (r := main_arg16) (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 _ hostOps2_writes (r := main_arg17) (by decide)
    _ = W3 m ρ c (Proc.devRef .tc main_arg17) := W4_of_ne m ρ c main_arg17 (by decide)
    _ = W2 m ρ c (Proc.devRef .tc main_arg17) := StableHlo.after_of_writes_sub hostOps1 _ hostOps1_writes (r := main_arg17) (by decide)
    _ = W1 m ρ c (Proc.devRef .tc main_arg17) := W2_of_ne m ρ c main_arg17 (by decide)
    _ = W0 m ρ c (Proc.devRef .tc main_arg17) := StableHlo.after_of_writes_sub hostOps0 _ hostOps0_writes (r := main_arg17) (by decide)
    _ = m ((c : Thread nD τ).loc main_arg17) := rfl
theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps2 _ hostOps2_writes (r := main_arg18) (by decide)
    _ = W3 m ρ c (Proc.devRef .tc main_arg18) := W4_of_ne m ρ c main_arg18 (by decide)
    _ = W2 m ρ c (Proc.devRef .tc main_arg18) := StableHlo.after_of_writes_sub hostOps1 _ hostOps1_writes (r := main_arg18) (by decide)
    _ = W1 m ρ c (Proc.devRef .tc main_arg18) := (W2_arr m ρ c 14).trans (((dat0 (V1 m ρ) c).arrAt_in 14 rfl _).trans (A_eq0 (V1 m ρ) c 14))
    _ = W0 m ρ c (Proc.devRef .tc main_arg18) := StableHlo.after_of_writes_sub hostOps0 _ hostOps0_writes (r := main_arg18) (by decide)
    _ = m ((c : Thread nD τ).loc main_arg18) := rfl
theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps2 _ hostOps2_writes (r := main_arg19) (by decide)
    _ = W3 m ρ c (Proc.devRef .tc main_arg19) := W4_of_ne m ρ c main_arg19 (by decide)
    _ = W2 m ρ c (Proc.devRef .tc main_arg19) := StableHlo.after_of_writes_sub hostOps1 _ hostOps1_writes (r := main_arg19) (by decide)
    _ = W1 m ρ c (Proc.devRef .tc main_arg19) := W2_of_ne m ρ c main_arg19 (by decide)
    _ = W0 m ρ c (Proc.devRef .tc main_arg19) := StableHlo.after_of_writes_sub hostOps0 _ hostOps0_writes (r := main_arg19) (by decide)
    _ = m ((c : Thread nD τ).loc main_arg19) := rfl
theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps2 _ hostOps2_writes (r := main_arg20) (by decide)
    _ = W3 m ρ c (Proc.devRef .tc main_arg20) := W4_of_ne m ρ c main_arg20 (by decide)
    _ = W2 m ρ c (Proc.devRef .tc main_arg20) := StableHlo.after_of_writes_sub hostOps1 _ hostOps1_writes (r := main_arg20) (by decide)
    _ = W1 m ρ c (Proc.devRef .tc main_arg20) := (W2_arr m ρ c 16).trans (((dat0 (V1 m ρ) c).arrAt_in 16 rfl _).trans (A_eq0 (V1 m ρ) c 16))
    _ = W0 m ρ c (Proc.devRef .tc main_arg20) := StableHlo.after_of_writes_sub hostOps0 _ hostOps0_writes (r := main_arg20) (by decide)
    _ = m ((c : Thread nD τ).loc main_arg20) := rfl
theorem W5_main_arg21 (c : Dev nD) : W5 m ρ c (Proc.devRef .tc main_arg21) = m ((c : Thread nD τ).loc main_arg21) :=
  calc W5 m ρ c (Proc.devRef .tc main_arg21)
    _ = W4 m ρ c (Proc.devRef .tc main_arg21) := StableHlo.after_of_writes_sub hostOps2 _ hostOps2_writes (r := main_arg21) (by decide)
    _ = W3 m ρ c (Proc.devRef .tc main_arg21) := W4_of_ne m ρ c main_arg21 (by decide)
    _ = W2 m ρ c (Proc.devRef .tc main_arg21) := StableHlo.after_of_writes_sub hostOps1 _ hostOps1_writes (r := main_arg21) (by decide)
    _ = W1 m ρ c (Proc.devRef .tc main_arg21) := W2_of_ne m ρ c main_arg21 (by decide)
    _ = W0 m ρ c (Proc.devRef .tc main_arg21) := StableHlo.after_of_writes_sub hostOps0 _ hostOps0_writes (r := main_arg21) (by decide)
    _ = m ((c : Thread nD τ).loc main_arg21) := rfl
theorem W5_main_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_writes_sub hostOps2 _ hostOps2_writes (r := main_arg22) (by decide)
    _ = W3 m ρ c (Proc.devRef .tc main_arg22) := (W4_arr m ρ c 4).trans (((dat1 (V3 m ρ) c).arrAt_in 4 rfl _).trans (A_eq1 (V3 m ρ) c 4))
    _ = W2 m ρ c (Proc.devRef .tc main_arg22) := StableHlo.after_of_writes_sub hostOps1 _ hostOps1_writes (r := main_arg22) (by decide)
    _ = W1 m ρ c (Proc.devRef .tc main_arg22) := W2_of_ne m ρ c main_arg22 (by decide)
    _ = W0 m ρ c (Proc.devRef .tc main_arg22) := StableHlo.after_of_writes_sub hostOps0 _ hostOps0_writes (r := main_arg22) (by decide)
    _ = m ((c : Thread nD τ).loc main_arg22) := rfl
theorem W5_main_arg23 (c : Dev nD) : W5 m ρ c (Proc.devRef .tc main_arg23) = m ((c : Thread nD τ).loc main_arg23) :=
  calc W5 m ρ c (Proc.devRef .tc main_arg23)
    _ = W4 m ρ c (Proc.devRef .tc main_arg23) := StableHlo.after_of_writes_sub hostOps2 _ hostOps2_writes (r := main_arg23) (by decide)
    _ = W3 m ρ c (Proc.devRef .tc main_arg23) := W4_of_ne m ρ c main_arg23 (by decide)
    _ = W2 m ρ c (Proc.devRef .tc main_arg23) := StableHlo.after_of_writes_sub hostOps1 _ hostOps1_writes (r := main_arg23) (by decide)
    _ = W1 m ρ c (Proc.devRef .tc main_arg23) := W2_of_ne m ρ c main_arg23 (by decide)
    _ = W0 m ρ c (Proc.devRef .tc main_arg23) := StableHlo.after_of_writes_sub hostOps0 _ hostOps0_writes (r := main_arg23) (by decide)
    _ = m ((c : Thread nD τ).loc main_arg23) := rfl
theorem W5_main_arg24 (c : Dev nD) : W5 m ρ c (Proc.devRef .tc main_arg24) = m ((c : Thread nD τ).loc main_arg24) :=
  calc W5 m ρ c (Proc.devRef .tc main_arg24)
    _ = W4 m ρ c (Proc.devRef .tc main_arg24) := StableHlo.after_of_writes_sub hostOps2 _ hostOps2_writes (r := main_arg24) (by decide)
    _ = W3 m ρ c (Proc.devRef .tc main_arg24) := (W4_arr m ρ c 6).trans (((dat1 (V3 m ρ) c).arrAt_in 6 rfl _).trans (A_eq1 (V3 m ρ) c 6))
    _ = W2 m ρ c (Proc.devRef .tc main_arg24) := StableHlo.after_of_writes_sub hostOps1 _ hostOps1_writes (r := main_arg24) (by decide)
    _ = W1 m ρ c (Proc.devRef .tc main_arg24) := W2_of_ne m ρ c main_arg24 (by decide)
    _ = W0 m ρ c (Proc.devRef .tc main_arg24) := StableHlo.after_of_writes_sub hostOps0 _ hostOps0_writes (r := main_arg24) (by decide)
    _ = m ((c : Thread nD τ).loc main_arg24) := rfl
theorem W5_main_arg25 (c : Dev nD) : W5 m ρ c (Proc.devRef .tc main_arg25) = m ((c : Thread nD τ).loc main_arg25) :=
  calc W5 m ρ c (Proc.devRef .tc main_arg25)
    _ = W4 m ρ c (Proc.devRef .tc main_arg25) := StableHlo.after_of_writes_sub hostOps2 _ hostOps2_writes (r := main_arg25) (by decide)
    _ = W3 m ρ c (Proc.devRef .tc main_arg25) := W4_of_ne m ρ c main_arg25 (by decide)
    _ = W2 m ρ c (Proc.devRef .tc main_arg25) := StableHlo.after_of_writes_sub hostOps1 _ hostOps1_writes (r := main_arg25) (by decide)
    _ = W1 m ρ c (Proc.devRef .tc main_arg25) := W2_of_ne m ρ c main_arg25 (by decide)
    _ = W0 m ρ c (Proc.devRef .tc main_arg25) := StableHlo.after_of_writes_sub hostOps0 _ hostOps0_writes (r := main_arg25) (by decide)
    _ = m ((c : Thread nD τ).loc main_arg25) := rfl
theorem W5_main_arg26 (c : Dev nD) : W5 m ρ c (Proc.devRef .tc main_arg26) = m ((c : Thread nD τ).loc main_arg26) :=
  calc W5 m ρ c (Proc.devRef .tc main_arg26)
    _ = W4 m ρ c (Proc.devRef .tc main_arg26) := StableHlo.after_of_writes_sub hostOps2 _ hostOps2_writes (r := main_arg26) (by decide)
    _ = W3 m ρ c (Proc.devRef .tc main_arg26) := (W4_arr m ρ c 8).trans (((dat1 (V3 m ρ) c).arrAt_in 8 rfl _).trans (A_eq1 (V3 m ρ) c 8))
    _ = W2 m ρ c (Proc.devRef .tc main_arg26) := StableHlo.after_of_writes_sub hostOps1 _ hostOps1_writes (r := main_arg26) (by decide)
    _ = W1 m ρ c (Proc.devRef .tc main_arg26) := W2_of_ne m ρ c main_arg26 (by decide)
    _ = W0 m ρ c (Proc.devRef .tc main_arg26) := StableHlo.after_of_writes_sub hostOps0 _ hostOps0_writes (r := main_arg26) (by decide)
    _ = m ((c : Thread nD τ).loc main_arg26) := rfl

/-- THE FRAME, at any `F`: every weakly fair execution of @main from a memory with zero counters terminates, nothing
    faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c),
      (h c _ (mem_uc main_arg18 (by decide))).trans (W5_main_arg18 m ρ c),
      (h c _ (mem_uc main_arg19 (by decide))).trans (W5_main_arg19 m ρ c),
      (h c _ (mem_uc main_arg20 (by decide))).trans (W5_main_arg20 m ρ c),
      (h c _ (mem_uc main_arg21 (by decide))).trans (W5_main_arg21 m ρ c),
      (h c _ (mem_uc main_arg22 (by decide))).trans (W5_main_arg22 m ρ c),
      (h c _ (mem_uc main_arg23 (by decide))).trans (W5_main_arg23 m ρ c),
      (h c _ (mem_uc main_arg24 (by decide))).trans (W5_main_arg24 m ρ c),
      (h c _ (mem_uc main_arg25 (by decide))).trans (W5_main_arg25 m ρ c),
      (h c _ (mem_uc main_arg26 (by decide))).trans (W5_main_arg26 m ρ c)⟩) (run_main m ρ)

end Cert.KernelIdeal.Hand

end
-- ==== Proof.KIHost.lean ====
/-
  The host lines of the kernel's program that prepare the edge kernel's operands, as functions of the argument arrays.

  The attribute table: the box coordinates divided by 1024, the four direction channels and the priority as one more
  channel, side by side on the last axis ([32, 512, 9]). The source and destination words: row 0 and row 1 of the
  [32, 2, 32768] index array, each given a last unit axis ([32, 32768, 1]).
-/
import proofs.«419047_j46299747451450_1_alg».proof.Proof.Gen.KernelIdeal

noncomputable section

namespace Cert.KernelIdeal

open Idealize.ShloMosaic
open Facts₀ Facts

variable [Facts] {F : FTy → Type} [FloatOps F]

/-- The node attributes: boxes / 1024, directions, priority, along the channel axis. -/
def attrK (a1 : FVec F S32x512x4 .f32) (a2 : FVec F S32x512x4 .f32) (a3 : FVec F S32x512 .f32) : FVec F S32x512x9 .f32 :=
  concatenate S32x512x9 2
    [⟨S32x512x4, Host.divf a1 (broadcastInDim S32x512x4 ![] bcast_S_S32x512x4 (constant S_ .f32 0x44800000#32))⟩,
     ⟨S32x512x4, a2⟩,
     ⟨S32x512x1, broadcastInDim S32x512x1 ![0, 1] bcast_S32x512_S32x512x1_0_1 a3⟩]
    concatenates_S32x512x4_S32x512x4_S32x512x1_S32x512x9_d2

/-- The edges' source words: row 0 of the index array, with a last unit axis. -/
def srcK (a4 : IVec S32x2x32768 32) : IVec S32x32768x1 32 :=
  broadcastInDim S32x32768x1 ![0, 1] bcast_S32x32768_S32x32768x1_0_1
    (shapeCast S32x32768 (extractStridedSlice S32x1x32768 ![0, 0, 0] a4 slices_S32x2x32768_S32x1x32768_0_0_0)
      shapeCasts_S32x1x32768_S32x32768)

/-- The edges' destination words: row 1 of the index array, with a last unit axis. -/
def dstK (a4 : IVec S32x2x32768 32) : IVec S32x32768x1 32 :=
  broadcastInDim S32x32768x1 ![0, 1] bcast_S32x32768_S32x32768x1_0_1
    (shapeCast S32x32768 (extractStridedSlice S32x1x32768 ![0, 1, 0] a4 slices_S32x2x32768_S32x1x32768_0_1_0)
      shapeCasts_S32x1x32768_S32x32768)

end Cert.KernelIdeal

end
-- ==== Proof.LibNary3.lean ====
/-
  A host operation over a LITERAL family of three references (a concatenation of three operands): its result holds
  the operation's function applied to the three operands' contents, each read AT ITS OWN reference. Stated with the
  family spelt out as the three contents, each at its own literal reference (the general statement has them under a
  binder, indexed by position).
-/
import Idealize.ShloMosaic.Lib.StableHlo.Run

noncomputable section

namespace Idealize.ShloMosaic.StableHlo

open Idealize.ShloMosaic

variable {τ : Topo} {sig : RefSig} {Val : EltTy → Type} {x a b y : Ref sig .tc}

/-- The result of a three-operand operation at its result buffer: the function at the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KIVals.lean ====
/-
  What the buffers hold at the boundaries of the program's run, read through the fold.

  Every argument array reaches the end as launched: no host line writes it and a region leaves an input's array as
  entered. The first result is the [16384, 8] array the node region leaves, read as [32, 512, 8]; the second the
  [32, 32768, 10] array the edge region leaves, read as [1048576, 10]. Region 0 is entered with the feature array read
  as [16384, 1024], the weights cast to bf16 and the bias and normalisation vectors as launched; region 1 with the
  attribute table, the source and destination words and the cast weights as the host lines before it make them.
-/
import proofs.«419047_j46299747451450_1_alg».proof.Proof.KIRun
import proofs.«419047_j46299747451450_1_alg».proof.Proof.KIHost
import proofs.«419047_j46299747451450_1_alg».proof.Proof.LibNary3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat)
open Facts₀ Facts

variable {F : FTy → Type} [FloatOps F]

variable (m : (ℓ : Loc nD τ sig) → Buf (Elt F) ℓ) (ρ : Dev nD → PrngReg)

/-- The host line's results read back, one operation at a time, a three-operand operation read at its three operands. -/
macro "after_results3" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## Region 0's entry contents -/

theorem V1_main_v0 (c : Dev nD) : V1 m ρ c main_v0 = shapeCast S16384x1024 (m ((c : Thread nD τ).loc main_arg0)) Facts₀.shapeCasts_S32x512x1024_S16384x1024 := by
  show StableHlo.after hostOps0 (W0 m ρ c) (Proc.devRef .tc main_v0) = _
  after_results3 <;> rfl
theorem V1_main_v1 (c : Dev nD) : V1 m ρ c main_v1 = truncf .bf16 (m ((c : Thread nD τ).loc main_arg5)) Facts₀.bitsLt_bf16_f32 := by
  show StableHlo.after hostOps0 (W0 m ρ c) (Proc.devRef .tc main_v1) = _
  after_results3 <;> rfl
theorem V1_main_v2 (c : Dev nD) : V1 m ρ c main_v2 = truncf .bf16 (m ((c : Thread nD τ).loc main_arg11)) Facts₀.bitsLt_bf16_f32 := by
  show StableHlo.after hostOps0 (W0 m ρ c) (Proc.devRef .tc main_v2) = _
  after_results3 <;> rfl
theorem V1_main_v3 (c : Dev nD) : V1 m ρ c main_v3 = truncf .bf16 (m ((c : Thread nD τ).loc main_arg17)) Facts₀.bitsLt_bf16_f32 := by
  show StableHlo.after hostOps0 (W0 m ρ c) (Proc.devRef .tc main_v3) = _
  after_results3 <;> rfl
theorem V1_main_v4 (c : Dev nD) : V1 m ρ c main_v4 = truncf .bf16 (m ((c : Thread nD τ).loc main_arg19)) Facts₀.bitsLt_bf16_f32 := by
  show StableHlo.after hostOps0 (W0 m ρ c) (Proc.devRef .tc main_v4) = _
  after_results3 <;> rfl
theorem V1_main_arg6 (c : Dev nD) : V1 m ρ c main_arg6 = m ((c : Thread nD τ).loc main_arg6) :=
  StableHlo.after_of_writes_sub hostOps0 _ hostOps0_writes (r := main_arg6) (by decide)
theorem V1_main_arg7 (c : Dev nD) : V1 m ρ c main_arg7 = m ((c : Thread nD τ).loc main_arg7) :=
  StableHlo.after_of_writes_sub hostOps0 _ hostOps0_writes (r := main_arg7) (by decide)
theorem V1_main_arg8 (c : Dev nD) : V1 m ρ c main_arg8 = m ((c : Thread nD τ).loc main_arg8) :=
  StableHlo.after_of_writes_sub hostOps0 _ hostOps0_writes (r := main_arg8) (by decide)
theorem V1_main_arg9 (c : Dev nD) : V1 m ρ c main_arg9 = m ((c : Thread nD τ).loc main_arg9) :=
  StableHlo.after_of_writes_sub hostOps0 _ hostOps0_writes (r := main_arg9) (by decide)
theorem V1_main_arg10 (c : Dev nD) : V1 m ρ c main_arg10 = m ((c : Thread nD τ).loc main_arg10) :=
  StableHlo.after_of_writes_sub hostOps0 _ hostOps0_writes (r := main_arg10) (by decide)
theorem V1_main_arg12 (c : Dev nD) : V1 m ρ c main_arg12 = m ((c : Thread nD τ).loc main_arg12) :=
  StableHlo.after_of_writes_sub hostOps0 _ hostOps0_writes (r := main_arg12) (by decide)
theorem V1_main_arg13 (c : Dev nD) : V1 m ρ c main_arg13 = m ((c : Thread nD τ).loc main_arg13) :=
  StableHlo.after_of_writes_sub hostOps0 _ hostOps0_writes (r := main_arg13) (by decide)
theorem V1_main_arg14 (c : Dev nD) : V1 m ρ c main_arg14 = m ((c : Thread nD τ).loc main_arg14) :=
  StableHlo.after_of_writes_sub hostOps0 _ hostOps0_writes (r := main_arg14) (by decide)
theorem V1_main_arg15 (c : Dev nD) : V1 m ρ c main_arg15 = m ((c : Thread nD τ).loc main_arg15) :=
  StableHlo.after_of_writes_sub hostOps0 _ hostOps0_writes (r := main_arg15) (by decide)
theorem V1_main_arg16 (c : Dev nD) : V1 m ρ c main_arg16 = m ((c : Thread nD τ).loc main_arg16) :=
  StableHlo.after_of_writes_sub hostOps0 _ hostOps0_writes (r := main_arg16) (by decide)
theorem V1_main_arg18 (c : Dev nD) : V1 m ρ c main_arg18 = m ((c : Thread nD τ).loc main_arg18) :=
  StableHlo.after_of_writes_sub hostOps0 _ hostOps0_writes (r := main_arg18) (by decide)
theorem V1_main_arg20 (c : Dev nD) : V1 m ρ c main_arg20 = m ((c : Thread nD τ).loc main_arg20) :=
  StableHlo.after_of_writes_sub hostOps0 _ hostOps0_writes (r := main_arg20) (by decide)

/-! ## Region 1's entry contents -/

theorem W2_main_arg1 (c : Dev nD) : W2 m ρ c (Proc.devRef .tc main_arg1) = m ((c : Thread nD τ).loc main_arg1) :=
  (W2_of_ne m ρ c main_arg1 (by decide)).trans (StableHlo.after_of_writes_sub hostOps0 _ hostOps0_writes (r := main_arg1) (by decide))
theorem W2_main_arg2 (c : Dev nD) : W2 m ρ c (Proc.devRef .tc main_arg2) = m ((c : Thread nD τ).loc main_arg2) :=
  (W2_of_ne m ρ c main_arg2 (by decide)).trans (StableHlo.after_of_writes_sub hostOps0 _ hostOps0_writes (r := main_arg2) (by decide))
theorem W2_main_arg3 (c : Dev nD) : W2 m ρ c (Proc.devRef .tc main_arg3) = m ((c : Thread nD τ).loc main_arg3) :=
  (W2_of_ne m ρ c main_arg3 (by decide)).trans (StableHlo.after_of_writes_sub hostOps0 _ hostOps0_writes (r := main_arg3) (by decide))
theorem W2_main_arg4 (c : Dev nD) : W2 m ρ c (Proc.devRef .tc main_arg4) = m ((c : Thread nD τ).loc main_arg4) :=
  (W2_of_ne m ρ c main_arg4 (by decide)).trans (StableHlo.after_of_writes_sub hostOps0 _ hostOps0_writes (r := main_arg4) (by decide))
theorem W2_main_arg21 (c : Dev nD) : W2 m ρ c (Proc.devRef .tc main_arg21) = m ((c : Thread nD τ).loc main_arg21) :=
  (W2_of_ne m ρ c main_arg21 (by decide)).trans (StableHlo.after_of_writes_sub hostOps0 _ hostOps0_writes (r := main_arg21) (by decide))
theorem W2_main_arg22 (c : Dev nD) : W2 m ρ c (Proc.devRef .tc main_arg22) = m ((c : Thread nD τ).loc main_arg22) :=
  (W2_of_ne m ρ c main_arg22 (by decide)).trans (StableHlo.after_of_writes_sub hostOps0 _ hostOps0_writes (r := main_arg22) (by decide))
theorem W2_main_arg23 (c : Dev nD) : W2 m ρ c (Proc.devRef .tc main_arg23) = m ((c : Thread nD τ).loc main_arg23) :=
  (W2_of_ne m ρ c main_arg23 (by decide)).trans (StableHlo.after_of_writes_sub hostOps0 _ hostOps0_writes (r := main_arg23) (by decide))
theorem W2_main_arg24 (c : Dev nD) : W2 m ρ c (Proc.devRef .tc main_arg24) = m ((c : Thread nD τ).loc main_arg24) :=
  (W2_of_ne m ρ c main_arg24 (by decide)).trans (StableHlo.after_of_writes_sub hostOps0 _ hostOps0_writes (r := main_arg24) (by decide))
theorem W2_main_arg25 (c : Dev nD) : W2 m ρ c (Proc.devRef .tc main_arg25) = m ((c : Thread nD τ).loc main_arg25) :=
  (W2_of_ne m ρ c main_arg25 (by decide)).trans (StableHlo.after_of_writes_sub hostOps0 _ hostOps0_writes (r := main_arg25) (by decide))
theorem W2_main_arg26 (c : Dev nD) : W2 m ρ c (Proc.devRef .tc main_arg26) = m ((c : Thread nD τ).loc main_arg26) :=
  (W2_of_ne m ρ c main_arg26 (by decide)).trans (StableHlo.after_of_writes_sub hostOps0 _ hostOps0_writes (r := main_arg26) (by decide))
theorem V3_main_v10 (c : Dev nD) : V3 m ρ c main_v10 = attrK (m ((c : Thread nD τ).loc main_arg1)) (m ((c : Thread nD τ).loc main_arg2)) (m ((c : Thread nD τ).loc main_arg3)) := by
  show StableHlo.after hostOps1 (W2 m ρ c) (Proc.devRef .tc main_v10) = _
  after_results3
  rw [W2_main_arg1, W2_main_arg2, W2_main_arg3]
  rfl
theorem V3_main_v13 (c : Dev nD) : V3 m ρ c main_v13 = srcK (m ((c : Thread nD τ).loc main_arg4)) := by
  show StableHlo.after hostOps1 (W2 m ρ c) (Proc.devRef .tc main_v13) = _
  after_results3
  rw [W2_main_arg4]
  rfl
theorem V3_main_v16 (c : Dev nD) : V3 m ρ c main_v16 = dstK (m ((c : Thread nD τ).loc main_arg4)) := by
  show StableHlo.after hostOps1 (W2 m ρ c) (Proc.devRef .tc main_v16) = _
  after_results3
  rw [W2_main_arg4]
  rfl
theorem V3_main_v17 (c : Dev nD) : V3 m ρ c main_v17 = truncf .bf16 (m ((c : Thread nD τ).loc main_arg21)) Facts₀.bitsLt_bf16_f32 := by
  show StableHlo.after hostOps1 (W2 m ρ c) (Proc.devRef .tc main_v17) = _
  after_results3
  rw [W2_main_arg21]
theorem V3_main_v18 (c : Dev nD) : V3 m ρ c main_v18 = truncf .bf16 (m ((c : Thread nD τ).loc main_arg23)) Facts₀.bitsLt_bf16_f32 := by
  show StableHlo.after hostOps1 (W2 m ρ c) (Proc.devRef .tc main_v18) = _
  after_results3
  rw [W2_main_arg23]
theorem V3_main_v19 (c : Dev nD) : V3 m ρ c main_v19 = truncf .bf16 (m ((c : Thread nD τ).loc main_arg25)) Facts₀.bitsLt_bf16_f32 := by
  show StableHlo.after hostOps1 (W2 m ρ c) (Proc.devRef .tc main_v19) = _
  after_results3
  rw [W2_main_arg25]
theorem V3_main_arg22 (c : Dev nD) : V3 m ρ c main_arg22 = m ((c : Thread nD τ).loc main_arg22) :=
  (StableHlo.after_of_writes_sub hostOps1 _ hostOps1_writes (r := main_arg22) (by decide)).trans (W2_main_arg22 m ρ c)
theorem V3_main_arg24 (c : Dev nD) : V3 m ρ c main_arg24 = m ((c : Thread nD τ).loc main_arg24) :=
  (StableHlo.after_of_writes_sub hostOps1 _ hostOps1_writes (r := main_arg24) (by decide)).trans (W2_main_arg24 m ρ c)
theorem V3_main_arg26 (c : Dev nD) : V3 m ρ c main_arg26 = m ((c : Thread nD τ).loc main_arg26) :=
  (StableHlo.after_of_writes_sub hostOps1 _ hostOps1_writes (r := main_arg26) (by decide)).trans (W2_main_arg26 m ρ c)

/-! ## The two results -/

theorem W5_main_v6 (c : Dev nD) : W5 m ρ c (Proc.devRef .tc main_v6)
    = shapeCast S32x512x8 ((dat0 (V1 m ρ) c).arrAt 17 cfg0.N) Facts₀.shapeCasts_S16384x8_S32x512x8 := by
  have h3 : W3 m ρ c (Proc.devRef .tc main_v6) = shapeCast S32x512x8 (W2 m ρ c (Proc.devRef .tc main_v5)) Facts₀.shapeCasts_S16384x8_S32x512x8 := by
    show StableHlo.after hostOps1 (W2 m ρ c) (Proc.devRef .tc main_v6) = _
    after_results3 <;> rfl
  calc W5 m ρ c (Proc.devRef .tc main_v6)
    _ = W4 m ρ c (Proc.devRef .tc main_v6) := StableHlo.after_of_writes_sub hostOps2 _ hostOps2_writes (r := main_v6) (by decide)
    _ = W3 m ρ c (Proc.devRef .tc main_v6) := W4_of_ne m ρ c main_v6 (by decide)
    _ = _ := h3
    _ = _ := by rw [show W2 m ρ c (Proc.devRef .tc main_v5) = (dat0 (V1 m ρ) c).arrAt 17 cfg0.N from W2_arr m ρ c 17]

theorem W5_main_v21 (c : Dev nD) : W5 m ρ c (Proc.devRef .tc main_v21)
    = shapeCast S1048576x10 ((dat1 (V3 m ρ) c).arrAt 9 cfg1.N) Facts₀.shapeCasts_S32x32768x10_S1048576x10 := by
  have h5 : W5 m ρ c (Proc.devRef .tc main_v21) = shapeCast S1048576x10 (W4 m ρ c (Proc.devRef .tc main_v20)) Facts₀.shapeCasts_S32x32768x10_S1048576x10 := by
    show StableHlo.after hostOps2 (W4 m ρ c) (Proc.devRef .tc main_v21) = _
    after_results3 <;> rfl
  rw [h5, show W4 m ρ c (Proc.devRef .tc main_v20) = (dat1 (V3 m ρ) c).arrAt 9 cfg1.N from W4_arr m ρ c 9]

end Cert.KernelIdeal.Hand

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«419047_j46299747451450_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.NetSpec.lean ====
/-
  What the two networks compute, as functions of indices over matrices of extended reals.

  The node network takes a matrix of feature rows through three dense layers (the first two followed by an
  evaluation-mode batch normalisation, all three by the positive part) and a sigmoid head; the edge network looks up,
  for every edge, the attribute rows of its two end nodes in a 512-row table, puts them side by side, and takes the
  18 columns through two dense layers with the positive part and a sigmoid head. Every function here is row-local:
  row p of the result depends on row p of the first operand only.
-/
import proofs.«419047_j46299747451450_1_alg».proof.Proof.LibDenseForms

noncomputable section

open scoped BigOperators

namespace NetSpec

open Idealize.ShloMosaic Idealize.ShloMosaic.ValueIdx DenseRows

/-- The batch normalisation's ε: the f32 word both programs carry (the float nearest 1e-5). -/
def bnEps : EReal := Ideal.ofBits .f32 0x3727C5AC#32

/-- Evaluation-mode batch normalisation with per-column parameters: g · (z − mean) · rsqrt (var + ε) + b, associated
    as both programs compute it. -/
def bnRows {m n : Nat} (Z : Mat m n) (g b rm rv : Col n) : Mat m n :=
  fun i => g (ix1 (i 1)) * (Z i - rm (ix1 (i 1))) * Ideal.rsqrt (rv (ix1 (i 1)) + bnEps) + b (ix1 (i 1))

/-- The logistic function, entry by entry. -/
def sigm {m n : Nat} (Z : Mat m n) : Mat m n := fun i => Ideal.logistic (Z i)

/-- The node network on m feature rows: columns 1024 → 512 → 256 → 128 → 8. -/
def nodeFn {m : Nat} (X : Mat m 1024) (W1 : Mat 1024 512) (b1 g1 bb1 rm1 rv1 : Col 512)
    (W2 : Mat 512 256) (b2 g2 bb2 rm2 rv2 : Col 256) (W3 : Mat 256 128) (b3 : Col 128)
    (Wi : Mat 128 8) (bi : Col 8) : Mat m 8 :=
  sigm (addRow (mm (relu (addRow (mm (relu (bnRows (addRow (mm (relu (bnRows (addRow (mm X W1) (asRow b1))
    g1 bb1 rm1 rv1)) W2) (asRow b2)) g2 bb2 rm2 rv2)) W3) (asRow b3))) Wi) (asRow bi))

/-- The table row a 32-bit word names (the word's value modulo 512; for a word below 512, the word). -/
def rowOf (w : BitVec 32) : Fin 512 := ⟨w.toNat % 512, Nat.mod_lt _ (by decide)⟩

/-- A column of n words. -/
abbrev WCol (n : Nat) : Type := IVec (⟨2, ![n, 1]⟩ : Shape) 32

/-- For every edge, the table row its word names. -/
def gath {n : Nat} (A : Mat 512 9) (S : WCol n) : Mat n 9 :=
  fun i => A (ix2 (rowOf (S (ix2 (i 0) (0 : Fin 1)))) (i 1))

/-- Two 9-column matrices side by side. -/
def cat9 {n : Nat} (P Q : Mat n 9) : Mat n 18 :=
  fun i => if h : (i 1).val < 9 then P (ix2 (i 0) ⟨(i 1).val, h⟩)
    else Q (ix2 (i 0) ⟨(i 1).val - 9, by have h18 : (i 1).val < 18 := (i 1).isLt; omega⟩)

/-- The edge network on n edges of one batch entry: the two looked-up rows, then columns 18 → 64 → 64 → 10. -/
def edgeFn {n : Nat} (A : Mat 512 9) (S D : WCol n) (W1 : Mat 18 64) (b1 : Col 64) (W2 : Mat 64 64) (b2 : Col 64)
    (Wi : Mat 64 10) (bi : Col 10) : Mat n 10 :=
  sigm (addRow (mm (relu (addRow (mm (relu (addRow (mm (cat9 (gath A S) (gath A D)) W1) (asRow b1))) W2) (asRow b2)))
    Wi) (asRow bi))

end NetSpec

end
-- ==== Proof.NodeForms.lean ====
/-
  The node network, row by row, and the vector unit's spelling of it.

  Row p of the node network's result depends on row p of the feature matrix only: every stage (a product with a fixed
  right operand, a bias row, an evaluation-mode batch normalisation with per-column parameters, the positive part,
  the logistic function) is row-local, and a composition of row-local maps is row-local.

  The vector unit computes the network on a block of 1024 feature rows: each product is accumulated into a zero
  splat, each per-column parameter is cast to one row and broadcast down the rows, the variance plus ε goes through
  the reciprocal square root before it is broadcast, and the casts to the narrower format are the identity on
  extended reals. Read entry by entry, that is the node network itself, in the same association.
-/
import proofs.«419047_j46299747451450_1_alg».proof.Proof.NetSpec
import proofs.«419047_j46299747451450_1_alg».proof.Proof.Gen.KernelIdeal.Skeleton

noncomputable section

open scoped BigOperators

namespace NetSpec

open Idealize.ShloMosaic Idealize.ShloMosaic.ValueIdx DenseRows

/-! ## Row-locality -/

/-- The batch normalisation is row-local: its parameters are per column. -/
theorem bnRows_rows {m M n : Nat} (X : Mat m n) (A : Mat M n) (g b rm rv : Col n) (p : Fin m) (P : Fin M)
    (h : ∀ c, X (ix2 p c) = A (ix2 P c)) (q : Fin n) :
    bnRows X g b rm rv (ix2 p q) = bnRows A g b rm rv (ix2 P q) := by
  show g (ix1 q) * (X (ix2 p q) - rm (ix1 q)) * Ideal.rsqrt (rv (ix1 q) + bnEps) + b (ix1 q)
    = g (ix1 q) * (A (ix2 P q) - rm (ix1 q)) * Ideal.rsqrt (rv (ix1 q) + bnEps) + b (ix1 q)
  rw [h q]

/-- The logistic function, taken entry by entry, is row-local. -/
theorem sigm_rows {m M n : Nat} (X : Mat m n) (A : Mat M n) (p : Fin m) (P : Fin M)
    (h : ∀ c, X (ix2 p c) = A (ix2 P c)) (q : Fin n) : sigm X (ix2 p q) = sigm A (ix2 P q) := by
  show Ideal.logistic (X (ix2 p q)) = Ideal.logistic (A (ix2 P q))
  rw [h q]

/-- Row p of the node network's result depends on row p of the feature matrix only. -/
theorem nodeFn_rows {m M : Nat} (X : Mat m 1024) (A : Mat M 1024) (W1 : Mat 1024 512) (b1 g1 bb1 rm1 rv1 : Col 512)
    (W2 : Mat 512 256) (b2 g2 bb2 rm2 rv2 : Col 256) (W3 : Mat 256 128) (b3 : Col 128) (Wi : Mat 128 8) (bi : Col 8)
    (p : Fin m) (P : Fin M) (h : ∀ c, X (ix2 p c) = A (ix2 P c)) (q : Fin 8) :
    nodeFn X W1 b1 g1 bb1 rm1 rv1 W2 b2 g2 bb2 rm2 rv2 W3 b3 Wi bi (ix2 p q)
      = nodeFn A W1 b1 g1 bb1 rm1 rv1 W2 b2 g2 bb2 rm2 rv2 W3 b3 Wi bi (ix2 P q) := by
  unfold nodeFn
  refine sigm_rows _ _ p P (fun c => ?_) q
  refine addRow_rows _ _ _ p P (fun c => ?_) c
  refine mm_rows _ _ _ p P (fun c => ?_) c
  refine relu_rows _ _ p P (fun c => ?_) c
  refine addRow_rows _ _ _ p P (fun c => ?_) c
  refine mm_rows _ _ _ p P (fun c => ?_) c
  refine relu_rows _ _ p P (fun c => ?_) c
  refine bnRows_rows _ _ _ _ _ _ p P (fun c => ?_) c
  refine addRow_rows _ _ _ p P (fun c => ?_) c
  refine mm_rows _ _ _ p P (fun c => ?_) c
  refine relu_rows _ _ p P (fun c => ?_) c
  refine bnRows_rows _ _ _ _ _ _ p P (fun c => ?_) c
  refine addRow_rows _ _ _ p P (fun c => ?_) c
  exact mm_rows _ _ _ p P h c

/-! ## The vector unit's spelling of each stage -/

/-- A dense layer on the vector unit: the left operand cast to the narrower format (the identity here), the product
    accumulated into a zero splat, the bias cast to one row and broadcast down the rows. -/
theorem dense_vector_form {m k n : Nat} (X : Mat m k) (W : FVec Ideal (⟨2, ![k, n]⟩ : Shape) .bf16) (b : Col n)
    (ht : FTy.bits .bf16 < FTy.bits .f32) (hc : (⟨1, ![n]⟩ : Shape).ShapeCasts ⟨2, ![1, n]⟩)
    (hb : (⟨2, ![1, n]⟩ : Shape).Broadcasts ⟨2, ![m, n]⟩) :
    addf (matmul (DotDims.plain m k n) none (truncf .bf16 X ht) W (constant (⟨2, ![m, n]⟩ : Shape) .f32 0x00000000#32))
        (broadcastTo (⟨2, ![m, n]⟩ : Shape) (shapeCast (⟨2, ![1, n]⟩ : Shape) b hc) hb)
      = addRow (mm X W) (asRow b) := by
  have hmm : matmul (DotDims.plain m k n) none (truncf .bf16 X ht) W (constant (⟨2, ![m, n]⟩ : Shape) .f32 0x00000000#32)
      = mm X W := matmul_plain_eq_mm none X W
  rw [hmm, shapeCast_asRow, bias_vector_form]

/-- The batch normalisation on the vector unit: each per-column parameter cast to one row and broadcast down the
    rows, the reciprocal square root taken of the variance plus the splat of ε before its broadcast. -/
theorem bn_vector_form {m n : Nat} (Z : Mat m n) (g b rm rv : Col n)
    (hc : (⟨1, ![n]⟩ : Shape).ShapeCasts ⟨2, ![1, n]⟩) (hb : (⟨2, ![1, n]⟩ : Shape).Broadcasts ⟨2, ![m, n]⟩) :
    addf
        (mulf
          (mulf (broadcastTo (⟨2, ![m, n]⟩ : Shape) (shapeCast (⟨2, ![1, n]⟩ : Shape) g hc) hb)
            (subf Z (broadcastTo (⟨2, ![m, n]⟩ : Shape) (shapeCast (⟨2, ![1, n]⟩ : Shape) rm hc) hb)))
          (broadcastTo (⟨2, ![m, n]⟩ : Shape)
            (shapeCast (⟨2, ![1, n]⟩ : Shape)
              (rsqrt (addf rv (broadcast (⟨1, ![n]⟩ : Shape) (Scalar.ofBits (F := Ideal) .f32 0x3727C5AC#32)))) hc) hb))
        (broadcastTo (⟨2, ![m, n]⟩ : Shape) (shapeCast (⟨2, ![1, n]⟩ : Shape) b hc) hb)
      = bnRows Z g b rm rv := by
  funext i
  obtain ⟨p, q, rfl⟩ : ∃ (p : Fin m) (q : Fin n), i = ix2 p q := ⟨i 0, i 1, eq_ix2 i⟩
  show broadcastTo (⟨2, ![m, n]⟩ : Shape) (shapeCast (⟨2, ![1, n]⟩ : Shape) g hc) hb (ix2 p q)
        * (Z (ix2 p q) - broadcastTo (⟨2, ![m, n]⟩ : Shape) (shapeCast (⟨2, ![1, n]⟩ : Shape) rm hc) hb (ix2 p q))
        * broadcastTo (⟨2, ![m, n]⟩ : Shape)
            (shapeCast (⟨2, ![1, n]⟩ : Shape)
              (rsqrt (addf rv (broadcast (⟨1, ![n]⟩ : Shape) (Scalar.ofBits (F := Ideal) .f32 0x3727C5AC#32)))) hc) hb (ix2 p q)
        + broadcastTo (⟨2, ![m, n]⟩ : Shape) (shapeCast (⟨2, ![1, n]⟩ : Shape) b hc) hb (ix2 p q)
      = g (ix1 q) * (Z (ix2 p q) - rm (ix1 q)) * Ideal.rsqrt (rv (ix1 q) + bnEps) + b (ix1 q)
  rw [broadcastTo_1b_ab_apply, broadcastTo_1b_ab_apply, broadcastTo_1b_ab_apply, broadcastTo_1b_ab_apply,
    shapeCast_a_1a_apply, shapeCast_a_1a_apply, shapeCast_a_1a_apply, shapeCast_a_1a_apply]
  rfl

/-- The vector unit's logistic, lane by lane, is the logistic function entry by entry. -/
theorem sigm_vector_form {m n : Nat} (Z : Mat m n) : logistic Z = sigm Z := rfl

/-! ## The printed shape records are the plain m × k by k × n products -/

section Records

theorem dot1_plain : Cert.KernelIdeal.dot_S1024x1024_S1024x512_S1024x512_1_0_0_1_n_n = DotDims.plain 1024 1024 512 := rfl
theorem dot2_plain : Cert.KernelIdeal.dot_S1024x512_S512x256_S1024x256_1_0_0_1_n_n = DotDims.plain 1024 512 256 := rfl
theorem dot3_plain : Cert.KernelIdeal.dot_S1024x256_S256x128_S1024x128_1_0_0_1_n_n = DotDims.plain 1024 256 128 := rfl
theorem dot4_plain : Cert.KernelIdeal.dot_S1024x128_S128x8_S1024x8_1_0_0_1_n_n = DotDims.plain 1024 128 8 := rfl

end Records

/-! ## The block program's value is the node network on its block -/

open Cert.KernelIdeal in
/-- The value the vector unit stores for a block of 1024 feature rows, as a function of the block and of the
    parameters it loads, is the node network on that block. -/
theorem node_kernel_form (x0 : Vec Ideal S1024x1024 .f32) (x1 : Vec Ideal S1024x512 .bf16)
    (x2 x3 x4 x5 x6 : Vec Ideal S512 .f32) (x7 : Vec Ideal S512x256 .bf16) (x8 x9 x10 x11 x12 : Vec Ideal S256 .f32)
    (x13 : Vec Ideal S256x128 .bf16) (x14 : Vec Ideal S128 .f32) (x15 : Vec Ideal S128x8 .bf16) (x16 : Vec Ideal S8 .f32) :
    Cert.KernelIdeal.Gen.k0_pay1 (F := Ideal) (Cert.KernelIdeal.Gen.k0_pay2 (F := Ideal) x0 x1 x2 x3 x4 x5 x6 x7 x8)
        x9 x10 x11 x12 x13 x14 x15 x16
      = nodeFn (m := 1024) x0 x1 x2 x3 x4 x5 x6 x7 x8 x9 x10 x11 x12 x13 x14 x15 x16 := by
  unfold Cert.KernelIdeal.Gen.k0_pay1 Cert.KernelIdeal.Gen.k0_pay2 nodeFn
  dsimp only
  simp only [shapeCast_self]
  rw [dot1_plain, dot2_plain, dot3_plain, dot4_plain]
  rw [dense_vector_form, bn_vector_form, relu_vector_form, dense_vector_form, bn_vector_form, relu_vector_form,
    dense_vector_form, relu_vector_form, dense_vector_form]
  rfl

end NetSpec

end
-- ==== Proof.KINodeFinal.lean ====
/-
  From the node kernel's row tiles to its whole result.

  The region runs the node kernel at 16 grid points. At a point whose row tile is n, the feature window holds rows
  1024·n … 1024·n + 1023 of the [16384 × 1024] feature array, every parameter window (weights, biases, normalisation
  vectors) holds its whole array, and the result window writes back rows 1024·n … 1024·n + 1023 of the [16384 × 8]
  result array. The value the body leaves for a block is the node network on the block, and the node network is
  row-local: row 1024·n + p of the network on the whole feature array is row p of the network on tile n. So what every
  point writes back is ITS BLOCK OF ONE function of the arrays, the node network on the whole feature array, and since
  the 16 row tiles cover the 16384 rows, that function is what the result array holds after the region.
-/
import proofs.«419047_j46299747451450_1_alg».proof.Proof.KINode
import proofs.«419047_j46299747451450_1_alg».proof.Proof.NodeForms
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The index maps, decided over the 16 grid points -/

theorem zero_pair : (![0, 0] : Fin 2 → Nat) = fun _ => 0 := funext fun a => by fin_cases a <;> rfl
theorem zero_single : (![0] : Fin 1 → Nat) = fun _ => 0 := funext fun a => by fin_cases a; rfl

/-- The feature window and the result window sit on the same row tile, both in column block 0, and the row tile is one
    of the 16. -/
theorem row_tile_facts : ∀ t : Fin cfg0.N,
    win0_0.index t (0 : Fin 2) = win0_17.index t (0 : Fin 2)
    ∧ win0_0.index t (1 : Fin 2) = 0
    ∧ win0_17.index t (1 : Fin 2) = 0
    ∧ win0_17.index t (0 : Fin 2) ≤ 15 :=
  (by decide +kernel : ∀ t : Fin grid0.N, _)

/-- Every row tile is some grid point's. -/
theorem row_tile_onto : ∀ n : Fin 16, ∃ t : Fin cfg0.N, win0_17.index t = ![n.val, 0] :=
  (by decide +kernel : ∀ n : Fin 16, ∃ t : Fin grid0.N, win0_17.index t = ![n.val, 0])

/-- The window of the first layer's weights sits at block 0 on every axis, at every grid point. -/
theorem param_block_zero_1 : ∀ (t : Fin cfg0.N) (a : Fin 2), win0_1.index t a = 0 :=
  (by decide +kernel : ∀ (t : Fin grid0.N) (a : Fin 2), win0_1.index t a = 0)
/-- The window of the first layer's bias sits at block 0 on every axis, at every grid point. -/
theorem param_block_zero_2 : ∀ (t : Fin cfg0.N) (a : Fin 1), win0_2.index t a = 0 :=
  (by decide +kernel : ∀ (t : Fin grid0.N) (a : Fin 1), win0_2.index t a = 0)
/-- The window of the first normalisation's scale sits at block 0 on every axis, at every grid point. -/
theorem param_block_zero_3 : ∀ (t : Fin cfg0.N) (a : Fin 1), win0_3.index t a = 0 :=
  (by decide +kernel : ∀ (t : Fin grid0.N) (a : Fin 1), win0_3.index t a = 0)
/-- The window of the first normalisation's shift sits at block 0 on every axis, at every grid point. -/
theorem param_block_zero_4 : ∀ (t : Fin cfg0.N) (a : Fin 1), win0_4.index t a = 0 :=
  (by decide +kernel : ∀ (t : Fin grid0.N) (a : Fin 1), win0_4.index t a = 0)
/-- The window of the first normalisation's running mean sits at block 0 on every axis, at every grid point. -/
theorem param_block_zero_5 : ∀ (t : Fin cfg0.N) (a : Fin 1), win0_5.index t a = 0 :=
  (by decide +kernel : ∀ (t : Fin grid0.N) (a : Fin 1), win0_5.index t a = 0)
/-- The window of the first normalisation's running variance sits at block 0 on every axis, at every grid point. -/
theorem param_block_zero_6 : ∀ (t : Fin cfg0.N) (a : Fin 1), win0_6.index t a = 0 :=
  (by decide +kernel : ∀ (t : Fin grid0.N) (a : Fin 1), win0_6.index t a = 0)
/-- The window of the second layer's weights sits at block 0 on every axis, at every grid point. -/
theorem param_block_zero_7 : ∀ (t : Fin cfg0.N) (a : Fin 2), win0_7.index t a = 0 :=
  (by decide +kernel : ∀ (t : Fin grid0.N) (a : Fin 2), win0_7.index t a = 0)
/-- The window of the second layer's bias sits at block 0 on every axis, at every grid point. -/
theorem param_block_zero_8 : ∀ (t : Fin cfg0.N) (a : Fin 1), win0_8.index t a = 0 :=
  (by decide +kernel : ∀ (t : Fin grid0.N) (a : Fin 1), win0_8.index t a = 0)
/-- The window of the second normalisation's scale sits at block 0 on every axis, at every grid point. -/
theorem param_block_zero_9 : ∀ (t : Fin cfg0.N) (a : Fin 1), win0_9.index t a = 0 :=
  (by decide +kernel : ∀ (t : Fin grid0.N) (a : Fin 1), win0_9.index t a = 0)
/-- The window of the second normalisation's shift sits at block 0 on every axis, at every grid point. -/
theorem param_block_zero_10 : ∀ (t : Fin cfg0.N) (a : Fin 1), win0_10.index t a = 0 :=
  (by decide +kernel : ∀ (t : Fin grid0.N) (a : Fin 1), win0_10.index t a = 0)
/-- The window of the second normalisation's running mean sits at block 0 on every axis, at every grid point. -/
theorem param_block_zero_11 : ∀ (t : Fin cfg0.N) (a : Fin 1), win0_11.index t a = 0 :=
  (by decide +kernel : ∀ (t : Fin grid0.N) (a : Fin 1), win0_11.index t a = 0)
/-- The window of the second normalisation's running variance sits at block 0 on every axis, at every grid point. -/
theorem param_block_zero_12 : ∀ (t : Fin cfg0.N) (a : Fin 1), win0_12.index t a = 0 :=
  (by decide +kernel : ∀ (t : Fin grid0.N) (a : Fin 1), win0_12.index t a = 0)
/-- The window of the third layer's weights sits at block 0 on every axis, at every grid point. -/
theorem param_block_zero_13 : ∀ (t : Fin cfg0.N) (a : Fin 2), win0_13.index t a = 0 :=
  (by decide +kernel : ∀ (t : Fin grid0.N) (a : Fin 2), win0_13.index t a = 0)
/-- The window of the third layer's bias sits at block 0 on every axis, at every grid point. -/
theorem param_block_zero_14 : ∀ (t : Fin cfg0.N) (a : Fin 1), win0_14.index t a = 0 :=
  (by decide +kernel : ∀ (t : Fin grid0.N) (a : Fin 1), win0_14.index t a = 0)
/-- The window of the head's weights sits at block 0 on every axis, at every grid point. -/
theorem param_block_zero_15 : ∀ (t : Fin cfg0.N) (a : Fin 2), win0_15.index t a = 0 :=
  (by decide +kernel : ∀ (t : Fin grid0.N) (a : Fin 2), win0_15.index t a = 0)
/-- The window of the head's bias sits at block 0 on every axis, at every grid point. -/
theorem param_block_zero_16 : ∀ (t : Fin cfg0.N) (a : Fin 1), win0_16.index t a = 0 :=
  (by decide +kernel : ∀ (t : Fin grid0.N) (a : Fin 1), win0_16.index t a = 0)

/-! ## The parameter windows' blocks are their arrays -/

/-- The block of the first layer's weights at any grid point is the whole array. -/
theorem param_block_1 (c : Dev nD) (t : Fin cfg0.N) :
    (iblk0 V c 1 t : Vec Ideal S1024x512 .bf16) = (V c main_v1 : Vec Ideal S1024x512 .bf16) := by
  funext y
  show V c main_v1 (((cfg0.win 1).blk t).view.emb y) = V c main_v1 y
  refine congrArg (V c main_v1) (funext fun a => Fin.ext ?_)
  match a with
  | ⟨0, _⟩ => show win0_1.index t (0 : Fin 2) * 1024 + 1 * (y 0).val = (y 0).val; rw [param_block_zero_1 t (0 : Fin 2)]; omega
  | ⟨1, _⟩ => show win0_1.index t (1 : Fin 2) * 512 + 1 * (y 1).val = (y 1).val; rw [param_block_zero_1 t (1 : Fin 2)]; omega
/-- The block of the first layer's bias at any grid point is the whole array. -/
theorem param_block_2 (c : Dev nD) (t : Fin cfg0.N) :
    (iblk0 V c 2 t : Vec Ideal S512 .f32) = (V c main_arg6 : Vec Ideal S512 .f32) := by
  funext y
  show V c main_arg6 (((cfg0.win 2).blk t).view.emb y) = V c main_arg6 y
  refine congrArg (V c main_arg6) (funext fun a => Fin.ext ?_)
  match a with
  | ⟨0, _⟩ => show win0_2.index t (0 : Fin 1) * 512 + 1 * (y 0).val = (y 0).val; rw [param_block_zero_2 t (0 : Fin 1)]; omega
/-- The block of the first normalisation's scale at any grid point is the whole array. -/
theorem param_block_3 (c : Dev nD) (t : Fin cfg0.N) :
    (iblk0 V c 3 t : Vec Ideal S512 .f32) = (V c main_arg7 : Vec Ideal S512 .f32) := by
  funext y
  show V c main_arg7 (((cfg0.win 3).blk t).view.emb y) = V c main_arg7 y
  refine congrArg (V c main_arg7) (funext fun a => Fin.ext ?_)
  match a with
  | ⟨0, _⟩ => show win0_3.index t (0 : Fin 1) * 512 + 1 * (y 0).val = (y 0).val; rw [param_block_zero_3 t (0 : Fin 1)]; omega
/-- The block of the first normalisation's shift at any grid point is the whole array. -/
theorem param_block_4 (c : Dev nD) (t : Fin cfg0.N) :
    (iblk0 V c 4 t : Vec Ideal S512 .f32) = (V c main_arg8 : Vec Ideal S512 .f32) := by
  funext y
  show V c main_arg8 (((cfg0.win 4).blk t).view.emb y) = V c main_arg8 y
  refine congrArg (V c main_arg8) (funext fun a => Fin.ext ?_)
  match a with
  | ⟨0, _⟩ => show win0_4.index t (0 : Fin 1) * 512 + 1 * (y 0).val = (y 0).val; rw [param_block_zero_4 t (0 : Fin 1)]; omega
/-- The block of the first normalisation's running mean at any grid point is the whole array. -/
theorem param_block_5 (c : Dev nD) (t : Fin cfg0.N) :
    (iblk0 V c 5 t : Vec Ideal S512 .f32) = (V c main_arg9 : Vec Ideal S512 .f32) := by
  funext y
  show V c main_arg9 (((cfg0.win 5).blk t).view.emb y) = V c main_arg9 y
  refine congrArg (V c main_arg9) (funext fun a => Fin.ext ?_)
  match a with
  | ⟨0, _⟩ => show win0_5.index t (0 : Fin 1) * 512 + 1 * (y 0).val = (y 0).val; rw [param_block_zero_5 t (0 : Fin 1)]; omega
/-- The block of the first normalisation's running variance at any grid point is the whole array. -/
theorem param_block_6 (c : Dev nD) (t : Fin cfg0.N) :
    (iblk0 V c 6 t : Vec Ideal S512 .f32) = (V c main_arg10 : Vec Ideal S512 .f32) := by
  funext y
  show V c main_arg10 (((cfg0.win 6).blk t).view.emb y) = V c main_arg10 y
  refine congrArg (V c main_arg10) (funext fun a => Fin.ext ?_)
  match a with
  | ⟨0, _⟩ => show win0_6.index t (0 : Fin 1) * 512 + 1 * (y 0).val = (y 0).val; rw [param_block_zero_6 t (0 : Fin 1)]; omega
/-- The block of the second layer's weights at any grid point is the whole array. -/
theorem param_block_7 (c : Dev nD) (t : Fin cfg0.N) :
    (iblk0 V c 7 t : Vec Ideal S512x256 .bf16) = (V c main_v2 : Vec Ideal S512x256 .bf16) := by
  funext y
  show V c main_v2 (((cfg0.win 7).blk t).view.emb y) = V c main_v2 y
  refine congrArg (V c main_v2) (funext fun a => Fin.ext ?_)
  match a with
  | ⟨0, _⟩ => show win0_7.index t (0 : Fin 2) * 512 + 1 * (y 0).val = (y 0).val; rw [param_block_zero_7 t (0 : Fin 2)]; omega
  | ⟨1, _⟩ => show win0_7.index t (1 : Fin 2) * 256 + 1 * (y 1).val = (y 1).val; rw [param_block_zero_7 t (1 : Fin 2)]; omega
/-- The block of the second layer's bias at any grid point is the whole array. -/
theorem param_block_8 (c : Dev nD) (t : Fin cfg0.N) :
    (iblk0 V c 8 t : Vec Ideal S256 .f32) = (V c main_arg12 : Vec Ideal S256 .f32) := by
  funext y
  show V c main_arg12 (((cfg0.win 8).blk t).view.emb y) = V c main_arg12 y
  refine congrArg (V c main_arg12) (funext fun a => Fin.ext ?_)
  match a with
  | ⟨0, _⟩ => show win0_8.index t (0 : Fin 1) * 256 + 1 * (y 0).val = (y 0).val; rw [param_block_zero_8 t (0 : Fin 1)]; omega
/-- The block of the second normalisation's scale at any grid point is the whole array. -/
theorem param_block_9 (c : Dev nD) (t : Fin cfg0.N) :
    (iblk0 V c 9 t : Vec Ideal S256 .f32) = (V c main_arg13 : Vec Ideal S256 .f32) := by
  funext y
  show V c main_arg13 (((cfg0.win 9).blk t).view.emb y) = V c main_arg13 y
  refine congrArg (V c main_arg13) (funext fun a => Fin.ext ?_)
  match a with
  | ⟨0, _⟩ => show win0_9.index t (0 : Fin 1) * 256 + 1 * (y 0).val = (y 0).val; rw [param_block_zero_9 t (0 : Fin 1)]; omega
/-- The block of the second normalisation's shift at any grid point is the whole array. -/
theorem param_block_10 (c : Dev nD) (t : Fin cfg0.N) :
    (iblk0 V c 10 t : Vec Ideal S256 .f32) = (V c main_arg14 : Vec Ideal S256 .f32) := by
  funext y
  show V c main_arg14 (((cfg0.win 10).blk t).view.emb y) = V c main_arg14 y
  refine congrArg (V c main_arg14) (funext fun a => Fin.ext ?_)
  match a with
  | ⟨0, _⟩ => show win0_10.index t (0 : Fin 1) * 256 + 1 * (y 0).val = (y 0).val; rw [param_block_zero_10 t (0 : Fin 1)]; omega
/-- The block of the second normalisation's running mean at any grid point is the whole array. -/
theorem param_block_11 (c : Dev nD) (t : Fin cfg0.N) :
    (iblk0 V c 11 t : Vec Ideal S256 .f32) = (V c main_arg15 : Vec Ideal S256 .f32) := by
  funext y
  show V c main_arg15 (((cfg0.win 11).blk t).view.emb y) = V c main_arg15 y
  refine congrArg (V c main_arg15) (funext fun a => Fin.ext ?_)
  match a with
  | ⟨0, _⟩ => show win0_11.index t (0 : Fin 1) * 256 + 1 * (y 0).val = (y 0).val; rw [param_block_zero_11 t (0 : Fin 1)]; omega
/-- The block of the second normalisation's running variance at any grid point is the whole array. -/
theorem param_block_12 (c : Dev nD) (t : Fin cfg0.N) :
    (iblk0 V c 12 t : Vec Ideal S256 .f32) = (V c main_arg16 : Vec Ideal S256 .f32) := by
  funext y
  show V c main_arg16 (((cfg0.win 12).blk t).view.emb y) = V c main_arg16 y
  refine congrArg (V c main_arg16) (funext fun a => Fin.ext ?_)
  match a with
  | ⟨0, _⟩ => show win0_12.index t (0 : Fin 1) * 256 + 1 * (y 0).val = (y 0).val; rw [param_block_zero_12 t (0 : Fin 1)]; omega
/-- The block of the third layer's weights at any grid point is the whole array. -/
theorem param_block_13 (c : Dev nD) (t : Fin cfg0.N) :
    (iblk0 V c 13 t : Vec Ideal S256x128 .bf16) = (V c main_v3 : Vec Ideal S256x128 .bf16) := by
  funext y
  show V c main_v3 (((cfg0.win 13).blk t).view.emb y) = V c main_v3 y
  refine congrArg (V c main_v3) (funext fun a => Fin.ext ?_)
  match a with
  | ⟨0, _⟩ => show win0_13.index t (0 : Fin 2) * 256 + 1 * (y 0).val = (y 0).val; rw [param_block_zero_13 t (0 : Fin 2)]; omega
  | ⟨1, _⟩ => show win0_13.index t (1 : Fin 2) * 128 + 1 * (y 1).val = (y 1).val; rw [param_block_zero_13 t (1 : Fin 2)]; omega
/-- The block of the third layer's bias at any grid point is the whole array. -/
theorem param_block_14 (c : Dev nD) (t : Fin cfg0.N) :
    (iblk0 V c 14 t : Vec Ideal S128 .f32) = (V c main_arg18 : Vec Ideal S128 .f32) := by
  funext y
  show V c main_arg18 (((cfg0.win 14).blk t).view.emb y) = V c main_arg18 y
  refine congrArg (V c main_arg18) (funext fun a => Fin.ext ?_)
  match a with
  | ⟨0, _⟩ => show win0_14.index t (0 : Fin 1) * 128 + 1 * (y 0).val = (y 0).val; rw [param_block_zero_14 t (0 : Fin 1)]; omega
/-- The block of the head's weights at any grid point is the whole array. -/
theorem param_block_15 (c : Dev nD) (t : Fin cfg0.N) :
    (iblk0 V c 15 t : Vec Ideal S128x8 .bf16) = (V c main_v4 : Vec Ideal S128x8 .bf16) := by
  funext y
  show V c main_v4 (((cfg0.win 15).blk t).view.emb y) = V c main_v4 y
  refine congrArg (V c main_v4) (funext fun a => Fin.ext ?_)
  match a with
  | ⟨0, _⟩ => show win0_15.index t (0 : Fin 2) * 128 + 1 * (y 0).val = (y 0).val; rw [param_block_zero_15 t (0 : Fin 2)]; omega
  | ⟨1, _⟩ => show win0_15.index t (1 : Fin 2) * 8 + 1 * (y 1).val = (y 1).val; rw [param_block_zero_15 t (1 : Fin 2)]; omega
/-- The block of the head's bias at any grid point is the whole array. -/
theorem param_block_16 (c : Dev nD) (t : Fin cfg0.N) :
    (iblk0 V c 16 t : Vec Ideal S8 .f32) = (V c main_arg20 : Vec Ideal S8 .f32) := by
  funext y
  show V c main_arg20 (((cfg0.win 16).blk t).view.emb y) = V c main_arg20 y
  refine congrArg (V c main_arg20) (funext fun a => Fin.ext ?_)
  match a with
  | ⟨0, _⟩ => show win0_16.index t (0 : Fin 1) * 8 + 1 * (y 0).val = (y 0).val; rw [param_block_zero_16 t (0 : Fin 1)]; omega

/-! ## The feature window's block is a row tile of the feature array -/

/-- Row `p` of the feature block at point `t` is row `1024 · n + p` of the feature array, `n` the point's row tile. -/
theorem feat_block (c : Dev nD) (t : Fin cfg0.N) (p : Fin 1024) (P : Fin 16384)
    (hP : P.val = 1024 * win0_17.index t (0 : Fin 2) + p.val) (k : Fin 1024) :
    (iblk0 V c 0 t : Vec Ideal S1024x1024 .f32) (ix2 p k) = (V c main_v0 : Vec Ideal S16384x1024 .f32) (ix2 P k) := by
  obtain ⟨e0, e1, -, -⟩ := row_tile_facts t
  show V c main_v0 (((cfg0.win 0).blk t).view.emb (ix2 p k)) = V c main_v0 (ix2 P k)
  refine congrArg (V c main_v0) (funext fun a => Fin.ext ?_)
  match a with
  | ⟨0, _⟩ => show win0_0.index t (0 : Fin 2) * 1024 + 1 * p.val = P.val; rw [e0, hP]; omega
  | ⟨1, _⟩ => show win0_0.index t (1 : Fin 2) * 1024 + 1 * k.val = k.val; rw [e1]; omega

/-! ## What a grid point writes back -/

/-- The output buffer after the body is the node network on the feature block: the one store covers the buffer, every
    load takes its buffer whole, and the stored value is the network on the loaded block. -/
theorem out_block_form (x0 : Vec Ideal S1024x1024 .f32) (x1 : Vec Ideal S1024x512 .bf16) (x2 : Vec Ideal S512 .f32) (x3 : Vec Ideal S512 .f32) (x4 : Vec Ideal S512 .f32) (x5 : Vec Ideal S512 .f32) (x6 : Vec Ideal S512 .f32) (x7 : Vec Ideal S512x256 .bf16) (x8 : Vec Ideal S256 .f32) (x9 : Vec Ideal S256 .f32) (x10 : Vec Ideal S256 .f32) (x11 : Vec Ideal S256 .f32) (x12 : Vec Ideal S256 .f32) (x13 : Vec Ideal S256x128 .bf16) (x14 : Vec Ideal S128 .f32) (x15 : Vec Ideal S128x8 .bf16) (x16 : Vec Ideal S8 .f32) :
    out0_17 (F := Ideal) x0 x1 x2 x3 x4 x5 x6 x7 x8 x9 x10 x11 x12 x13 x14 x15 x16
      = NetSpec.nodeFn (m := 1024) x0 x1 x2 x3 x4 x5 x6 x7 x8 x9 x10 x11 x12 x13 x14 x15 x16 := by
  unfold out0_17
  rw [View.canon_unit_zero zero_pair]
  simp only [View.ld_unit_zero (S := S1024x1024) zero_pair,
    View.ld_unit_zero (S := S1024x512) zero_pair,
    View.ld_unit_zero (S := S512) zero_single,
    View.ld_unit_zero (S := S512x256) zero_pair,
    View.ld_unit_zero (S := S256) zero_single,
    View.ld_unit_zero (S := S256x128) zero_pair,
    View.ld_unit_zero (S := S128) zero_single,
    View.ld_unit_zero (S := S128x8) zero_pair,
    View.ld_unit_zero (S := S8) zero_single]
  exact NetSpec.node_kernel_form x0 x1 x2 x3 x4 x5 x6 x7 x8 x9 x10 x11 x12 x13 x14 x15 x16

/-- The node network on the whole feature array, with the parameters as the region finds them. -/
abbrev nodeAll (c : Dev nD) : Vec Ideal S16384x8 .f32 :=
  NetSpec.nodeFn (m := 16384) (V c main_v0) (V c main_v1) (V c main_arg6) (V c main_arg7) (V c main_arg8) (V c main_arg9) (V c main_arg10) (V c main_v2) (V c main_arg12) (V c main_arg13) (V c main_arg14) (V c main_arg15) (V c main_arg16) (V c main_v3) (V c main_arg18) (V c main_v4) (V c main_arg20)

/-- An entry of the node network on a row tile is the entry of the node network on the whole array at the tile's row:
    the network is row-local. -/
theorem tile_entry (X : Vec Ideal S16384x1024 .f32) (x0 : Vec Ideal S1024x1024 .f32) (x1 : Vec Ideal S1024x512 .bf16) (x2 : Vec Ideal S512 .f32) (x3 : Vec Ideal S512 .f32) (x4 : Vec Ideal S512 .f32) (x5 : Vec Ideal S512 .f32) (x6 : Vec Ideal S512 .f32) (x7 : Vec Ideal S512x256 .bf16) (x8 : Vec Ideal S256 .f32) (x9 : Vec Ideal S256 .f32) (x10 : Vec Ideal S256 .f32) (x11 : Vec Ideal S256 .f32) (x12 : Vec Ideal S256 .f32) (x13 : Vec Ideal S256x128 .bf16) (x14 : Vec Ideal S128 .f32) (x15 : Vec Ideal S128x8 .bf16) (x16 : Vec Ideal S8 .f32)
    (n : Nat) (hx : ∀ (p : Fin 1024) (P : Fin 16384), P.val = 1024 * n + p.val → ∀ k : Fin 1024, x0 (ix2 p k) = X (ix2 P k))
    (i : S1024x8.Idx) (I : S16384x8.Idx) (h0 : (I 0).val = 1024 * n + (i 0).val) (h1 : (I 1).val = (i 1).val) :
    NetSpec.nodeFn (m := 1024) x0 x1 x2 x3 x4 x5 x6 x7 x8 x9 x10 x11 x12 x13 x14 x15 x16 i
      = NetSpec.nodeFn (m := 16384) X x1 x2 x3 x4 x5 x6 x7 x8 x9 x10 x11 x12 x13 x14 x15 x16 I := by
  obtain ⟨p, q, rfl⟩ : ∃ (p : Fin 1024) (q : Fin 8), i = ix2 p q := ⟨i 0, i 1, eq_ix2 i⟩
  obtain ⟨P, Q, rfl⟩ : ∃ (P : Fin 16384) (Q : Fin 8), I = ix2 P Q := ⟨I 0, I 1, eq_ix2 I⟩
  obtain rfl : Q = q := Fin.ext h1
  exact NetSpec.nodeFn_rows x0 X x1 x2 x3 x4 x5 x6 x7 x8 x9 x10 x11 x12 x13 x14 x15 x16 p P (hx p P h0) Q

/-- WHAT POINT `t` WRITES BACK is its row tile of the node network on the whole feature array. -/
theorem tile_written (c : Dev nD) (t : Fin cfg0.N) :
    (dat0 (F := Ideal) V c).flushed 17 t = ((cfg0.win 17).blk t).view.read (Elt Ideal) (nodeAll V c) := by
  show (cfg0.win 17).cut (grid0.coords t) ((dat0 (F := Ideal) V c).after 17 t) = _
  rw [after0_17]
  rw [out_block_form (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)]
  rw [param_block_1 V c t, param_block_2 V c t, param_block_3 V c t, param_block_4 V c t, param_block_5 V c t, param_block_6 V c t, param_block_7 V c t, param_block_8 V c t, param_block_9 V c t, param_block_10 V c t, param_block_11 V c t, param_block_12 V c t, param_block_13 V c t, param_block_14 V c t, param_block_15 V c t, param_block_16 V c t]
  obtain ⟨-, -, e2, -⟩ := row_tile_facts t
  funext y
  show NetSpec.nodeFn (m := 1024) (iblk0 V c 0 t) (V c main_v1) (V c main_arg6) (V c main_arg7) (V c main_arg8) (V c main_arg9) (V c main_arg10) (V c main_v2) (V c main_arg12) (V c main_arg13) (V c main_arg14) (V c main_arg15) (V c main_arg16) (V c main_v3) (V c main_arg18) (V c main_v4) (V c main_arg20) ((cfg0.win 17).xinj (grid0.coords t) y)
    = nodeAll V c (((cfg0.win 17).blk t).view.emb y)
  refine tile_entry (V c main_v0) (iblk0 V c 0 t) (V c main_v1) (V c main_arg6) (V c main_arg7) (V c main_arg8) (V c main_arg9) (V c main_arg10) (V c main_v2) (V c main_arg12) (V c main_arg13) (V c main_arg14) (V c main_arg15) (V c main_arg16) (V c main_v3) (V c main_arg18) (V c main_v4) (V c main_arg20)
    (win0_17.index t (0 : Fin 2)) (fun p P hP k => feat_block V c t p P hP k)
    ((cfg0.win 17).xinj (grid0.coords t) y) (((cfg0.win 17).blk t).view.emb y) ?_ ?_
  · show win0_17.index t (0 : Fin 2) * 1024 + 1 * (y 0).val = 1024 * win0_17.index t (0 : Fin 2) + (y 0).val
    omega
  · show win0_17.index t (1 : Fin 2) * 8 + 1 * (y 1).val = (y 1).val
    rw [e2]; omega

/-! ## The row tiles cover the result array -/

/-- An index of the result array is in point `t`'s block iff each coordinate is in the block's range on its axis. -/
theorem mem_tile (t : Fin cfg0.N) (i : S16384x8.Idx) :
    i ∈ ((cfg0.win 17).blk t).view.set ↔ ∀ a : Fin 2, win0_17.index t a * S1024x8.size a ≤ (i a).val ∧ (i a).val < win0_17.index t a * S1024x8.size a + S1024x8.size a := by
  show i ∈ ((View.whole main_v5).slice (win0_17.rect t)).set ↔ _
  rw [View.set_slice_whole, Rect.mem_set_unit]
  exact Iff.rfl

/-- Row `r` of the result array is in the block of the point whose row tile is `r / 1024`. -/
theorem tiles_cover (i : S16384x8.Idx) :
    ∃ t : Fin cfg0.N, (cfg0.win 17).flush t = true ∧ i ∈ ((cfg0.win 17).blk t).view.set := by
  have hi0 : (i 0).val < 16384 := (i 0).isLt
  have hi1 : (i 1).val < 8 := (i 1).isLt
  obtain ⟨t, ht⟩ := row_tile_onto ⟨(i 0).val / 1024, by omega⟩
  have q0 : win0_17.index t (0 : Fin 2) = (i 0).val / 1024 := congrFun ht 0
  have q1 : win0_17.index t (1 : Fin 2) = 0 := congrFun ht 1
  refine ⟨t, flush0_17 t, ?_⟩
  rw [mem_tile]
  intro a
  match a with
  | ⟨0, _⟩ => show win0_17.index t (0 : Fin 2) * 1024 ≤ (i 0).val ∧ (i 0).val < win0_17.index t (0 : Fin 2) * 1024 + 1024; omega
  | ⟨1, _⟩ => show win0_17.index t (1 : Fin 2) * 8 ≤ (i 1).val ∧ (i 1).val < win0_17.index t (1 : Fin 2) * 8 + 8; omega

/-! ## The result array after the region -/

/-- THE RESULT ARRAY after the region is the node network on the whole feature array. -/
theorem node_final_of (c : Dev nD) :
    (dat0 (F := Ideal) V c).arrAt 17 cfg0.N
      = NetSpec.nodeFn (m := 16384) (V c main_v0) (V c main_v1) (V c main_arg6) (V c main_arg7) (V c main_arg8) (V c main_arg9) (V c main_arg10) (V c main_v2) (V c main_arg12) (V c main_arg13) (V c main_arg14) (V c main_arg15) (V c main_arg16) (V c main_v3) (V c main_arg18) (V c main_v4) (V c main_arg20) :=
  (dat0 (F := Ideal) V c).arrAt_eq_of_cover 17 (nodeAll V c) (fun t _ => tile_written V c t) tiles_cover

end Cert.KernelIdeal.Hand

end
-- ==== Proof.NetOut.lean ====
/-
  The two networks on whole arrays.

  The node network's result over all 32 · 512 rows, laid out as [32, 512, 8]; the edge network's result for every
  batch entry b (its table the slab b of the attribute array, its words the slabs b of the two index arrays), laid
  out as [32 · 32768, 10].
-/
import proofs.«419047_j46299747451450_1_alg».proof.Proof.NetSpec

noncomputable section

namespace NetSpec

open Idealize.ShloMosaic Idealize.ShloMosaic.ValueIdx DenseRows

/-- The node network applied to the [32, 512, 1024] feature array read as 16384 rows, its 16384 × 8 result read as
    [32, 512, 8]. -/
def nodeOut (h1 : (⟨3, ![32, 512, 1024]⟩ : Shape).ShapeCasts ⟨2, ![16384, 1024]⟩)
    (h2 : (⟨2, ![16384, 8]⟩ : Shape).ShapeCasts ⟨3, ![32, 512, 8]⟩)
    (a0 : FVec Ideal (⟨3, ![32, 512, 1024]⟩ : Shape) .f32) (W1 : Mat 1024 512) (b1 g1 bb1 rm1 rv1 : Col 512)
    (W2 : Mat 512 256) (b2 g2 bb2 rm2 rv2 : Col 256) (W3 : Mat 256 128) (b3 : Col 128)
    (Wi : Mat 128 8) (bi : Col 8) : FVec Ideal (⟨3, ![32, 512, 8]⟩ : Shape) .f32 :=
  shapeCast (⟨3, ![32, 512, 8]⟩ : Shape)
    (nodeFn (m := 16384) (shapeCast (⟨2, ![16384, 1024]⟩ : Shape) a0 h1) W1 b1 g1 bb1 rm1 rv1 W2 b2 g2 bb2 rm2 rv2 W3 b3 Wi bi) h2

/-- Entry b of a stack of 32 matrices. -/
def slab {α : Type} {n k : Nat} (A : (⟨3, ![32, n, k]⟩ : Shape).Idx → α) (b : Fin 32) : (⟨2, ![n, k]⟩ : Shape).Idx → α :=
  fun j => A (ix3 b (j 0) (j 1))

/-- The edge network for every batch entry: [32, 32768, 10]. -/
def edgeOut3 (attr : FVec Ideal (⟨3, ![32, 512, 9]⟩ : Shape) .f32) (S D : IVec (⟨3, ![32, 32768, 1]⟩ : Shape) 32)
    (W1 : Mat 18 64) (b1 : Col 64) (W2 : Mat 64 64) (b2 : Col 64) (Wi : Mat 64 10) (bi : Col 10) :
    FVec Ideal (⟨3, ![32, 32768, 10]⟩ : Shape) .f32 :=
  fun i => edgeFn (n := 32768) (slab attr (i 0)) (slab S (i 0)) (slab D (i 0)) W1 b1 W2 b2 Wi bi (ix2 (i 1) (i 2))

/-- The same read as [32 · 32768, 10]. -/
def edgeOut (h : (⟨3, ![32, 32768, 10]⟩ : Shape).ShapeCasts ⟨2, ![1048576, 10]⟩)
    (attr : FVec Ideal (⟨3, ![32, 512, 9]⟩ : Shape) .f32) (S D : IVec (⟨3, ![32, 32768, 1]⟩ : Shape) 32)
    (W1 : Mat 18 64) (b1 : Col 64) (W2 : Mat 64 64) (b2 : Col 64) (Wi : Mat 64 10) (bi : Col 10) :
    FVec Ideal (⟨2, ![1048576, 10]⟩ : Shape) .f32 :=
  shapeCast (⟨2, ![1048576, 10]⟩ : Shape) (edgeOut3 attr S D W1 b1 W2 b2 Wi bi) h

end NetSpec

end
-- ==== Proof.EdgeForms.lean ====
/-
  The edge network's two faces.

  Row-locality: the edge network's row for an edge depends on that edge's two words only, so the network computed on
  a block of edges is that block of rows of the network computed on all of them.

  The block computation without a look-up: comparing the column of words with the lane numbers 0 … 511 gives a 0/1
  matrix with exactly one 1 in every row whose word is below 512, and since 1 · x = x and 0 · x = 0 for every
  extended real x (the infinities included), row e of that matrix times the table is the table's row that the word
  of row e names. Two such products side by side, two dense layers with the positive part and a sigmoid head: entry
  by entry this is the edge network.
-/
import proofs.«419047_j46299747451450_1_alg».proof.Proof.NetSpec
import proofs.«419047_j46299747451450_1_alg».proof.Proof.Gen.KernelIdeal.Skeleton
import Idealize.ShloMosaic.Lib.Pipeline.Value

noncomputable section

open scoped BigOperators

namespace NetSpec

open Idealize.ShloMosaic Idealize.ShloMosaic.ValueIdx DenseRows

/-! ## Row-locality -/

theorem edge_sigm_rows {m M n : Nat} (X : Mat m n) (A : Mat M n) (p : Fin m) (P : Fin M)
    (h : ∀ c, X (ix2 p c) = A (ix2 P c)) (q : Fin n) : sigm X (ix2 p q) = sigm A (ix2 P q) := by
  show Ideal.logistic (X (ix2 p q)) = Ideal.logistic (A (ix2 P q))
  rw [h q]

theorem gath_rows {n N : Nat} (A : Mat 512 9) (S : WCol n) (S' : WCol N) (p : Fin n) (P : Fin N)
    (hS : S (ix2 p (0 : Fin 1)) = S' (ix2 P (0 : Fin 1))) (c : Fin 9) :
    gath A S (ix2 p c) = gath A S' (ix2 P c) := by
  show A (ix2 (rowOf (S (ix2 p (0 : Fin 1)))) c) = A (ix2 (rowOf (S' (ix2 P (0 : Fin 1)))) c)
  rw [hS]

theorem cat9_left {n : Nat} (X Y : Mat n 9) (p : Fin n) (c : Fin 18) (h : c.val < 9) :
    cat9 X Y (ix2 p c) = X (ix2 p ⟨c.val, h⟩) := dif_pos h

theorem cat9_right {n : Nat} (X Y : Mat n 9) (p : Fin n) (c : Fin 18) (h : ¬ c.val < 9) :
    cat9 X Y (ix2 p c) = Y (ix2 p ⟨c.val - 9, by have := c.isLt; omega⟩) := dif_neg h

theorem cat9_rows {n N : Nat} (X Y : Mat n 9) (X' Y' : Mat N 9) (p : Fin n) (P : Fin N)
    (hX : ∀ c, X (ix2 p c) = X' (ix2 P c)) (hY : ∀ c, Y (ix2 p c) = Y' (ix2 P c)) (c : Fin 18) :
    cat9 X Y (ix2 p c) = cat9 X' Y' (ix2 P c) := by
  by_cases h : c.val < 9
  · rw [cat9_left X Y p c h, cat9_left X' Y' P c h, hX]
  · rw [cat9_right X Y p c h, cat9_right X' Y' P c h, hY]

theorem edgeFn_rows {n N : Nat} (A : Mat 512 9) (S D : WCol n) (S' D' : WCol N) (W1 : Mat 18 64) (b1 : Col 64)
    (W2 : Mat 64 64) (b2 : Col 64) (Wi : Mat 64 10) (bi : Col 10) (p : Fin n) (P : Fin N)
    (hS : S (ix2 p (0 : Fin 1)) = S' (ix2 P (0 : Fin 1))) (hD : D (ix2 p (0 : Fin 1)) = D' (ix2 P (0 : Fin 1)))
    (q : Fin 10) :
    edgeFn A S D W1 b1 W2 b2 Wi bi (ix2 p q) = edgeFn A S' D' W1 b1 W2 b2 Wi bi (ix2 P q) := by
  unfold edgeFn
  refine edge_sigm_rows _ _ p P (fun c => ?_) q
  refine addRow_rows _ _ _ p P (fun c => ?_) c
  refine mm_rows _ _ _ p P (fun c => ?_) c
  refine relu_rows _ _ p P (fun c => ?_) c
  refine addRow_rows _ _ _ p P (fun c => ?_) c
  refine mm_rows _ _ _ p P (fun c => ?_) c
  refine relu_rows _ _ p P (fun c => ?_) c
  refine addRow_rows _ _ _ p P (fun c => ?_) c
  refine mm_rows _ _ _ p P (fun c => ?_) c
  exact cat9_rows _ _ _ _ p P (gath_rows A S S' p P hS) (gath_rows A D D' p P hD) c

/-! ## The look-up as a product with a 0/1 matrix -/

/-- The 0/1 matrix of a column of words over 512 lanes: entry (e, k) is 1 when the word of row e is k, else 0. -/
def hot {n : Nat} (S : WCol n) (hb : (⟨2, ![n, 1]⟩ : Shape).Broadcasts ⟨2, ![n, 512]⟩)
    (hi : (⟨2, ![n, 512]⟩ : Shape).Iotas .tc 32 [1]) (h : 1 < 32) : Mat n 512 :=
  sitofp .f32 (extui 32 (cmpi .eq (broadcastTo (⟨2, ![n, 512]⟩ : Shape) S hb)
    (iota .tc (⟨2, ![n, 512]⟩ : Shape) 32 [1] hi)) h)

theorem hot_apply {n : Nat} (S : WCol n) (hb : (⟨2, ![n, 1]⟩ : Shape).Broadcasts ⟨2, ![n, 512]⟩)
    (hi : (⟨2, ![n, 512]⟩ : Shape).Iotas .tc 32 [1]) (h : 1 < 32) (e : Fin n) (k : Fin 512) :
    hot S hb hi h (ix2 e k) = if S (ix2 e (0 : Fin 1)) = BitVec.ofNat 32 k.val then 1 else 0 := by
  have hB : broadcastTo (⟨2, ![n, 512]⟩ : Shape) S hb (ix2 e k) = S (ix2 e (0 : Fin 1)) :=
    broadcastTo_apply S hb (ix2 e k) (ix2 e (0 : Fin 1)) (fun ax => by
      match ax with
      | ⟨0, _⟩ =>
        show e.val = if n = 1 then 0 else e.val
        split
        · have := e.isLt; omega
        · rfl
      | ⟨1, _⟩ =>
        show 0 = if (1 : Nat) = 1 then 0 else k.val
        rw [if_pos rfl])
  have hI : iota .tc (⟨2, ![n, 512]⟩ : Shape) 32 [1] hi (ix2 e k) = BitVec.ofNat 32 k.val :=
    iota_single_apply .tc _ 32 1 hi (ix2 e k)
  show ((((BitVec.ofBool (broadcastTo (⟨2, ![n, 512]⟩ : Shape) S hb (ix2 e k)
    == iota .tc (⟨2, ![n, 512]⟩ : Shape) 32 [1] hi (ix2 e k))).setWidth 32).toInt : ℝ) : EReal) = _
  rw [hB, hI, toInt_setWidth_bit]
  by_cases hw : S (ix2 e (0 : Fin 1)) = BitVec.ofNat 32 k.val
  · rw [if_pos hw, beq_iff_eq.2 hw]; simp
  · rw [if_neg hw, beq_eq_false_iff_ne.2 hw]; simp

theorem ofNat_rowOf (w : BitVec 32) (hw : w.toNat < 512) : BitVec.ofNat 32 (rowOf w).val = w := by
  apply BitVec.eq_of_toNat_eq
  show (BitVec.ofNat 32 (w.toNat % 512)).toNat = w.toNat
  rw [BitVec.toNat_ofNat, Nat.mod_eq_of_lt hw]
  exact Nat.mod_eq_of_lt w.isLt

theorem eq_rowOf_of_ofNat (w : BitVec 32) (k : Fin 512) (h : w = BitVec.ofNat 32 k.val) : k = rowOf w := by
  apply Fin.ext
  subst h
  show k.val = (BitVec.ofNat 32 k.val).toNat % 512
  have := k.isLt
  rw [BitVec.toNat_ofNat]
  omega

/-- THE ONE-HOT PRODUCT: row e of the 0/1 matrix times the table is the table's row that the word of row e names. -/
theorem hot_mm {n : Nat} (A : Mat 512 9) (S : WCol n) (hb : (⟨2, ![n, 1]⟩ : Shape).Broadcasts ⟨2, ![n, 512]⟩)
    (hi : (⟨2, ![n, 512]⟩ : Shape).Iotas .tc 32 [1]) (h : 1 < 32) (e : Fin n) (c : Fin 9)
    (hw : (S (ix2 e (0 : Fin 1))).toNat < 512) :
    mm (hot S hb hi h) A (ix2 e c) = gath A S (ix2 e c) := by
  rw [mm_apply]
  rw [Finset.sum_eq_single (rowOf (S (ix2 e (0 : Fin 1))))]
  · rw [hot_apply, if_pos (ofNat_rowOf _ hw).symm, one_mul]
    rfl
  · intro k _ hk
    rw [hot_apply, if_neg (fun hh => hk (eq_rowOf_of_ofNat _ k hh)), zero_mul]
  · intro hh
    exact absurd (Finset.mem_univ _) hh

/-! ## A block read without its leading unit axis -/

/-- A [1, n, k] block read as its one n × k matrix. -/
def unslab {α : Type} {n k : Nat} (A : (⟨3, ![1, n, k]⟩ : Shape).Idx → α) : (⟨2, ![n, k]⟩ : Shape).Idx → α :=
  fun j => A (ix3 (0 : Fin 1) (j 0) (j 1))

/-- The shape cast that drops the leading unit axis is that reading. -/
theorem shapeCast_unslab {α : Type} {n k : Nat} (A : (⟨3, ![1, n, k]⟩ : Shape).Idx → α)
    (h : (⟨3, ![1, n, k]⟩ : Shape).ShapeCasts ⟨2, ![n, k]⟩) :
    shapeCast (⟨2, ![n, k]⟩ : Shape) A h = unslab A := by
  funext i
  obtain ⟨a, b, rfl⟩ : ∃ (a : Fin n) (b : Fin k), i = ix2 a b := ⟨i 0, i 1, eq_ix2 i⟩
  exact shapeCast_1ab_ab_apply A h a b

/-! ## The stages of the block computation -/

/-- The look-up stage: the words' 0/1 matrix (both operands passed through the narrowing format change, the identity
    on extended reals) times the table, accumulated into zeros, is the looked-up rows, when every word is below 512. -/
theorem gather_form {n : Nat} (T : FVec Ideal (⟨3, ![1, 512, 9]⟩ : Shape) .f32) (S : IVec (⟨3, ![1, n, 1]⟩ : Shape) 32)
    (hcS : (⟨3, ![1, n, 1]⟩ : Shape).ShapeCasts ⟨2, ![n, 1]⟩)
    (hcT : (⟨3, ![1, 512, 9]⟩ : Shape).ShapeCasts ⟨2, ![512, 9]⟩)
    (hb : (⟨2, ![n, 1]⟩ : Shape).Broadcasts ⟨2, ![n, 512]⟩)
    (hi : (⟨2, ![n, 512]⟩ : Shape).Iotas .tc 32 [1]) (h : 1 < 32) (hbf : FTy.bits .bf16 < FTy.bits .f32)
    (hw : ∀ e : Fin n, (S (ix3 (0 : Fin 1) e (0 : Fin 1))).toNat < 512) :
    matmul (DotDims.plain n 512 9) none
      (truncf .bf16 (sitofp (F := Ideal) .f32 (extui 32 (cmpi .eq
        (broadcastTo (⟨2, ![n, 512]⟩ : Shape) (shapeCast (⟨2, ![n, 1]⟩ : Shape) S hcS) hb)
        (iota .tc (⟨2, ![n, 512]⟩ : Shape) 32 [1] hi)) h)) hbf)
      (truncf .bf16 (shapeCast (⟨2, ![512, 9]⟩ : Shape) T hcT) hbf)
      (constant (⟨2, ![n, 9]⟩ : Shape) .f32 0x00000000#32)
    = gath (unslab T) (unslab S) := by
  rw [shapeCast_unslab, shapeCast_unslab]
  funext i
  obtain ⟨e, c, rfl⟩ : ∃ (e : Fin n) (c : Fin 9), i = ix2 e c := ⟨i 0, i 1, eq_ix2 i⟩
  exact (congrFun (matmul_plain_eq_mm none (hot (unslab S) hb hi h) (unslab T)) (ix2 e c)).trans
    (hot_mm (unslab T) (unslab S) hb hi h e c (hw e))

/-- Two 9-column matrices joined along the columns are the two side by side. -/
theorem concat_eq_cat9 {n : Nat} (P Q : Mat n 9)
    (h : Shape.Concatenates [(⟨2, ![n, 9]⟩ : Shape), ⟨2, ![n, 9]⟩] ⟨2, ![n, 18]⟩ 1) :
    concatenate (⟨2, ![n, 18]⟩ : Shape) 1 [⟨⟨2, ![n, 9]⟩, P⟩, ⟨⟨2, ![n, 9]⟩, Q⟩] h = cat9 P Q := by
  funext i
  obtain ⟨p, c, rfl⟩ : ∃ (p : Fin n) (c : Fin 18), i = ix2 p c := ⟨i 0, i 1, eq_ix2 i⟩
  by_cases hc : c.val < 9
  · rw [cat9_left P Q p c hc]
    exact concatenate_pair_apply_left (1 : Fin 2) P Q h (ix2 p c) rfl (ix2 p ⟨c.val, hc⟩) (fun b => by
      match b with
      | ⟨0, _⟩ => rfl
      | ⟨1, _⟩ => rfl)
  · rw [cat9_right P Q p c hc]
    exact concatenate_pair_apply_right (1 : Fin 2) P Q h (ix2 p c) rfl rfl
      (ix2 p ⟨c.val - 9, by have := c.isLt; omega⟩) (fun b hb => by
        match b, hb with
        | ⟨0, _⟩, _ => rfl
        | ⟨1, _⟩, hb => exact absurd rfl hb)
      (by show c.val - 9 + 9 = c.val; omega)

/-- One dense layer as the vector unit spells it: the operand through the narrowing format change, the weights through
    a same-shape cast, the product accumulated into zeros, the bias cast to a row and broadcast down the rows. -/
theorem edge_layer_form {m k n : Nat} (X : Mat m k) (W : FVec Ideal (⟨2, ![k, n]⟩ : Shape) .bf16) (b : Col n)
    (hbf : FTy.bits .bf16 < FTy.bits .f32) (hself : (⟨2, ![k, n]⟩ : Shape).ShapeCasts ⟨2, ![k, n]⟩)
    (hc : (⟨1, ![n]⟩ : Shape).ShapeCasts ⟨2, ![1, n]⟩) (hb : (⟨2, ![1, n]⟩ : Shape).Broadcasts ⟨2, ![m, n]⟩) :
    addf (matmul (DotDims.plain m k n) none (truncf .bf16 X hbf) (shapeCast (⟨2, ![k, n]⟩ : Shape) W hself)
        (constant (⟨2, ![m, n]⟩ : Shape) .f32 0x00000000#32))
      (broadcastTo (⟨2, ![m, n]⟩ : Shape) (shapeCast (⟨2, ![1, n]⟩ : Shape) b hc) hb)
    = addRow (mm X W) (asRow b) := by
  rw [shapeCast_self, shapeCast_asRow, bias_vector_form]
  exact congrArg (fun Z => addRow Z (asRow b)) (matmul_plain_eq_mm none X W)

/-! ## The printed contraction records are the plain matrix product's -/

section Records
variable [Cert.KernelIdeal.Facts]

theorem dot_gather_eq : Cert.KernelIdeal.dot_S8192x512_S512x9_S8192x9_1_0_0_1_n_n = DotDims.plain 8192 512 9 := rfl
theorem dot_l1_eq : Cert.KernelIdeal.dot_S8192x18_S18x64_S8192x64_1_0_0_1_n_n = DotDims.plain 8192 18 64 := rfl
theorem dot_l2_eq : Cert.KernelIdeal.dot_S8192x64_S64x64_S8192x64_1_0_0_1_n_n = DotDims.plain 8192 64 64 := rfl
theorem dot_head_eq : Cert.KernelIdeal.dot_S8192x64_S64x10_S8192x10_1_0_0_1_n_n = DotDims.plain 8192 64 10 := rfl

end Records

/-! ## The block computation is the edge network, entry by entry -/

section Kernel
variable [Cert.KernelIdeal.Facts]
open Cert.KernelIdeal Cert.KernelIdeal.Gen

theorem edge_kernel_form (x0 x1 : Vec Ideal S1x8192x1 .i32) (x2 : Vec Ideal S1x512x9 .f32)
    (x3 : Vec Ideal S18x64 .bf16) (x4 : Vec Ideal S64 .f32) (x5 : Vec Ideal S64x64 .bf16) (x6 : Vec Ideal S64 .f32)
    (x7 : Vec Ideal S64x10 .bf16) (x8 : Vec Ideal S10 .f32)
    (h0 : ∀ e : Fin 8192, (x0 (ix3 (0 : Fin 1) e (0 : Fin 1))).toNat < 512)
    (h1 : ∀ e : Fin 8192, (x1 (ix3 (0 : Fin 1) e (0 : Fin 1))).toNat < 512) (e : Fin 8192) (q : Fin 10) :
    k1_pay1 (F := Ideal) (k1_pay2 (F := Ideal) x0 x1 x2 x3 x4 x5) (k1_pay3 (F := Ideal) x6) x7 x8
        (ix3 (0 : Fin 1) e q)
      = edgeFn (n := 8192) (unslab x2) (unslab x0) (unslab x1) x3 x4 x5 x6 x7 x8 (ix2 e q) := by
  simp only [k1_pay1, k1_pay2, k1_pay3]
  rw [shapeCast_ab_1ab_apply]
  rw [dot_gather_eq, dot_l1_eq, dot_l2_eq, dot_head_eq]
  rw [gather_form x2 x0 _ _ _ _ _ _ h0, gather_form x2 x1 _ _ _ _ _ _ h1]
  rw [concat_eq_cat9]
  rw [edge_layer_form, relu_vector_form, edge_layer_form, relu_vector_form, edge_layer_form]
  rfl

end Kernel

end NetSpec

end
-- ==== Proof.KIEdgeFinal.lean ====
/-
  The array the edge kernel's region leaves.

  The region runs the edge kernel at the 128 points (batch entry b, edge tile e) of a 32 × 4 grid. At a point the two
  word windows hold rows 8192·e … 8192·e + 8191 of slab b of the source and destination word arrays, the attribute
  window holds slab b of the attribute array, each weight and bias window its whole array, and the output window writes
  back rows 8192·e … 8192·e + 8191 of slab b of the result. The body's value on a block of edges is the edge network of
  that block, and the network's row for an edge depends on that edge's two words only; so what a point writes back is
  its block of ONE array, the edge network of every batch entry on the arrays as the region finds them. The 128 output
  blocks tile the result array, so that array is what the region leaves.
-/
import proofs.«419047_j46299747451450_1_alg».proof.Proof.KIEdge
import proofs.«419047_j46299747451450_1_alg».proof.Proof.NetOut
import proofs.«419047_j46299747451450_1_alg».proof.Proof.EdgeForms
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided once over the 128 points -/

/-- The output window's block index: a batch entry below 32, an edge tile below 4, and 0 on the last axis. -/
theorem out_idx : ∀ t : Fin cfg1.N,
    win1_9.index t (0 : Fin 3) ≤ 31 ∧ win1_9.index t (1 : Fin 3) ≤ 3 ∧ win1_9.index t (2 : Fin 3) = 0 :=
  (by decide +kernel : ∀ t : Fin grid1.N, _)

/-- The two word windows move with the output window on the batch and edge-tile axes. -/
theorem word_idx : ∀ t : Fin cfg1.N,
    (win1_0.index t (0 : Fin 3) = win1_9.index t (0 : Fin 3) ∧ win1_0.index t (1 : Fin 3) = win1_9.index t (1 : Fin 3)
      ∧ win1_0.index t (2 : Fin 3) = 0)
    ∧ (win1_1.index t (0 : Fin 3) = win1_9.index t (0 : Fin 3) ∧ win1_1.index t (1 : Fin 3) = win1_9.index t (1 : Fin 3)
      ∧ win1_1.index t (2 : Fin 3) = 0) :=
  (by decide +kernel : ∀ t : Fin grid1.N, _)

/-- The attribute window moves with the output window on the batch axis and stays at 0 on the other two. -/
theorem attr_idx : ∀ t : Fin cfg1.N,
    win1_2.index t (0 : Fin 3) = win1_9.index t (0 : Fin 3) ∧ win1_2.index t (1 : Fin 3) = 0
      ∧ win1_2.index t (2 : Fin 3) = 0 :=
  (by decide +kernel : ∀ t : Fin grid1.N, _)

/-- Every weight and bias window stays at block 0. -/
theorem whole_idx : ∀ t : Fin cfg1.N,
    (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0 :=
  (by decide +kernel : ∀ t : Fin grid1.N, _)

/-- Every (batch entry, edge tile) pair is some point's output block. -/
theorem out_idx_onto : ∀ (b : Fin 32) (e : Fin 4), ∃ t : Fin cfg1.N, win1_9.index t = ![b.val, e.val, 0] :=
  (by decide +kernel : ∀ (b : Fin 32) (e : Fin 4), ∃ t : Fin grid1.N, win1_9.index t = ![b.val, e.val, 0])

/-- The batch entry point t works on. -/
def batchOf (t : Fin cfg1.N) : Fin 32 := ⟨win1_9.index t (0 : Fin 3), Nat.lt_succ_of_le (out_idx t).1⟩

/-- The edge, among the 32768 of a batch entry, that row e of point t's tile of 8192 edges is. -/
def edgeOf (t : Fin cfg1.N) (e : Fin 8192) : Fin 32768 :=
  ⟨8192 * win1_9.index t (1 : Fin 3) + e.val, by
    have h := (out_idx t).2.1
    have he := e.isLt
    omega⟩

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the region is entered from, and the windows' blocks, by their literal types -/

/-- The attribute array [32, 512, 9]. -/
abbrev attrArr (c : Dev nD) : FVec Ideal S32x512x9 .f32 := V c main_v10
/-- The source and destination word arrays [32, 32768, 1]. -/
abbrev srcArr (c : Dev nD) : IVec S32x32768x1 32 := V c main_v13
abbrev dstArr (c : Dev nD) : IVec S32x32768x1 32 := V c main_v16

/-- The edge network for every batch entry, on the arrays the region is entered from. -/
abbrev edgeArr (c : Dev nD) : FVec Ideal S32x32768x10 .f32 :=
  NetSpec.edgeOut3 (V c main_v10) (V c main_v13) (V c main_v16) (V c main_v17) (V c main_arg22) (V c main_v18)
    (V c main_arg24) (V c main_v19) (V c main_arg26)

/-- The blocks of the two word windows and of the attribute window at point t. -/
abbrev srcBlk (c : Dev nD) (t : Fin cfg1.N) : Vec Ideal S1x8192x1 .i32 := iblk1 V c 0 t
abbrev dstBlk (c : Dev nD) (t : Fin cfg1.N) : Vec Ideal S1x8192x1 .i32 := iblk1 V c 1 t
abbrev attrBlk (c : Dev nD) (t : Fin cfg1.N) : Vec Ideal S1x512x9 .f32 := iblk1 V c 2 t

/-! ## Each window's block read off its array

    A block's coordinate on an axis is the block index times the block's size plus the coordinate inside the block. -/

/-- Row e of the source window's block is the word of edge 8192 · tile + e of the point's batch entry. -/
theorem srcBlk_apply (c : Dev nD) (t : Fin cfg1.N) (e : Fin 8192) :
    srcBlk V c t (ix3 (0 : Fin 1) e (0 : Fin 1)) = srcArr V c (ix3 (batchOf t) (edgeOf t e) (0 : Fin 1)) := by
  obtain ⟨⟨e0, e1, e2⟩, -⟩ := word_idx t
  show V c main_v13 (((cfg1.win 0).blk t).view.emb (ix3 (0 : Fin 1) e (0 : Fin 1))) = V c main_v13 (ix3 (batchOf t) (edgeOf t e) (0 : Fin 1))
  congr 1
  funext a; apply Fin.ext
  match a with
  | ⟨0, _⟩ => show win1_0.index t (0 : Fin 3) * 1 + 1 * 0 = win1_9.index t (0 : Fin 3); omega
  | ⟨1, _⟩ => show win1_0.index t (1 : Fin 3) * 8192 + 1 * e.val = 8192 * win1_9.index t (1 : Fin 3) + e.val; omega
  | ⟨2, _⟩ => show win1_0.index t (2 : Fin 3) * 1 + 1 * 0 = 0; omega

/-- The same for the destination window. -/
theorem dstBlk_apply (c : Dev nD) (t : Fin cfg1.N) (e : Fin 8192) :
    dstBlk V c t (ix3 (0 : Fin 1) e (0 : Fin 1)) = dstArr V c (ix3 (batchOf t) (edgeOf t e) (0 : Fin 1)) := by
  obtain ⟨-, e0, e1, e2⟩ := word_idx t
  show V c main_v16 (((cfg1.win 1).blk t).view.emb (ix3 (0 : Fin 1) e (0 : Fin 1))) = V c main_v16 (ix3 (batchOf t) (edgeOf t e) (0 : Fin 1))
  congr 1
  funext a; apply Fin.ext
  match a with
  | ⟨0, _⟩ => show win1_1.index t (0 : Fin 3) * 1 + 1 * 0 = win1_9.index t (0 : Fin 3); omega
  | ⟨1, _⟩ => show win1_1.index t (1 : Fin 3) * 8192 + 1 * e.val = 8192 * win1_9.index t (1 : Fin 3) + e.val; omega
  | ⟨2, _⟩ => show win1_1.index t (2 : Fin 3) * 1 + 1 * 0 = 0; omega

/-- The attribute window's block is the slab of the point's batch entry. -/
theorem attrBlk_eq (c : Dev nD) (t : Fin cfg1.N) :
    NetSpec.unslab (attrBlk V c t) = NetSpec.slab (attrArr V c) (batchOf t) := by
  obtain ⟨e0, e1, e2⟩ := attr_idx t
  funext j
  obtain ⟨r, k, rfl⟩ : ∃ (r : Fin 512) (k : Fin 9), j = ix2 r k := ⟨j 0, j 1, eq_ix2 j⟩
  show V c main_v10 (((cfg1.win 2).blk t).view.emb (ix3 (0 : Fin 1) r k)) = V c main_v10 (ix3 (batchOf t) r k)
  congr 1
  funext a; apply Fin.ext
  match a with
  | ⟨0, _⟩ => show win1_2.index t (0 : Fin 3) * 1 + 1 * 0 = win1_9.index t (0 : Fin 3); omega
  | ⟨1, _⟩ => show win1_2.index t (1 : Fin 3) * 512 + 1 * r.val = r.val; omega
  | ⟨2, _⟩ => show win1_2.index t (2 : Fin 3) * 9 + 1 * k.val = k.val; omega

/-- Each weight and bias window's block is its whole array. -/
theorem w1Blk_eq (c : Dev nD) (t : Fin cfg1.N) : (iblk1 V c 3 t : Vec Ideal S18x64 .bf16) = V c main_v17 := by
  obtain ⟨⟨e0, e1⟩, -⟩ := whole_idx t
  funext j
  obtain ⟨r, k, rfl⟩ : ∃ (r : Fin 18) (k : Fin 64), j = ix2 r k := ⟨j 0, j 1, eq_ix2 j⟩
  show V c main_v17 (((cfg1.win 3).blk t).view.emb (ix2 r k)) = V c main_v17 (ix2 r k)
  congr 1
  funext a; apply Fin.ext
  match a with
  | ⟨0, _⟩ => show win1_3.index t (0 : Fin 2) * 18 + 1 * r.val = r.val; omega
  | ⟨1, _⟩ => show win1_3.index t (1 : Fin 2) * 64 + 1 * k.val = k.val; omega

theorem b1Blk_eq (c : Dev nD) (t : Fin cfg1.N) : (iblk1 V c 4 t : Vec Ideal S64 .f32) = V c main_arg22 := by
  obtain ⟨-, e0, -⟩ := whole_idx t
  funext j
  obtain ⟨r, rfl⟩ : ∃ (r : Fin 64), j = ix1 r := ⟨j 0, eq_ix1 j⟩
  show V c main_arg22 (((cfg1.win 4).blk t).view.emb (ix1 r)) = V c main_arg22 (ix1 r)
  congr 1
  funext a; apply Fin.ext
  match a with
  | ⟨0, _⟩ => show win1_4.index t (0 : Fin 1) * 64 + 1 * r.val = r.val; omega

theorem w2Blk_eq (c : Dev nD) (t : Fin cfg1.N) : (iblk1 V c 5 t : Vec Ideal S64x64 .bf16) = V c main_v18 := by
  obtain ⟨-, -, ⟨e0, e1⟩, -⟩ := whole_idx t
  funext j
  obtain ⟨r, k, rfl⟩ : ∃ (r : Fin 64) (k : Fin 64), j = ix2 r k := ⟨j 0, j 1, eq_ix2 j⟩
  show V c main_v18 (((cfg1.win 5).blk t).view.emb (ix2 r k)) = V c main_v18 (ix2 r k)
  congr 1
  funext a; apply Fin.ext
  match a with
  | ⟨0, _⟩ => show win1_5.index t (0 : Fin 2) * 64 + 1 * r.val = r.val; omega
  | ⟨1, _⟩ => show win1_5.index t (1 : Fin 2) * 64 + 1 * k.val = k.val; omega

theorem b2Blk_eq (c : Dev nD) (t : Fin cfg1.N) : (iblk1 V c 6 t : Vec Ideal S64 .f32) = V c main_arg24 := by
  obtain ⟨-, -, -, e0, -⟩ := whole_idx t
  funext j
  obtain ⟨r, rfl⟩ : ∃ (r : Fin 64), j = ix1 r := ⟨j 0, eq_ix1 j⟩
  show V c main_arg24 (((cfg1.win 6).blk t).view.emb (ix1 r)) = V c main_arg24 (ix1 r)
  congr 1
  funext a; apply Fin.ext
  match a with
  | ⟨0, _⟩ => show win1_6.index t (0 : Fin 1) * 64 + 1 * r.val = r.val; omega

theorem wiBlk_eq (c : Dev nD) (t : Fin cfg1.N) : (iblk1 V c 7 t : Vec Ideal S64x10 .bf16) = V c main_v19 := by
  obtain ⟨-, -, -, -, ⟨e0, e1⟩, -⟩ := whole_idx t
  funext j
  obtain ⟨r, k, rfl⟩ : ∃ (r : Fin 64) (k : Fin 10), j = ix2 r k := ⟨j 0, j 1, eq_ix2 j⟩
  show V c main_v19 (((cfg1.win 7).blk t).view.emb (ix2 r k)) = V c main_v19 (ix2 r k)
  congr 1
  funext a; apply Fin.ext
  match a with
  | ⟨0, _⟩ => show win1_7.index t (0 : Fin 2) * 64 + 1 * r.val = r.val; omega
  | ⟨1, _⟩ => show win1_7.index t (1 : Fin 2) * 10 + 1 * k.val = k.val; omega

theorem biBlk_eq (c : Dev nD) (t : Fin cfg1.N) : (iblk1 V c 8 t : Vec Ideal S10 .f32) = V c main_arg26 := by
  obtain ⟨-, -, -, -, -, e0⟩ := whole_idx t
  funext j
  obtain ⟨r, rfl⟩ : ∃ (r : Fin 10), j = ix1 r := ⟨j 0, eq_ix1 j⟩
  show V c main_arg26 (((cfg1.win 8).blk t).view.emb (ix1 r)) = V c main_arg26 (ix1 r)
  congr 1
  funext a; apply Fin.ext
  match a with
  | ⟨0, _⟩ => show win1_8.index t (0 : Fin 1) * 10 + 1 * r.val = r.val; omega

/-- Entry (0, e, q) of the output window's block sits in the array at (batch entry, edge, q). -/
theorem outBlk_emb (t : Fin cfg1.N) (e : Fin 8192) (q : Fin 10) :
    ((cfg1.win 9).blk t).view.emb (ix3 (0 : Fin 1) e q) = (ix3 (batchOf t) (edgeOf t e) q : S32x32768x10.Idx) := by
  obtain ⟨-, -, e2⟩ := out_idx t
  funext a; apply Fin.ext
  match a with
  | ⟨0, _⟩ => show win1_9.index t (0 : Fin 3) * 1 + 1 * 0 = win1_9.index t (0 : Fin 3); omega
  | ⟨1, _⟩ => show win1_9.index t (1 : Fin 3) * 8192 + 1 * e.val = 8192 * win1_9.index t (1 : Fin 3) + e.val; omega
  | ⟨2, _⟩ => show win1_9.index t (2 : Fin 3) * 10 + 1 * q.val = q.val; omega

/-! ## What a point writes back -/

/-- The body's value on blocks that are the slab b of the attribute array, rows P e of slabs b of the word arrays,
    and the weight and bias arrays themselves, is, entry by entry, the edge network of batch entry b at edge P e:
    the body computes the edge network of its block of 8192 edges, and the network's row for an edge depends on that
    edge's two words only. -/
theorem edge_block_value
    (x0 x1 : Vec Ideal S1x8192x1 .i32) (x2 : Vec Ideal S1x512x9 .f32) (x3 : Vec Ideal S18x64 .bf16)
    (x4 : Vec Ideal S64 .f32) (x5 : Vec Ideal S64x64 .bf16) (x6 : Vec Ideal S64 .f32) (x7 : Vec Ideal S64x10 .bf16)
    (x8 : Vec Ideal S10 .f32)
    (attr : FVec Ideal S32x512x9 .f32) (Sw Dw : IVec S32x32768x1 32)
    (W1 : Vec Ideal S18x64 .bf16) (b1 : Vec Ideal S64 .f32) (W2 : Vec Ideal S64x64 .bf16) (b2 : Vec Ideal S64 .f32)
    (Wi : Vec Ideal S64x10 .bf16) (bi : Vec Ideal S10 .f32)
    (b : Fin 32) (P : Fin 8192 → Fin 32768)
    (h0 : ∀ e : Fin 8192, x0 (ix3 (0 : Fin 1) e (0 : Fin 1)) = Sw (ix3 b (P e) (0 : Fin 1)))
    (h1 : ∀ e : Fin 8192, x1 (ix3 (0 : Fin 1) e (0 : Fin 1)) = Dw (ix3 b (P e) (0 : Fin 1)))
    (h2 : NetSpec.unslab x2 = NetSpec.slab attr b)
    (h3 : x3 = W1) (h4 : x4 = b1) (h5 : x5 = W2) (h6 : x6 = b2) (h7 : x7 = Wi) (h8 : x8 = bi)
    (hS : ∀ i, (Sw i).toNat < 512) (hD : ∀ i, (Dw i).toNat < 512) (e : Fin 8192) (q : Fin 10) :
    k1_pay1 (F := Ideal) (k1_pay2 (F := Ideal) x0 x1 x2 x3 x4 x5) (k1_pay3 (F := Ideal) x6) x7 x8 (ix3 (0 : Fin 1) e q)
      = NetSpec.edgeOut3 attr Sw Dw W1 b1 W2 b2 Wi bi (ix3 b (P e) q) := by
  subst h3 h4 h5 h6 h7 h8
  rw [NetSpec.edge_kernel_form x0 x1 x2 x3 x4 x5 x6 x7 x8 (fun e => by rw [h0]; exact hS _) (fun e => by rw [h1]; exact hD _) e q]
  show NetSpec.edgeFn (n := 8192) (NetSpec.unslab x2) (NetSpec.unslab x0) (NetSpec.unslab x1) x3 x4 x5 x6 x7 x8 (ix2 e q)
    = NetSpec.edgeFn (n := 32768) (NetSpec.slab attr b) (NetSpec.slab Sw b) (NetSpec.slab Dw b) x3 x4 x5 x6 x7 x8 (ix2 (P e) q)
  rw [h2]
  exact NetSpec.edgeFn_rows (NetSpec.slab attr b) (NetSpec.unslab x0) (NetSpec.unslab x1) (NetSpec.slab Sw b) (NetSpec.slab Dw b)
    x3 x4 x5 x6 x7 x8 e (P e) (h0 e) (h1 e) q

/-- WHAT POINT t WRITES BACK is its block of the edge network of the arrays the region is entered from. -/
theorem edge_flushed_eq (c : Dev nD) (hS : ∀ i, (srcArr V c i).toNat < 512) (hD : ∀ i, (dstArr V c i).toNat < 512)
    (t : Fin cfg1.N) :
    (dat1 (F := Ideal) V c).flushed 9 t = ((cfg1.win 9).blk t).view.read (Elt Ideal) (edgeArr V c) := by
  show (cfg1.win 9).cut (grid1.coords t) ((dat1 (F := Ideal) V c).after 9 t) = _
  rw [after1_9]
  unfold out1_9
  rw [View.canon_unit_zero hz3]
  simp only [View.ld_unit_zero (S := S1x8192x1) hz3, View.ld_unit_zero (S := S1x512x9) hz3,
    View.ld_unit_zero (S := S18x64) hz2, View.ld_unit_zero (S := S64) hz1, View.ld_unit_zero (S := S64x64) hz2,
    View.ld_unit_zero (S := S64x10) hz2, View.ld_unit_zero (S := S10) hz1]
  funext y
  obtain ⟨a, e, q, rfl⟩ : ∃ (a : Fin 1) (e : Fin 8192) (q : Fin 10), y = ix3 a e q := ⟨y 0, y 1, y 2, eq_ix3 y⟩
  obtain rfl : a = 0 := Subsingleton.elim _ _
  show k1_pay1 (F := Ideal) (k1_pay2 (F := Ideal) (srcBlk V c t) (dstBlk V c t) (attrBlk V c t) (iblk1 V c 3 t) (iblk1 V c 4 t) (iblk1 V c 5 t))
      (k1_pay3 (F := Ideal) (iblk1 V c 6 t)) (iblk1 V c 7 t) (iblk1 V c 8 t) (ix3 (0 : Fin 1) e q)
    = edgeArr V c (((cfg1.win 9).blk t).view.emb (ix3 (0 : Fin 1) e q))
  rw [outBlk_emb t e q]
  exact edge_block_value (srcBlk V c t) (dstBlk V c t) (attrBlk V c t) (iblk1 V c 3 t) (iblk1 V c 4 t) (iblk1 V c 5 t)
    (iblk1 V c 6 t) (iblk1 V c 7 t) (iblk1 V c 8 t) (attrArr V c) (srcArr V c) (dstArr V c)
    (V c main_v17) (V c main_arg22) (V c main_v18) (V c main_arg24) (V c main_v19) (V c main_arg26)
    (batchOf t) (edgeOf t) (srcBlk_apply V c t) (dstBlk_apply V c t) (attrBlk_eq V c t)
    (w1Blk_eq V c t) (b1Blk_eq V c t) (w2Blk_eq V c t) (b2Blk_eq V c t) (wiBlk_eq V c t) (biBlk_eq V c t) hS hD e q

/-! ## The output's blocks tile its array -/

/-- An index of the array is in point t's block iff each coordinate is in the block's range on its axis. -/
theorem mem_outBlk (t : Fin cfg1.N) (i : S32x32768x10.Idx) :
    i ∈ ((cfg1.win 9).blk t).view.set ↔ ∀ a : Fin 3, win1_9.index t a * S1x8192x10.size a ≤ (i a).val
      ∧ (i a).val < win1_9.index t a * S1x8192x10.size a + S1x8192x10.size a := by
  show i ∈ ((View.whole main_v20).slice (win1_9.rect t)).set ↔ _
  rw [View.set_slice_whole, Rect.mem_set_unit]
  exact Iff.rfl

/-- Every index (b, E, q) of the array is in the block of the point whose output block is (b, E / 8192, 0), and
    every point writes its block back. -/
theorem outBlk_cover (i : S32x32768x10.Idx) :
    ∃ t : Fin cfg1.N, (cfg1.win 9).flush t = true ∧ i ∈ ((cfg1.win 9).blk t).view.set := by
  have hi0 : (i 0).val < 32 := (i 0).isLt
  have hi1 : (i 1).val < 32768 := (i 1).isLt
  have hi2 : (i 2).val < 10 := (i 2).isLt
  obtain ⟨t, ht⟩ := out_idx_onto ⟨(i 0).val, hi0⟩ ⟨(i 1).val / 8192, by omega⟩
  have q0 : win1_9.index t (0 : Fin 3) = (i 0).val := congrFun ht 0
  have q1 : win1_9.index t (1 : Fin 3) = (i 1).val / 8192 := congrFun ht 1
  have q2 : win1_9.index t (2 : Fin 3) = 0 := congrFun ht 2
  refine ⟨t, flush1_9 t, ?_⟩
  rw [mem_outBlk]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 8192 ≤ (i 1).val ∧ (i 1).val < win1_9.index t (1 : Fin 3) * 8192 + 8192; omega
  | ⟨2, _⟩ => show win1_9.index t (2 : Fin 3) * 10 ≤ (i 2).val ∧ (i 2).val < win1_9.index t (2 : Fin 3) * 10 + 10; omega

/-! ## The array the region leaves -/

/-- THE RESULT ARRAY after the region, entered from contents V whose two word arrays name table rows (every word below
    512): the edge network of every batch entry, on the attribute, word, weight and bias arrays as the region finds
    them. -/
theorem edge_final_of (c : Dev nD) (hS : ∀ i, (V c main_v13 i).toNat < 512) (hD : ∀ i, (V c main_v16 i).toNat < 512) :
    (dat1 (F := Ideal) V c).arrAt 9 cfg1.N
      = NetSpec.edgeOut3 (V c main_v10) (V c main_v13) (V c main_v16) (V c main_v17) (V c main_arg22) (V c main_v18)
          (V c main_arg24) (V c main_v19) (V c main_arg26) :=
  (dat1 (F := Ideal) V c).arrAt_eq_of_cover 9 (edgeArr V c) (fun t _ => edge_flushed_eq V c hS hD t) outBlk_cover

end Cert.KernelIdeal.Hand

end
-- ==== Proof.KIResult.lean ====
/-
  The two results of the idealized kernel program, as the two networks of the argument arrays.

  The first result is the node region's array read as [32, 512, 8]; that array is the node network of the region's
  entry contents — the feature array read as 16384 rows, the weights (whose cast to bf16 changes nothing over the
  extended reals) and the bias and normalisation vectors as launched. The second is the edge region's array read as
  [1048576, 10]; that array is the edge network of the attribute table and the source and destination words the host
  lines make of the arguments, when every index word is below 512: each of those words is one of the index array's.
-/
import proofs.«419047_j46299747451450_1_alg».proof.Proof.KIVals
import proofs.«419047_j46299747451450_1_alg».proof.Proof.KIFrame
import proofs.«419047_j46299747451450_1_alg».proof.Proof.KINodeFinal
import proofs.«419047_j46299747451450_1_alg».proof.Proof.KIEdgeFinal
import proofs.«419047_j46299747451450_1_alg».proof.Proof.NetOut

set_option maxRecDepth 16384

noncomputable section

namespace Cert.KernelIdeal.Hand

open Cert.KernelIdeal Cert.KernelIdeal.Gen
open Idealize.ShloMosaic Idealize.ShloMosaic.TcCoe
open Idealize.SL Idealize.SL.Sem
open Facts₀ Facts

variable (m : (ℓ : Loc nD τ sig) → Buf (Elt Ideal) ℓ) (ρ : Dev nD → PrngReg)

/-- Over the extended reals a change of float format is the identity, on every entry. -/
theorem truncf_ideal {s : Shape} (v : FVec Ideal s .f32) (h) : truncf .bf16 v h = v := rfl

/-- Every source word is one of the index array's words. -/
theorem srcK_mem (a4 : IVec S32x2x32768 32) (i : S32x32768x1.Idx) : ∃ j, srcK a4 i = a4 j := ⟨_, rfl⟩
/-- Every destination word is one of the index array's words. -/
theorem dstK_mem (a4 : IVec S32x2x32768 32) (i : S32x32768x1.Idx) : ∃ j, dstK a4 i = a4 j := ⟨_, rfl⟩

/-- The first result: the node network of the arguments, as [32, 512, 8]. -/
theorem ki_node_value (c : Dev nD) :
    W5 m ρ c (Proc.devRef .tc main_v6)
      = NetSpec.nodeOut Facts₀.shapeCasts_S32x512x1024_S16384x1024 Facts₀.shapeCasts_S16384x8_S32x512x8
          (m ((c : Thread nD τ).loc main_arg0)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20)) := by
  rw [W5_main_v6, node_final_of (V1 m ρ) c, V1_main_v0, V1_main_v1, V1_main_v2, V1_main_v3, V1_main_v4,
    V1_main_arg6, V1_main_arg7, V1_main_arg8, V1_main_arg9, V1_main_arg10, V1_main_arg12, V1_main_arg13, V1_main_arg14,
    V1_main_arg15, V1_main_arg16, V1_main_arg18, V1_main_arg20]
  simp only [truncf_ideal]
  rfl

/-- The second result: the edge network of the arguments, as [1048576, 10], when every index word is below 512. -/
theorem ki_edge_value (c : Dev nD) (hidx : ∀ i, (m ((c : Thread nD τ).loc main_arg4) i).toNat < 512) :
    W5 m ρ c (Proc.devRef .tc main_v21)
      = NetSpec.edgeOut Facts₀.shapeCasts_S32x32768x10_S1048576x10
          (attrK (m ((c : Thread nD τ).loc main_arg1)) (m ((c : Thread nD τ).loc main_arg2)) (m ((c : Thread nD τ).loc main_arg3)))
          (srcK (m ((c : Thread nD τ).loc main_arg4))) (dstK (m ((c : Thread nD τ).loc main_arg4)))
          (m ((c : Thread nD τ).loc main_arg21)) (m ((c : Thread nD τ).loc main_arg22)) (m ((c : Thread nD τ).loc main_arg23))
          (m ((c : Thread nD τ).loc main_arg24)) (m ((c : Thread nD τ).loc main_arg25)) (m ((c : Thread nD τ).loc main_arg26)) := by
  have hS : ∀ i, (V3 m ρ c main_v13 i).toNat < 512 := fun i => by
    rw [V3_main_v13]; obtain ⟨j, hj⟩ := srcK_mem (m ((c : Thread nD τ).loc main_arg4)) i; rw [hj]; exact hidx j
  have hD : ∀ i, (V3 m ρ c main_v16 i).toNat < 512 := fun i => by
    rw [V3_main_v16]; obtain ⟨j, hj⟩ := dstK_mem (m ((c : Thread nD τ).loc main_arg4)) i; rw [hj]; exact hidx j
  rw [W5_main_v21, edge_final_of (V3 m ρ) c hS hD, V3_main_v10, V3_main_v13, V3_main_v16, V3_main_v17, V3_main_v18,
    V3_main_v19, V3_main_arg22, V3_main_arg24, V3_main_arg26]
  simp only [truncf_ideal]
  rfl

/-- THE RUN WITH ITS VALUES: when every index word is below 512, every weakly fair execution of the idealized kernel
    program terminates with its first result the node network of the arguments, its second the edge network, and the
    arguments as launched. -/
theorem ki_run (hidx : ∀ (c : Dev nD) i, (m ((c : Thread nD τ).loc main_arg4) i).toNat < 512) :
    θ_run defs (onTc (τ := τ) (main (F := Ideal))) ⟨m, fun _ => 0, ρ⟩ (fun r => ∀ c : Dev nD,
      r.2.mem ((c.tc : Thread nD τ).loc main_v6)
        = NetSpec.nodeOut Facts₀.shapeCasts_S32x512x1024_S16384x1024 Facts₀.shapeCasts_S16384x8_S32x512x8 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v21)
        = NetSpec.edgeOut Facts₀.shapeCasts_S32x32768x10_S1048576x10 (attrK (m ((c.tc : Thread nD τ).loc main_arg1)) (m ((c.tc : Thread nD τ).loc main_arg2)) (m ((c.tc : Thread nD τ).loc main_arg3))) (srcK (m ((c.tc : Thread nD τ).loc main_arg4))) (dstK (m ((c.tc : Thread nD τ).loc main_arg4))) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c _ (mem_uc main_v6 (by decide))).trans (ki_node_value m ρ c),
      (h c _ (mem_uc main_v21 (by decide))).trans (ki_edge_value m ρ c (hidx c)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c),
      (h c _ (mem_uc main_arg18 (by decide))).trans (W5_main_arg18 m ρ c),
      (h c _ (mem_uc main_arg19 (by decide))).trans (W5_main_arg19 m ρ c),
      (h c _ (mem_uc main_arg20 (by decide))).trans (W5_main_arg20 m ρ c),
      (h c _ (mem_uc main_arg21 (by decide))).trans (W5_main_arg21 m ρ c),
      (h c _ (mem_uc main_arg22 (by decide))).trans (W5_main_arg22 m ρ c),
      (h c _ (mem_uc main_arg23 (by decide))).trans (W5_main_arg23 m ρ c),
      (h c _ (mem_uc main_arg24 (by decide))).trans (W5_main_arg24 m ρ c),
      (h c _ (mem_uc main_arg25 (by decide))).trans (W5_main_arg25 m ρ c),
      (h c _ (mem_uc main_arg26 (by decide))).trans (W5_main_arg26 m ρ c)⟩) (run_main m ρ)

end Cert.KernelIdeal.Hand

end
-- ==== Proof.RefChunksOps.lean ====
/-
  The reference's second result, read back through its 150 host operations in three stretches.

  The operation list is cut after the attribute table and after the two row look-ups. The first stretch (the node path
  and the attribute table: box scale, priority channel, the three side by side) leaves the table at its stage and
  writes no argument; the second (the source and destination words, the two row look-ups) takes contents that hold
  the table's stage to the two gathered arrays' stages; the third (side by side, the three dense layers, the sigmoid)
  takes contents that hold the gathered arrays' stages to the result's stage. Chained, the buffer of the second result after the whole
  list holds the stage function of the result at the arguments.
-/
import proofs.«419047_j46299747451450_1_alg».proof.Proof.RefRead
import proofs.«419047_j46299747451450_1_alg».proof.Proof.LibNary3

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Operations read back one after the other: two lines of operations in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Each operation's result at its own result buffer is its function's value, at any other buffer what was there. -/
macro "read_back" : tactic =>
  `(tactic| simp (disch := decide) only [after_cons, after_nil, nullary_result', unary_result', binary_result', ternary_result', quaternary_result', reshape_result', nary3_result', nary4_result', nary_result', unaryIndexed_result', binaryIndexed_result', nullary_result_ne', unary_result_ne', binary_result_ne', ternary_result_ne', quaternary_result_ne', reshape_result_ne', nary_result_ne', unaryIndexed_result_ne', binaryIndexed_result_ne'])

/-- The same, one rewrite at a time, a three-operand operation read at its three operands (so that the operands'
    own contents are read in turn). -/
macro "read_back_rw" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The first 72 operations: the node path, then the attribute table (box scale, priority channel, the three side by side). -/
abbrev ops1 : List (HloOp τ sig (Elt F)) :=
  [ reshape main_arg0 main_v0 rfl shapeCasts_S32x512x1024_S16384x1024,
    binary main_v0 main_arg5 main_v1 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg6 main_v2 (broadcastInDim S1x512 ![1] bcast_S512_S1x512_1 : (⟨S512, .f32⟩ : BufTy).Contents (Elt F) → (⟨S1x512, .f32⟩ : BufTy).Contents (Elt F)),
    unary main_v2 main_v3 (broadcastInDim S16384x512 ![0, 1] bcast_S1x512_S16384x512_0_1 : (⟨S1x512, .f32⟩ : BufTy).Contents (Elt F) → (⟨S16384x512, .f32⟩ : BufTy).Contents (Elt F)),
    binary main_v1 main_v3 main_v4 (addf : (⟨S16384x512, .f32⟩ : BufTy).Contents (Elt F) → (⟨S16384x512, .f32⟩ : BufTy).Contents (Elt F) → (⟨S16384x512, .f32⟩ : BufTy).Contents (Elt F)),
    unary main_arg9 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (subf : (⟨S16384x512, .f32⟩ : BufTy).Contents (Elt F) → (⟨S16384x512, .f32⟩ : BufTy).Contents (Elt F) → (⟨S16384x512, .f32⟩ : BufTy).Contents (Elt F)),
    unary main_arg7 main_v8 (broadcastInDim S1x512 ![1] bcast_S512_S1x512_1 : (⟨S512, .f32⟩ : BufTy).Contents (Elt F) → (⟨S1x512, .f32⟩ : BufTy).Contents (Elt F)),
    unary main_v8 main_v9 (broadcastInDim S16384x512 ![0, 1] bcast_S1x512_S16384x512_0_1 : (⟨S1x512, .f32⟩ : BufTy).Contents (Elt F) → (⟨S16384x512, .f32⟩ : BufTy).Contents (Elt F)),
    binary main_v9 main_v7 main_v10 (mulf : (⟨S16384x512, .f32⟩ : BufTy).Contents (Elt F) → (⟨S16384x512, .f32⟩ : BufTy).Contents (Elt F) → (⟨S16384x512, .f32⟩ : BufTy).Contents (Elt F)),
    nullary main_cst (constant S_ .f32 0x3727C5AC#32),
    unary main_cst main_v11 (broadcastInDim S512 ![] bcast_S_S512 : (⟨S_, .f32⟩ : BufTy).Contents (Elt F) → (⟨S512, .f32⟩ : BufTy).Contents (Elt F)),
    binary main_arg10 main_v11 main_v12 (addf : (⟨S512, .f32⟩ : BufTy).Contents (Elt F) → (⟨S512, .f32⟩ : BufTy).Contents (Elt F) → (⟨S512, .f32⟩ : BufTy).Contents (Elt F)),
    unary main_v12 main_v13 (Host.rsqrt : (⟨S512, .f32⟩ : BufTy).Contents (Elt F) → (⟨S512, .f32⟩ : BufTy).Contents (Elt F)),
    unary main_v13 main_v14 (broadcastInDim S1x512 ![1] bcast_S512_S1x512_1 : (⟨S512, .f32⟩ : BufTy).Contents (Elt F) → (⟨S1x512, .f32⟩ : BufTy).Contents (Elt F)),
    unary main_v14 main_v15 (broadcastInDim S16384x512 ![0, 1] bcast_S1x512_S16384x512_0_1 : (⟨S1x512, .f32⟩ : BufTy).Contents (Elt F) → (⟨S16384x512, .f32⟩ : BufTy).Contents (Elt F)),
    binary main_v10 main_v15 main_v16 (mulf : (⟨S16384x512, .f32⟩ : BufTy).Contents (Elt F) → (⟨S16384x512, .f32⟩ : BufTy).Contents (Elt F) → (⟨S16384x512, .f32⟩ : BufTy).Contents (Elt F)),
    unary main_arg8 main_v17 (broadcastInDim S1x512 ![1] bcast_S512_S1x512_1 : (⟨S512, .f32⟩ : BufTy).Contents (Elt F) → (⟨S1x512, .f32⟩ : BufTy).Contents (Elt F)),
    unary main_v17 main_v18 (broadcastInDim S16384x512 ![0, 1] bcast_S1x512_S16384x512_0_1 : (⟨S1x512, .f32⟩ : BufTy).Contents (Elt F) → (⟨S16384x512, .f32⟩ : BufTy).Contents (Elt F)),
    binary main_v16 main_v18 main_v19 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v19) (TRef.of (T := ⟨S16384x512, .f32⟩) main_call0_v0) (TRef.of (T := ⟨S16384x512, .f32⟩) main_v20) maximumf,
    binary main_v20 main_arg11 main_v21 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg12 main_v22 (broadcastInDim S1x256 ![1] bcast_S256_S1x256_1 : (⟨S256, .f32⟩ : BufTy).Contents (Elt F) → (⟨S1x256, .f32⟩ : BufTy).Contents (Elt F)),
    unary main_v22 main_v23 (broadcastInDim S16384x256 ![0, 1] bcast_S1x256_S16384x256_0_1 : (⟨S1x256, .f32⟩ : BufTy).Contents (Elt F) → (⟨S16384x256, .f32⟩ : BufTy).Contents (Elt F)),
    binary main_v21 main_v23 main_v24 (addf : (⟨S16384x256, .f32⟩ : BufTy).Contents (Elt F) → (⟨S16384x256, .f32⟩ : BufTy).Contents (Elt F) → (⟨S16384x256, .f32⟩ : BufTy).Contents (Elt F)),
    unary main_arg15 main_v25 (broadcastInDim S1x256 ![1] bcast_S256_S1x256_1 : (⟨S256, .f32⟩ : BufTy).Contents (Elt F) → (⟨S1x256, .f32⟩ : BufTy).Contents (Elt F)),
    unary main_v25 main_v26 (broadcastInDim S16384x256 ![0, 1] bcast_S1x256_S16384x256_0_1 : (⟨S1x256, .f32⟩ : BufTy).Contents (Elt F) → (⟨S16384x256, .f32⟩ : BufTy).Contents (Elt F)),
    binary main_v24 main_v26 main_v27 (subf : (⟨S16384x256, .f32⟩ : BufTy).Contents (Elt F) → (⟨S16384x256, .f32⟩ : BufTy).Contents (Elt F) → (⟨S16384x256, .f32⟩ : BufTy).Contents (Elt F)),
    unary main_arg13 main_v28 (broadcastInDim S1x256 ![1] bcast_S256_S1x256_1 : (⟨S256, .f32⟩ : BufTy).Contents (Elt F) → (⟨S1x256, .f32⟩ : BufTy).Contents (Elt F)),
    unary main_v28 main_v29 (broadcastInDim S16384x256 ![0, 1] bcast_S1x256_S16384x256_0_1 : (⟨S1x256, .f32⟩ : BufTy).Contents (Elt F) → (⟨S16384x256, .f32⟩ : BufTy).Contents (Elt F)),
    binary main_v29 main_v27 main_v30 (mulf : (⟨S16384x256, .f32⟩ : BufTy).Contents (Elt F) → (⟨S16384x256, .f32⟩ : BufTy).Contents (Elt F) → (⟨S16384x256, .f32⟩ : BufTy).Contents (Elt F)),
    nullary main_cst_0 (constant S_ .f32 0x3727C5AC#32),
    unary main_cst_0 main_v31 (broadcastInDim S256 ![] bcast_S_S256 : (⟨S_, .f32⟩ : BufTy).Contents (Elt F) → (⟨S256, .f32⟩ : BufTy).Contents (Elt F)),
    binary main_arg16 main_v31 main_v32 (addf : (⟨S256, .f32⟩ : BufTy).Contents (Elt F) → (⟨S256, .f32⟩ : BufTy).Contents (Elt F) → (⟨S256, .f32⟩ : BufTy).Contents (Elt F)),
    unary main_v32 main_v33 (Host.rsqrt : (⟨S256, .f32⟩ : BufTy).Contents (Elt F) → (⟨S256, .f32⟩ : BufTy).Contents (Elt F)),
    unary main_v33 main_v34 (broadcastInDim S1x256 ![1] bcast_S256_S1x256_1 : (⟨S256, .f32⟩ : BufTy).Contents (Elt F) → (⟨S1x256, .f32⟩ : BufTy).Contents (Elt F)),
    unary main_v34 main_v35 (broadcastInDim S16384x256 ![0, 1] bcast_S1x256_S16384x256_0_1 : (⟨S1x256, .f32⟩ : BufTy).Contents (Elt F) → (⟨S16384x256, .f32⟩ : BufTy).Contents (Elt F)),
    binary main_v30 main_v35 main_v36 (mulf : (⟨S16384x256, .f32⟩ : BufTy).Contents (Elt F) → (⟨S16384x256, .f32⟩ : BufTy).Contents (Elt F) → (⟨S16384x256, .f32⟩ : BufTy).Contents (Elt F)),
    unary main_arg14 main_v37 (broadcastInDim S1x256 ![1] bcast_S256_S1x256_1 : (⟨S256, .f32⟩ : BufTy).Contents (Elt F) → (⟨S1x256, .f32⟩ : BufTy).Contents (Elt F)),
    unary main_v37 main_v38 (broadcastInDim S16384x256 ![0, 1] bcast_S1x256_S16384x256_0_1 : (⟨S1x256, .f32⟩ : BufTy).Contents (Elt F) → (⟨S16384x256, .f32⟩ : BufTy).Contents (Elt F)),
    binary main_v36 main_v38 main_v39 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v39) (TRef.of (T := ⟨S16384x256, .f32⟩) main_call1_v0) (TRef.of (T := ⟨S16384x256, .f32⟩) main_v40) maximumf,
    binary main_v40 main_arg17 main_v41 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg18 main_v42 (broadcastInDim S1x128 ![1] bcast_S128_S1x128_1 : (⟨S128, .f32⟩ : BufTy).Contents (Elt F) → (⟨S1x128, .f32⟩ : BufTy).Contents (Elt F)),
    unary main_v42 main_v43 (broadcastInDim S16384x128 ![0, 1] bcast_S1x128_S16384x128_0_1 : (⟨S1x128, .f32⟩ : BufTy).Contents (Elt F) → (⟨S16384x128, .f32⟩ : BufTy).Contents (Elt F)),
    binary main_v41 main_v43 main_v44 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x128, .f32⟩) main_call2_v0) (broadcastInDim S16384x128 ![] bcast_S_S16384x128),
    TRef.binary (TRef.of (T := ⟨S16384x128, .f32⟩) main_v44) (TRef.of (T := ⟨S16384x128, .f32⟩) main_call2_v0) (TRef.of (T := ⟨S16384x128, .f32⟩) main_v45) maximumf,
    binary main_v45 main_arg19 main_v46 ((fun l r => Host.dotGeneral dot_S16384x128_S128x8_S16384x8_1_0_0_1_n_n none l r) : (⟨S16384x128, .f32⟩ : BufTy).Contents (Elt F) → (⟨S128x8, .f32⟩ : BufTy).Contents (Elt F) → (⟨S16384x8, .f32⟩ : BufTy).Contents (Elt F)),
    unary main_arg20 main_v47 (broadcastInDim S1x8 ![1] bcast_S8_S1x8_1 : (⟨S8, .f32⟩ : BufTy).Contents (Elt F) → (⟨S1x8, .f32⟩ : BufTy).Contents (Elt F)),
    unary main_v47 main_v48 (broadcastInDim S16384x8 ![0, 1] bcast_S1x8_S16384x8_0_1 : (⟨S1x8, .f32⟩ : BufTy).Contents (Elt F) → (⟨S16384x8, .f32⟩ : BufTy).Contents (Elt F)),
    binary main_v46 main_v48 main_v49 (addf : (⟨S16384x8, .f32⟩ : BufTy).Contents (Elt F) → (⟨S16384x8, .f32⟩ : BufTy).Contents (Elt F) → (⟨S16384x8, .f32⟩ : BufTy).Contents (Elt F)),
    unary main_v49 main_v50 (Host.negf : (⟨S16384x8, .f32⟩ : BufTy).Contents (Elt F) → (⟨S16384x8, .f32⟩ : BufTy).Contents (Elt F)),
    unary main_v50 main_v51 (Host.exp : (⟨S16384x8, .f32⟩ : BufTy).Contents (Elt F) → (⟨S16384x8, .f32⟩ : BufTy).Contents (Elt F)),
    nullary main_cst_1 (constant S_ .f32 0x3F800000#32),
    unary main_cst_1 main_v52 (broadcastInDim S16384x8 ![] bcast_S_S16384x8 : (⟨S_, .f32⟩ : BufTy).Contents (Elt F) → (⟨S16384x8, .f32⟩ : BufTy).Contents (Elt F)),
    binary main_v52 main_v51 main_v53 (addf : (⟨S16384x8, .f32⟩ : BufTy).Contents (Elt F) → (⟨S16384x8, .f32⟩ : BufTy).Contents (Elt F) → (⟨S16384x8, .f32⟩ : BufTy).Contents (Elt F)),
    nullary main_cst_2 (constant S_ .f32 0x3F800000#32),
    unary main_cst_2 main_v54 (broadcastInDim S16384x8 ![] bcast_S_S16384x8 : (⟨S_, .f32⟩ : BufTy).Contents (Elt F) → (⟨S16384x8, .f32⟩ : BufTy).Contents (Elt F)),
    binary main_v54 main_v53 main_v55 (Host.divf : (⟨S16384x8, .f32⟩ : BufTy).Contents (Elt F) → (⟨S16384x8, .f32⟩ : BufTy).Contents (Elt F) → (⟨S16384x8, .f32⟩ : BufTy).Contents (Elt F)),
    reshape main_v55 main_v56 rfl shapeCasts_S16384x8_S32x512x8,
    nullary main_cst_3 (constant S_ .f32 0x44800000#32),
    unary main_cst_3 main_v57 (broadcastInDim S32x512x4 ![] bcast_S_S32x512x4 : (⟨S_, .f32⟩ : BufTy).Contents (Elt F) → (⟨S32x512x4, .f32⟩ : BufTy).Contents (Elt F)),
    binary main_arg1 main_v57 main_v58 (Host.divf : (⟨S32x512x4, .f32⟩ : BufTy).Contents (Elt F) → (⟨S32x512x4, .f32⟩ : BufTy).Contents (Elt F) → (⟨S32x512x4, .f32⟩ : BufTy).Contents (Elt F)),
    unary main_arg3 main_v59 (broadcastInDim S32x512x1 ![0, 1] bcast_S32x512_S32x512x1_0_1 : (⟨S32x512, .f32⟩ : BufTy).Contents (Elt F) → (⟨S32x512x1, .f32⟩ : BufTy).Contents (Elt F)),
    nary ![main_v58, main_arg2, main_v59] main_v60 (fun u => concatenate S32x512x9 2 [⟨S32x512x4, u 0⟩, ⟨S32x512x4, u 1⟩, ⟨S32x512x1, u 2⟩] concatenates_S32x512x4_S32x512x4_S32x512x1_S32x512x9_d2) ]

/-- Operations 73 to 122: the source and destination words, the two row look-ups. -/
abbrev ops2 : List (HloOp τ sig (Elt F)) :=
  [ unary main_arg4 main_v61 ((extractStridedSlice S32x1x32768 ![0, 0, 0] · slices_S32x2x32768_S32x1x32768_0_0_0) : (⟨S32x2x32768, .i32⟩ : BufTy).Contents (Elt F) → (⟨S32x1x32768, .i32⟩ : BufTy).Contents (Elt F)),
    reshape main_v61 main_v62 rfl shapeCasts_S32x1x32768_S32x32768,
    unary main_v62 main_v63 (broadcastInDim S32x32768x1 ![0, 1] bcast_S32x32768_S32x32768x1_0_1 : (⟨S32x32768, .i32⟩ : BufTy).Contents (Elt F) → (⟨S32x32768x1, .i32⟩ : BufTy).Contents (Elt F)),
    unary main_arg4 main_v64 ((extractStridedSlice S32x1x32768 ![0, 1, 0] · slices_S32x2x32768_S32x1x32768_0_1_0) : (⟨S32x2x32768, .i32⟩ : BufTy).Contents (Elt F) → (⟨S32x1x32768, .i32⟩ : BufTy).Contents (Elt F)),
    reshape main_v64 main_v65 rfl shapeCasts_S32x1x32768_S32x32768,
    unary main_v65 main_v66 (broadcastInDim S32x32768x1 ![0, 1] bcast_S32x32768_S32x32768x1_0_1 : (⟨S32x32768, .i32⟩ : BufTy).Contents (Elt F) → (⟨S32x32768x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S32x32768x1, .i32⟩) main_call3_v0) (broadcastInDim S32x32768x1 ![] bcast_S_S32x32768x1),
    TRef.binary (TRef.of (T := ⟨S32x32768x1, .i32⟩) main_v63) (TRef.of (T := ⟨S32x32768x1, .i32⟩) main_call3_v0) (TRef.of (T := ⟨S32x32768x1, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S32x32768x1, .i32⟩) main_call3_v2) (broadcastInDim S32x32768x1 ![] bcast_S_S32x32768x1),
    TRef.binary (TRef.of (T := ⟨S32x32768x1, .i32⟩) main_v63) (TRef.of (T := ⟨S32x32768x1, .i32⟩) main_call3_v2) (TRef.of (T := ⟨S32x32768x1, .i32⟩) main_call3_v3) addi,
    TRef.ternary (TRef.of (T := ⟨S32x32768x1, .i1⟩) main_call3_v1) (TRef.of (T := ⟨S32x32768x1, .i32⟩) main_call3_v3) (TRef.of (T := ⟨S32x32768x1, .i32⟩) main_v63) (TRef.of (T := ⟨S32x32768x1, .i32⟩) main_call3_v4) select,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S32x32768x1, .i32⟩) main_call3_v5) (broadcastInDim S32x32768x1 ![] bcast_S_S32x32768x1),
    TRef.binary (TRef.of (T := ⟨S32x32768x1, .i32⟩) main_call3_v4) (TRef.of (T := ⟨S32x32768x1, .i32⟩) main_call3_v5) (TRef.of (T := ⟨S32x32768x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S32x32768x1, .i32⟩) main_call3_v8) (broadcastInDim S32x32768x1 ![0, 1, 2] bcast_S1x1x1_S32x32768x1_0_1_2),
    TRef.binary (TRef.of (T := ⟨S32x32768x1, .i32⟩) main_call3_v4) (TRef.of (T := ⟨S32x32768x1, .i32⟩) main_call3_v8) (TRef.of (T := ⟨S32x32768x1, .i1⟩) main_call3_v9) (cmpi .sle),
    TRef.binary (TRef.of (T := ⟨S32x32768x1, .i1⟩) main_call3_v6) (TRef.of (T := ⟨S32x32768x1, .i1⟩) main_call3_v9) (TRef.of (T := ⟨S32x32768x1, .i1⟩) main_call3_v10) andi,
    TRef.nullary (TRef.of (T := ⟨S_, .i1⟩) main_call3_c_3) (constantI S_ 1 1#1),
    TRef.binary (TRef.of (T := ⟨S32x32768x1, .i1⟩) main_call3_v10) (TRef.of (T := ⟨S_, .i1⟩) main_call3_c_3) (TRef.of (T := ⟨S32x32768, .i1⟩) main_call3_v11) (fun x v => Host.reduce IntOp.andi x v reducesTo_S32x32768x1_S32x32768_d2 h_S_),
    TRef.binary (TRef.of (T := ⟨S32x512x9, .f32⟩) main_v60) (TRef.of (T := ⟨S32x32768x1, .i32⟩) main_call3_v4) (TRef.of (T := ⟨S32x32768x9, .f32⟩) main_call3_v12) (fun x i => Host.gather gather_S32x512x9_S32x32768x1_S32x32768x9_2_1_0_0_1_2_119 x i),
    TRef.unary (TRef.of (T := ⟨S32x32768, .i1⟩) main_call3_v11) (TRef.of (T := ⟨S32x32768x9, .i1⟩) main_call3_v13) (broadcastInDim S32x32768x9 ![0, 1] bcast_S32x32768_S32x32768x9_0_1),
    TRef.nullary (TRef.of (T := ⟨S_, .f32⟩) main_call3_cst) (constant S_ .f32 0x7FC00000#32),
    TRef.unary (TRef.of (T := ⟨S_, .f32⟩) main_call3_cst) (TRef.of (T := ⟨S32x32768x9, .f32⟩) main_call3_v14) (broadcastInDim S32x32768x9 ![] bcast_S_S32x32768x9),
    TRef.ternary (TRef.of (T := ⟨S32x32768x9, .i1⟩) main_call3_v13) (TRef.of (T := ⟨S32x32768x9, .f32⟩) main_call3_v12) (TRef.of (T := ⟨S32x32768x9, .f32⟩) main_call3_v14) (TRef.of (T := ⟨S32x32768x9, .f32⟩) main_v67) select,
    TRef.nullary (TRef.of (T := ⟨S_, .i32⟩) main_call4_c) (constantI S_ 32 0#32),
    TRef.unary (TRef.of (T := ⟨S_, .i32⟩) main_call4_c) (TRef.of (T := ⟨S32x32768x1, .i32⟩) main_call4_v0) (broadcastInDim S32x32768x1 ![] bcast_S_S32x32768x1),
    TRef.binary (TRef.of (T := ⟨S32x32768x1, .i32⟩) main_v66) (TRef.of (T := ⟨S32x32768x1, .i32⟩) main_call4_v0) (TRef.of (T := ⟨S32x32768x1, .i1⟩) main_call4_v1) (cmpi .slt),
    TRef.nullary (TRef.of (T := ⟨S_, .i32⟩) main_call4_c_0) (constantI S_ 32 512#32),
    TRef.unary (TRef.of (T := ⟨S_, .i32⟩) main_call4_c_0) (TRef.of (T := ⟨S32x32768x1, .i32⟩) main_call4_v2) (broadcastInDim S32x32768x1 ![] bcast_S_S32x32768x1),
    TRef.binary (TRef.of (T := ⟨S32x32768x1, .i32⟩) main_v66) (TRef.of (T := ⟨S32x32768x1, .i32⟩) main_call4_v2) (TRef.of (T := ⟨S32x32768x1, .i32⟩) main_call4_v3) addi,
    TRef.ternary (TRef.of (T := ⟨S32x32768x1, .i1⟩) main_call4_v1) (TRef.of (T := ⟨S32x32768x1, .i32⟩) main_call4_v3) (TRef.of (T := ⟨S32x32768x1, .i32⟩) main_v66) (TRef.of (T := ⟨S32x32768x1, .i32⟩) main_call4_v4) select,
    TRef.nullary (TRef.of (T := ⟨S1, .i32⟩) main_call4_c_1) (constantI S1 32 511#32),
    TRef.nullary (TRef.of (T := ⟨S_, .i32⟩) main_call4_c_2) (constantI S_ 32 0#32),
    TRef.unary (TRef.of (T := ⟨S_, .i32⟩) main_call4_c_2) (TRef.of (T := ⟨S32x32768x1, .i32⟩) main_call4_v5) (broadcastInDim S32x32768x1 ![] bcast_S_S32x32768x1),
    TRef.binary (TRef.of (T := ⟨S32x32768x1, .i32⟩) main_call4_v4) (TRef.of (T := ⟨S32x32768x1, .i32⟩) main_call4_v5) (TRef.of (T := ⟨S32x32768x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S32x32768x1, .i32⟩) main_call4_v8) (broadcastInDim S32x32768x1 ![0, 1, 2] bcast_S1x1x1_S32x32768x1_0_1_2),
    TRef.binary (TRef.of (T := ⟨S32x32768x1, .i32⟩) main_call4_v4) (TRef.of (T := ⟨S32x32768x1, .i32⟩) main_call4_v8) (TRef.of (T := ⟨S32x32768x1, .i1⟩) main_call4_v9) (cmpi .sle),
    TRef.binary (TRef.of (T := ⟨S32x32768x1, .i1⟩) main_call4_v6) (TRef.of (T := ⟨S32x32768x1, .i1⟩) main_call4_v9) (TRef.of (T := ⟨S32x32768x1, .i1⟩) main_call4_v10) andi,
    TRef.nullary (TRef.of (T := ⟨S_, .i1⟩) main_call4_c_3) (constantI S_ 1 1#1),
    TRef.binary (TRef.of (T := ⟨S32x32768x1, .i1⟩) main_call4_v10) (TRef.of (T := ⟨S_, .i1⟩) main_call4_c_3) (TRef.of (T := ⟨S32x32768, .i1⟩) main_call4_v11) (fun x v => Host.reduce IntOp.andi x v reducesTo_S32x32768x1_S32x32768_d2 h_S_),
    TRef.binary (TRef.of (T := ⟨S32x512x9, .f32⟩) main_v60) (TRef.of (T := ⟨S32x32768x1, .i32⟩) main_call4_v4) (TRef.of (T := ⟨S32x32768x9, .f32⟩) main_call4_v12) (fun x i => Host.gather gather_S32x512x9_S32x32768x1_S32x32768x9_2_1_0_0_1_2_119 x i),
    TRef.unary (TRef.of (T := ⟨S32x32768, .i1⟩) main_call4_v11) (TRef.of (T := ⟨S32x32768x9, .i1⟩) main_call4_v13) (broadcastInDim S32x32768x9 ![0, 1] bcast_S32x32768_S32x32768x9_0_1),
    TRef.nullary (TRef.of (T := ⟨S_, .f32⟩) main_call4_cst) (constant S_ .f32 0x7FC00000#32),
    TRef.unary (TRef.of (T := ⟨S_, .f32⟩) main_call4_cst) (TRef.of (T := ⟨S32x32768x9, .f32⟩) main_call4_v14) (broadcastInDim S32x32768x9 ![] bcast_S_S32x32768x9),
    TRef.ternary (TRef.of (T := ⟨S32x32768x9, .i1⟩) main_call4_v13) (TRef.of (T := ⟨S32x32768x9, .f32⟩) main_call4_v12) (TRef.of (T := ⟨S32x32768x9, .f32⟩) main_call4_v14) (TRef.of (T := ⟨S32x32768x9, .f32⟩) main_v68) select ]

/-- Operations 123 to 150: the looked-up rows side by side, the dense layers, the sigmoid. -/
abbrev ops3 : List (HloOp τ sig (Elt F)) :=
  [ binary main_v67 main_v68 main_v69 ((fun a b => concatenate S32x32768x18 2 [⟨S32x32768x9, a⟩, ⟨S32x32768x9, b⟩] concatenates_S32x32768x9_S32x32768x9_S32x32768x18_d2) : (⟨S32x32768x9, .f32⟩ : BufTy).Contents (Elt F) → (⟨S32x32768x9, .f32⟩ : BufTy).Contents (Elt F) → (⟨S32x32768x18, .f32⟩ : BufTy).Contents (Elt F)),
    reshape main_v69 main_v70 rfl shapeCasts_S32x32768x18_S1048576x18,
    binary main_v70 main_arg21 main_v71 ((fun l r => Host.dotGeneral dot_S1048576x18_S18x64_S1048576x64_1_0_0_1_n_n none l r) : (⟨S1048576x18, .f32⟩ : BufTy).Contents (Elt F) → (⟨S18x64, .f32⟩ : BufTy).Contents (Elt F) → (⟨S1048576x64, .f32⟩ : BufTy).Contents (Elt F)),
    unary main_arg22 main_v72 (broadcastInDim S1x64 ![1] bcast_S64_S1x64_1 : (⟨S64, .f32⟩ : BufTy).Contents (Elt F) → (⟨S1x64, .f32⟩ : BufTy).Contents (Elt F)),
    unary main_v72 main_v73 (broadcastInDim S1048576x64 ![0, 1] bcast_S1x64_S1048576x64_0_1 : (⟨S1x64, .f32⟩ : BufTy).Contents (Elt F) → (⟨S1048576x64, .f32⟩ : BufTy).Contents (Elt F)),
    binary main_v71 main_v73 main_v74 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1048576x64, .f32⟩) main_call5_v0) (broadcastInDim S1048576x64 ![] bcast_S_S1048576x64),
    TRef.binary (TRef.of (T := ⟨S1048576x64, .f32⟩) main_v74) (TRef.of (T := ⟨S1048576x64, .f32⟩) main_call5_v0) (TRef.of (T := ⟨S1048576x64, .f32⟩) main_v75) maximumf,
    binary main_v75 main_arg23 main_v76 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg24 main_v77 (broadcastInDim S1x64 ![1] bcast_S64_S1x64_1 : (⟨S64, .f32⟩ : BufTy).Contents (Elt F) → (⟨S1x64, .f32⟩ : BufTy).Contents (Elt F)),
    unary main_v77 main_v78 (broadcastInDim S1048576x64 ![0, 1] bcast_S1x64_S1048576x64_0_1 : (⟨S1x64, .f32⟩ : BufTy).Contents (Elt F) → (⟨S1048576x64, .f32⟩ : BufTy).Contents (Elt F)),
    binary main_v76 main_v78 main_v79 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1048576x64, .f32⟩) main_call6_v0) (broadcastInDim S1048576x64 ![] bcast_S_S1048576x64),
    TRef.binary (TRef.of (T := ⟨S1048576x64, .f32⟩) main_v79) (TRef.of (T := ⟨S1048576x64, .f32⟩) main_call6_v0) (TRef.of (T := ⟨S1048576x64, .f32⟩) main_v80) maximumf,
    binary main_v80 main_arg25 main_v81 ((fun l r => Host.dotGeneral dot_S1048576x64_S64x10_S1048576x10_1_0_0_1_n_n none l r) : (⟨S1048576x64, .f32⟩ : BufTy).Contents (Elt F) → (⟨S64x10, .f32⟩ : BufTy).Contents (Elt F) → (⟨S1048576x10, .f32⟩ : BufTy).Contents (Elt F)),
    unary main_arg26 main_v82 (broadcastInDim S1x10 ![1] bcast_S10_S1x10_1 : (⟨S10, .f32⟩ : BufTy).Contents (Elt F) → (⟨S1x10, .f32⟩ : BufTy).Contents (Elt F)),
    unary main_v82 main_v83 (broadcastInDim S1048576x10 ![0, 1] bcast_S1x10_S1048576x10_0_1 : (⟨S1x10, .f32⟩ : BufTy).Contents (Elt F) → (⟨S1048576x10, .f32⟩ : BufTy).Contents (Elt F)),
    binary main_v81 main_v83 main_v84 (addf : (⟨S1048576x10, .f32⟩ : BufTy).Contents (Elt F) → (⟨S1048576x10, .f32⟩ : BufTy).Contents (Elt F) → (⟨S1048576x10, .f32⟩ : BufTy).Contents (Elt F)),
    unary main_v84 main_v85 (Host.negf : (⟨S1048576x10, .f32⟩ : BufTy).Contents (Elt F) → (⟨S1048576x10, .f32⟩ : BufTy).Contents (Elt F)),
    unary main_v85 main_v86 (Host.exp : (⟨S1048576x10, .f32⟩ : BufTy).Contents (Elt F) → (⟨S1048576x10, .f32⟩ : BufTy).Contents (Elt F)),
    nullary main_cst_4 (constant S_ .f32 0x3F800000#32),
    unary main_cst_4 main_v87 (broadcastInDim S1048576x10 ![] bcast_S_S1048576x10 : (⟨S_, .f32⟩ : BufTy).Contents (Elt F) → (⟨S1048576x10, .f32⟩ : BufTy).Contents (Elt F)),
    binary main_v87 main_v86 main_v88 (addf : (⟨S1048576x10, .f32⟩ : BufTy).Contents (Elt F) → (⟨S1048576x10, .f32⟩ : BufTy).Contents (Elt F) → (⟨S1048576x10, .f32⟩ : BufTy).Contents (Elt F)),
    nullary main_cst_5 (constant S_ .f32 0x3F800000#32),
    unary main_cst_5 main_v89 (broadcastInDim S1048576x10 ![] bcast_S_S1048576x10 : (⟨S_, .f32⟩ : BufTy).Contents (Elt F) → (⟨S1048576x10, .f32⟩ : BufTy).Contents (Elt F)),
    binary main_v89 main_v88 main_v90 (Host.divf : (⟨S1048576x10, .f32⟩ : BufTy).Contents (Elt F) → (⟨S1048576x10, .f32⟩ : BufTy).Contents (Elt F) → (⟨S1048576x10, .f32⟩ : BufTy).Contents (Elt F)) ]

/-- The program's operation list is the three stretches in a row. -/
theorem ops_split : (ops : List (HloOp τ sig (Elt F))) = ops1 ++ (ops2 ++ ops3) := rfl

end Cert.ReferenceIdeal.Chunks

end
-- ==== Proof.RefChunksHead.lean ====
/-
  The reference's first 72 host operations, read back: the node path (67 operations) writes no argument, and the five
  operations after it leave the attribute table (boxes / 1024, directions, priority, side by side) at its stage function
  of the arguments.
-/
import proofs.«419047_j46299747451450_1_alg».proof.Proof.RefChunksOps

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The first stretch -/

/-- Operations 1 to 67: the node path. -/
abbrev opsN : List (HloOp τ sig (Elt F)) :=
  [ reshape main_arg0 main_v0 rfl shapeCasts_S32x512x1024_S16384x1024,
    binary main_v0 main_arg5 main_v1 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg6 main_v2 (broadcastInDim S1x512 ![1] bcast_S512_S1x512_1 : (⟨S512, .f32⟩ : BufTy).Contents (Elt F) → (⟨S1x512, .f32⟩ : BufTy).Contents (Elt F)),
    unary main_v2 main_v3 (broadcastInDim S16384x512 ![0, 1] bcast_S1x512_S16384x512_0_1 : (⟨S1x512, .f32⟩ : BufTy).Contents (Elt F) → (⟨S16384x512, .f32⟩ : BufTy).Contents (Elt F)),
    binary main_v1 main_v3 main_v4 (addf : (⟨S16384x512, .f32⟩ : BufTy).Contents (Elt F) → (⟨S16384x512, .f32⟩ : BufTy).Contents (Elt F) → (⟨S16384x512, .f32⟩ : BufTy).Contents (Elt F)),
    unary main_arg9 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (subf : (⟨S16384x512, .f32⟩ : BufTy).Contents (Elt F) → (⟨S16384x512, .f32⟩ : BufTy).Contents (Elt F) → (⟨S16384x512, .f32⟩ : BufTy).Contents (Elt F)),
    unary main_arg7 main_v8 (broadcastInDim S1x512 ![1] bcast_S512_S1x512_1 : (⟨S512, .f32⟩ : BufTy).Contents (Elt F) → (⟨S1x512, .f32⟩ : BufTy).Contents (Elt F)),
    unary main_v8 main_v9 (broadcastInDim S16384x512 ![0, 1] bcast_S1x512_S16384x512_0_1 : (⟨S1x512, .f32⟩ : BufTy).Contents (Elt F) → (⟨S16384x512, .f32⟩ : BufTy).Contents (Elt F)),
    binary main_v9 main_v7 main_v10 (mulf : (⟨S16384x512, .f32⟩ : BufTy).Contents (Elt F) → (⟨S16384x512, .f32⟩ : BufTy).Contents (Elt F) → (⟨S16384x512, .f32⟩ : BufTy).Contents (Elt F)),
    nullary main_cst (constant S_ .f32 0x3727C5AC#32),
    unary main_cst main_v11 (broadcastInDim S512 ![] bcast_S_S512 : (⟨S_, .f32⟩ : BufTy).Contents (Elt F) → (⟨S512, .f32⟩ : BufTy).Contents (Elt F)),
    binary main_arg10 main_v11 main_v12 (addf : (⟨S512, .f32⟩ : BufTy).Contents (Elt F) → (⟨S512, .f32⟩ : BufTy).Contents (Elt F) → (⟨S512, .f32⟩ : BufTy).Contents (Elt F)),
    unary main_v12 main_v13 (Host.rsqrt : (⟨S512, .f32⟩ : BufTy).Contents (Elt F) → (⟨S512, .f32⟩ : BufTy).Contents (Elt F)),
    unary main_v13 main_v14 (broadcastInDim S1x512 ![1] bcast_S512_S1x512_1 : (⟨S512, .f32⟩ : BufTy).Contents (Elt F) → (⟨S1x512, .f32⟩ : BufTy).Contents (Elt F)),
    unary main_v14 main_v15 (broadcastInDim S16384x512 ![0, 1] bcast_S1x512_S16384x512_0_1 : (⟨S1x512, .f32⟩ : BufTy).Contents (Elt F) → (⟨S16384x512, .f32⟩ : BufTy).Contents (Elt F)),
    binary main_v10 main_v15 main_v16 (mulf : (⟨S16384x512, .f32⟩ : BufTy).Contents (Elt F) → (⟨S16384x512, .f32⟩ : BufTy).Contents (Elt F) → (⟨S16384x512, .f32⟩ : BufTy).Contents (Elt F)),
    unary main_arg8 main_v17 (broadcastInDim S1x512 ![1] bcast_S512_S1x512_1 : (⟨S512, .f32⟩ : BufTy).Contents (Elt F) → (⟨S1x512, .f32⟩ : BufTy).Contents (Elt F)),
    unary main_v17 main_v18 (broadcastInDim S16384x512 ![0, 1] bcast_S1x512_S16384x512_0_1 : (⟨S1x512, .f32⟩ : BufTy).Contents (Elt F) → (⟨S16384x512, .f32⟩ : BufTy).Contents (Elt F)),
    binary main_v16 main_v18 main_v19 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v19) (TRef.of (T := ⟨S16384x512, .f32⟩) main_call0_v0) (TRef.of (T := ⟨S16384x512, .f32⟩) main_v20) maximumf,
    binary main_v20 main_arg11 main_v21 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg12 main_v22 (broadcastInDim S1x256 ![1] bcast_S256_S1x256_1 : (⟨S256, .f32⟩ : BufTy).Contents (Elt F) → (⟨S1x256, .f32⟩ : BufTy).Contents (Elt F)),
    unary main_v22 main_v23 (broadcastInDim S16384x256 ![0, 1] bcast_S1x256_S16384x256_0_1 : (⟨S1x256, .f32⟩ : BufTy).Contents (Elt F) → (⟨S16384x256, .f32⟩ : BufTy).Contents (Elt F)),
    binary main_v21 main_v23 main_v24 (addf : (⟨S16384x256, .f32⟩ : BufTy).Contents (Elt F) → (⟨S16384x256, .f32⟩ : BufTy).Contents (Elt F) → (⟨S16384x256, .f32⟩ : BufTy).Contents (Elt F)),
    unary main_arg15 main_v25 (broadcastInDim S1x256 ![1] bcast_S256_S1x256_1 : (⟨S256, .f32⟩ : BufTy).Contents (Elt F) → (⟨S1x256, .f32⟩ : BufTy).Contents (Elt F)),
    unary main_v25 main_v26 (broadcastInDim S16384x256 ![0, 1] bcast_S1x256_S16384x256_0_1 : (⟨S1x256, .f32⟩ : BufTy).Contents (Elt F) → (⟨S16384x256, .f32⟩ : BufTy).Contents (Elt F)),
    binary main_v24 main_v26 main_v27 (subf : (⟨S16384x256, .f32⟩ : BufTy).Contents (Elt F) → (⟨S16384x256, .f32⟩ : BufTy).Contents (Elt F) → (⟨S16384x256, .f32⟩ : BufTy).Contents (Elt F)),
    unary main_arg13 main_v28 (broadcastInDim S1x256 ![1] bcast_S256_S1x256_1 : (⟨S256, .f32⟩ : BufTy).Contents (Elt F) → (⟨S1x256, .f32⟩ : BufTy).Contents (Elt F)),
    unary main_v28 main_v29 (broadcastInDim S16384x256 ![0, 1] bcast_S1x256_S16384x256_0_1 : (⟨S1x256, .f32⟩ : BufTy).Contents (Elt F) → (⟨S16384x256, .f32⟩ : BufTy).Contents (Elt F)),
    binary main_v29 main_v27 main_v30 (mulf : (⟨S16384x256, .f32⟩ : BufTy).Contents (Elt F) → (⟨S16384x256, .f32⟩ : BufTy).Contents (Elt F) → (⟨S16384x256, .f32⟩ : BufTy).Contents (Elt F)),
    nullary main_cst_0 (constant S_ .f32 0x3727C5AC#32),
    unary main_cst_0 main_v31 (broadcastInDim S256 ![] bcast_S_S256 : (⟨S_, .f32⟩ : BufTy).Contents (Elt F) → (⟨S256, .f32⟩ : BufTy).Contents (Elt F)),
    binary main_arg16 main_v31 main_v32 (addf : (⟨S256, .f32⟩ : BufTy).Contents (Elt F) → (⟨S256, .f32⟩ : BufTy).Contents (Elt F) → (⟨S256, .f32⟩ : BufTy).Contents (Elt F)),
    unary main_v32 main_v33 (Host.rsqrt : (⟨S256, .f32⟩ : BufTy).Contents (Elt F) → (⟨S256, .f32⟩ : BufTy).Contents (Elt F)),
    unary main_v33 main_v34 (broadcastInDim S1x256 ![1] bcast_S256_S1x256_1 : (⟨S256, .f32⟩ : BufTy).Contents (Elt F) → (⟨S1x256, .f32⟩ : BufTy).Contents (Elt F)),
    unary main_v34 main_v35 (broadcastInDim S16384x256 ![0, 1] bcast_S1x256_S16384x256_0_1 : (⟨S1x256, .f32⟩ : BufTy).Contents (Elt F) → (⟨S16384x256, .f32⟩ : BufTy).Contents (Elt F)),
    binary main_v30 main_v35 main_v36 (mulf : (⟨S16384x256, .f32⟩ : BufTy).Contents (Elt F) → (⟨S16384x256, .f32⟩ : BufTy).Contents (Elt F) → (⟨S16384x256, .f32⟩ : BufTy).Contents (Elt F)),
    unary main_arg14 main_v37 (broadcastInDim S1x256 ![1] bcast_S256_S1x256_1 : (⟨S256, .f32⟩ : BufTy).Contents (Elt F) → (⟨S1x256, .f32⟩ : BufTy).Contents (Elt F)),
    unary main_v37 main_v38 (broadcastInDim S16384x256 ![0, 1] bcast_S1x256_S16384x256_0_1 : (⟨S1x256, .f32⟩ : BufTy).Contents (Elt F) → (⟨S16384x256, .f32⟩ : BufTy).Contents (Elt F)),
    binary main_v36 main_v38 main_v39 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v39) (TRef.of (T := ⟨S16384x256, .f32⟩) main_call1_v0) (TRef.of (T := ⟨S16384x256, .f32⟩) main_v40) maximumf,
    binary main_v40 main_arg17 main_v41 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg18 main_v42 (broadcastInDim S1x128 ![1] bcast_S128_S1x128_1 : (⟨S128, .f32⟩ : BufTy).Contents (Elt F) → (⟨S1x128, .f32⟩ : BufTy).Contents (Elt F)),
    unary main_v42 main_v43 (broadcastInDim S16384x128 ![0, 1] bcast_S1x128_S16384x128_0_1 : (⟨S1x128, .f32⟩ : BufTy).Contents (Elt F) → (⟨S16384x128, .f32⟩ : BufTy).Contents (Elt F)),
    binary main_v41 main_v43 main_v44 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x128, .f32⟩) main_call2_v0) (broadcastInDim S16384x128 ![] bcast_S_S16384x128),
    TRef.binary (TRef.of (T := ⟨S16384x128, .f32⟩) main_v44) (TRef.of (T := ⟨S16384x128, .f32⟩) main_call2_v0) (TRef.of (T := ⟨S16384x128, .f32⟩) main_v45) maximumf,
    binary main_v45 main_arg19 main_v46 ((fun l r => Host.dotGeneral dot_S16384x128_S128x8_S16384x8_1_0_0_1_n_n none l r) : (⟨S16384x128, .f32⟩ : BufTy).Contents (Elt F) → (⟨S128x8, .f32⟩ : BufTy).Contents (Elt F) → (⟨S16384x8, .f32⟩ : BufTy).Contents (Elt F)),
    unary main_arg20 main_v47 (broadcastInDim S1x8 ![1] bcast_S8_S1x8_1 : (⟨S8, .f32⟩ : BufTy).Contents (Elt F) → (⟨S1x8, .f32⟩ : BufTy).Contents (Elt F)),
    unary main_v47 main_v48 (broadcastInDim S16384x8 ![0, 1] bcast_S1x8_S16384x8_0_1 : (⟨S1x8, .f32⟩ : BufTy).Contents (Elt F) → (⟨S16384x8, .f32⟩ : BufTy).Contents (Elt F)),
    binary main_v46 main_v48 main_v49 (addf : (⟨S16384x8, .f32⟩ : BufTy).Contents (Elt F) → (⟨S16384x8, .f32⟩ : BufTy).Contents (Elt F) → (⟨S16384x8, .f32⟩ : BufTy).Contents (Elt F)),
    unary main_v49 main_v50 (Host.negf : (⟨S16384x8, .f32⟩ : BufTy).Contents (Elt F) → (⟨S16384x8, .f32⟩ : BufTy).Contents (Elt F)),
    unary main_v50 main_v51 (Host.exp : (⟨S16384x8, .f32⟩ : BufTy).Contents (Elt F) → (⟨S16384x8, .f32⟩ : BufTy).Contents (Elt F)),
    nullary main_cst_1 (constant S_ .f32 0x3F800000#32),
    unary main_cst_1 main_v52 (broadcastInDim S16384x8 ![] bcast_S_S16384x8 : (⟨S_, .f32⟩ : BufTy).Contents (Elt F) → (⟨S16384x8, .f32⟩ : BufTy).Contents (Elt F)),
    binary main_v52 main_v51 main_v53 (addf : (⟨S16384x8, .f32⟩ : BufTy).Contents (Elt F) → (⟨S16384x8, .f32⟩ : BufTy).Contents (Elt F) → (⟨S16384x8, .f32⟩ : BufTy).Contents (Elt F)),
    nullary main_cst_2 (constant S_ .f32 0x3F800000#32),
    unary main_cst_2 main_v54 (broadcastInDim S16384x8 ![] bcast_S_S16384x8 : (⟨S_, .f32⟩ : BufTy).Contents (Elt F) → (⟨S16384x8, .f32⟩ : BufTy).Contents (Elt F)),
    binary main_v54 main_v53 main_v55 (Host.divf : (⟨S16384x8, .f32⟩ : BufTy).Contents (Elt F) → (⟨S16384x8, .f32⟩ : BufTy).Contents (Elt F) → (⟨S16384x8, .f32⟩ : BufTy).Contents (Elt F)),
    reshape main_v55 main_v56 rfl shapeCasts_S16384x8_S32x512x8 ]

/-- Operations 68 to 72: the box scale, the priority channel, the three side by side. -/
abbrev opsAt : List (HloOp τ sig (Elt F)) :=
  [ nullary main_cst_3 (constant S_ .f32 0x44800000#32),
    unary main_cst_3 main_v57 (broadcastInDim S32x512x4 ![] bcast_S_S32x512x4 : (⟨S_, .f32⟩ : BufTy).Contents (Elt F) → (⟨S32x512x4, .f32⟩ : BufTy).Contents (Elt F)),
    binary main_arg1 main_v57 main_v58 (Host.divf : (⟨S32x512x4, .f32⟩ : BufTy).Contents (Elt F) → (⟨S32x512x4, .f32⟩ : BufTy).Contents (Elt F) → (⟨S32x512x4, .f32⟩ : BufTy).Contents (Elt F)),
    unary main_arg3 main_v59 (broadcastInDim S32x512x1 ![0, 1] bcast_S32x512_S32x512x1_0_1 : (⟨S32x512, .f32⟩ : BufTy).Contents (Elt F) → (⟨S32x512x1, .f32⟩ : BufTy).Contents (Elt F)),
    nary ![main_v58, main_arg2, main_v59] main_v60 (fun u => concatenate S32x512x9 2 [⟨S32x512x4, u 0⟩, ⟨S32x512x4, u 1⟩, ⟨S32x512x1, u 2⟩] concatenates_S32x512x4_S32x512x4_S32x512x1_S32x512x9_d2) ]

theorem ops1_split : (ops1 : List (HloOp τ sig (Elt F))) = opsN ++ opsAt := rfl

set_option maxRecDepth 8192 in
theorem keepN_arg1 (V : Valuation τ sig (Elt F)) : after opsN V (Proc.devRef .tc main_arg1) = V (Proc.devRef .tc main_arg1) := by
  read_back

set_option maxRecDepth 8192 in
theorem keepN_arg2 (V : Valuation τ sig (Elt F)) : after opsN V (Proc.devRef .tc main_arg2) = V (Proc.devRef .tc main_arg2) := by
  read_back

set_option maxRecDepth 8192 in
theorem keepN_arg3 (V : Valuation τ sig (Elt F)) : after opsN V (Proc.devRef .tc main_arg3) = V (Proc.devRef .tc main_arg3) := by
  read_back

/-- From any contents, the five operations leave the attribute table at its stage function of the three arrays read. -/
theorem chunkAt (W : Valuation τ sig (Elt F)) (x1 x2 : (⟨S32x512x4, .f32⟩ : BufTy).Contents (Elt F)) (x3 : (⟨S32x512, .f32⟩ : BufTy).Contents (Elt F))
    (h1 : W (Proc.devRef .tc main_arg1) = x1) (h2 : W (Proc.devRef .tc main_arg2) = x2) (h3 : W (Proc.devRef .tc main_arg3) = x3) :
    after opsAt W (Proc.devRef .tc main_v60) = val_main_v60 (F := F) x1 x2 x3 := by
  read_back_rw
  rw [h1, h2, h3]
  rfl

theorem head_v60 (V : Valuation τ sig (Elt F)) :
    after ops1 V (Proc.devRef .tc main_v60) = val_main_v60 (F := F) (V (Proc.devRef .tc main_arg1)) (V (Proc.devRef .tc main_arg2)) (V (Proc.devRef .tc main_arg3)) := by
  rw [ops1_split, after_app]
  exact chunkAt (after opsN V) _ _ _ (keepN_arg1 V) (keepN_arg2 V) (keepN_arg3 V)

set_option maxRecDepth 8192 in
theorem head_arg4 (V : Valuation τ sig (Elt F)) : after ops1 V (Proc.devRef .tc main_arg4) = V (Proc.devRef .tc main_arg4) := by
  read_back

set_option maxRecDepth 8192 in
theorem head_arg21 (V : Valuation τ sig (Elt F)) : after ops1 V (Proc.devRef .tc main_arg21) = V (Proc.devRef .tc main_arg21) := by
  read_back

set_option maxRecDepth 8192 in
theorem head_arg22 (V : Valuation τ sig (Elt F)) : after ops1 V (Proc.devRef .tc main_arg22) = V (Proc.devRef .tc main_arg22) := by
  read_back

set_option maxRecDepth 8192 in
theorem head_arg23 (V : Valuation τ sig (Elt F)) : after ops1 V (Proc.devRef .tc main_arg23) = V (Proc.devRef .tc main_arg23) := by
  read_back

set_option maxRecDepth 8192 in
theorem head_arg24 (V : Valuation τ sig (Elt F)) : after ops1 V (Proc.devRef .tc main_arg24) = V (Proc.devRef .tc main_arg24) := by
  read_back

set_option maxRecDepth 8192 in
theorem head_arg25 (V : Valuation τ sig (Elt F)) : after ops1 V (Proc.devRef .tc main_arg25) = V (Proc.devRef .tc main_arg25) := by
  read_back

set_option maxRecDepth 8192 in
theorem head_arg26 (V : Valuation τ sig (Elt F)) : after ops1 V (Proc.devRef .tc main_arg26) = V (Proc.devRef .tc main_arg26) := by
  read_back

end Cert.ReferenceIdeal.Chunks

end
-- ==== Proof.RefChunksMid.lean ====
/-
  The reference's operations 73 to 122, read back in seven short stretches from any buffer contents: the source and
  destination words (row 0 and row 1 of the index array with a last unit axis); then, for each of the two row look-ups,
  jnp's wrapped index, its range mask, and the gather with the masked select. Each stretch takes contents that hold its
  inputs at their stage functions to its output's stage function, and leaves every other buffer it does not write as it
  was; chained, contents that hold the attribute table at its stage and the index array end holding the two gathered
  arrays at theirs. The stretch writes no argument.
-/
import proofs.«419047_j46299747451450_1_alg».proof.Proof.RefChunksOps

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The second stretch, cut in seven -/

/-- Operations 73 to 78: the source and destination words. -/
abbrev opsS : List (HloOp τ sig (Elt F)) :=
  [ unary main_arg4 main_v61 ((extractStridedSlice S32x1x32768 ![0, 0, 0] · slices_S32x2x32768_S32x1x32768_0_0_0) : (⟨S32x2x32768, .i32⟩ : BufTy).Contents (Elt F) → (⟨S32x1x32768, .i32⟩ : BufTy).Contents (Elt F)),
    reshape main_v61 main_v62 rfl shapeCasts_S32x1x32768_S32x32768,
    unary main_v62 main_v63 (broadcastInDim S32x32768x1 ![0, 1] bcast_S32x32768_S32x32768x1_0_1 : (⟨S32x32768, .i32⟩ : BufTy).Contents (Elt F) → (⟨S32x32768x1, .i32⟩ : BufTy).Contents (Elt F)),
    unary main_arg4 main_v64 ((extractStridedSlice S32x1x32768 ![0, 1, 0] · slices_S32x2x32768_S32x1x32768_0_1_0) : (⟨S32x2x32768, .i32⟩ : BufTy).Contents (Elt F) → (⟨S32x1x32768, .i32⟩ : BufTy).Contents (Elt F)),
    reshape main_v64 main_v65 rfl shapeCasts_S32x1x32768_S32x32768,
    unary main_v65 main_v66 (broadcastInDim S32x32768x1 ![0, 1] bcast_S32x32768_S32x32768x1_0_1 : (⟨S32x32768, .i32⟩ : BufTy).Contents (Elt F) → (⟨S32x32768x1, .i32⟩ : BufTy).Contents (Elt F)) ]

/-- Operations 79 to 85: the source look-up's wrapped index. -/
abbrev opsA3 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S32x32768x1, .i32⟩) main_call3_v0) (broadcastInDim S32x32768x1 ![] bcast_S_S32x32768x1),
    TRef.binary (TRef.of (T := ⟨S32x32768x1, .i32⟩) main_v63) (TRef.of (T := ⟨S32x32768x1, .i32⟩) main_call3_v0) (TRef.of (T := ⟨S32x32768x1, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S32x32768x1, .i32⟩) main_call3_v2) (broadcastInDim S32x32768x1 ![] bcast_S_S32x32768x1),
    TRef.binary (TRef.of (T := ⟨S32x32768x1, .i32⟩) main_v63) (TRef.of (T := ⟨S32x32768x1, .i32⟩) main_call3_v2) (TRef.of (T := ⟨S32x32768x1, .i32⟩) main_call3_v3) addi,
    TRef.ternary (TRef.of (T := ⟨S32x32768x1, .i1⟩) main_call3_v1) (TRef.of (T := ⟨S32x32768x1, .i32⟩) main_call3_v3) (TRef.of (T := ⟨S32x32768x1, .i32⟩) main_v63) (TRef.of (T := ⟨S32x32768x1, .i32⟩) main_call3_v4) select ]

/-- Operations 86 to 95: the source look-up's range mask. -/
abbrev opsB3 : List (HloOp τ sig (Elt F)) :=
  [ TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S32x32768x1, .i32⟩) main_call3_v5) (broadcastInDim S32x32768x1 ![] bcast_S_S32x32768x1),
    TRef.binary (TRef.of (T := ⟨S32x32768x1, .i32⟩) main_call3_v4) (TRef.of (T := ⟨S32x32768x1, .i32⟩) main_call3_v5) (TRef.of (T := ⟨S32x32768x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S32x32768x1, .i32⟩) main_call3_v8) (broadcastInDim S32x32768x1 ![0, 1, 2] bcast_S1x1x1_S32x32768x1_0_1_2),
    TRef.binary (TRef.of (T := ⟨S32x32768x1, .i32⟩) main_call3_v4) (TRef.of (T := ⟨S32x32768x1, .i32⟩) main_call3_v8) (TRef.of (T := ⟨S32x32768x1, .i1⟩) main_call3_v9) (cmpi .sle),
    TRef.binary (TRef.of (T := ⟨S32x32768x1, .i1⟩) main_call3_v6) (TRef.of (T := ⟨S32x32768x1, .i1⟩) main_call3_v9) (TRef.of (T := ⟨S32x32768x1, .i1⟩) main_call3_v10) andi,
    TRef.nullary (TRef.of (T := ⟨S_, .i1⟩) main_call3_c_3) (constantI S_ 1 1#1),
    TRef.binary (TRef.of (T := ⟨S32x32768x1, .i1⟩) main_call3_v10) (TRef.of (T := ⟨S_, .i1⟩) main_call3_c_3) (TRef.of (T := ⟨S32x32768, .i1⟩) main_call3_v11) (fun x v => Host.reduce IntOp.andi x v reducesTo_S32x32768x1_S32x32768_d2 h_S_) ]

/-- Operations 96 to 100: the source look-up's gather and masked select. -/
abbrev opsC3 : List (HloOp τ sig (Elt F)) :=
  [ TRef.binary (TRef.of (T := ⟨S32x512x9, .f32⟩) main_v60) (TRef.of (T := ⟨S32x32768x1, .i32⟩) main_call3_v4) (TRef.of (T := ⟨S32x32768x9, .f32⟩) main_call3_v12) (fun x i => Host.gather gather_S32x512x9_S32x32768x1_S32x32768x9_2_1_0_0_1_2_119 x i),
    TRef.unary (TRef.of (T := ⟨S32x32768, .i1⟩) main_call3_v11) (TRef.of (T := ⟨S32x32768x9, .i1⟩) main_call3_v13) (broadcastInDim S32x32768x9 ![0, 1] bcast_S32x32768_S32x32768x9_0_1),
    TRef.nullary (TRef.of (T := ⟨S_, .f32⟩) main_call3_cst) (constant S_ .f32 0x7FC00000#32),
    TRef.unary (TRef.of (T := ⟨S_, .f32⟩) main_call3_cst) (TRef.of (T := ⟨S32x32768x9, .f32⟩) main_call3_v14) (broadcastInDim S32x32768x9 ![] bcast_S_S32x32768x9),
    TRef.ternary (TRef.of (T := ⟨S32x32768x9, .i1⟩) main_call3_v13) (TRef.of (T := ⟨S32x32768x9, .f32⟩) main_call3_v12) (TRef.of (T := ⟨S32x32768x9, .f32⟩) main_call3_v14) (TRef.of (T := ⟨S32x32768x9, .f32⟩) main_v67) select ]

/-- Operations 101 to 107: the destination look-up's wrapped index. -/
abbrev opsA4 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S32x32768x1, .i32⟩) main_call4_v0) (broadcastInDim S32x32768x1 ![] bcast_S_S32x32768x1),
    TRef.binary (TRef.of (T := ⟨S32x32768x1, .i32⟩) main_v66) (TRef.of (T := ⟨S32x32768x1, .i32⟩) main_call4_v0) (TRef.of (T := ⟨S32x32768x1, .i1⟩) main_call4_v1) (cmpi .slt),
    TRef.nullary (TRef.of (T := ⟨S_, .i32⟩) main_call4_c_0) (constantI S_ 32 512#32),
    TRef.unary (TRef.of (T := ⟨S_, .i32⟩) main_call4_c_0) (TRef.of (T := ⟨S32x32768x1, .i32⟩) main_call4_v2) (broadcastInDim S32x32768x1 ![] bcast_S_S32x32768x1),
    TRef.binary (TRef.of (T := ⟨S32x32768x1, .i32⟩) main_v66) (TRef.of (T := ⟨S32x32768x1, .i32⟩) main_call4_v2) (TRef.of (T := ⟨S32x32768x1, .i32⟩) main_call4_v3) addi,
    TRef.ternary (TRef.of (T := ⟨S32x32768x1, .i1⟩) main_call4_v1) (TRef.of (T := ⟨S32x32768x1, .i32⟩) main_call4_v3) (TRef.of (T := ⟨S32x32768x1, .i32⟩) main_v66) (TRef.of (T := ⟨S32x32768x1, .i32⟩) main_call4_v4) select ]

/-- Operations 108 to 117: the destination look-up's range mask. -/
abbrev opsB4 : List (HloOp τ sig (Elt F)) :=
  [ TRef.nullary (TRef.of (T := ⟨S1, .i32⟩) main_call4_c_1) (constantI S1 32 511#32),
    TRef.nullary (TRef.of (T := ⟨S_, .i32⟩) main_call4_c_2) (constantI S_ 32 0#32),
    TRef.unary (TRef.of (T := ⟨S_, .i32⟩) main_call4_c_2) (TRef.of (T := ⟨S32x32768x1, .i32⟩) main_call4_v5) (broadcastInDim S32x32768x1 ![] bcast_S_S32x32768x1),
    TRef.binary (TRef.of (T := ⟨S32x32768x1, .i32⟩) main_call4_v4) (TRef.of (T := ⟨S32x32768x1, .i32⟩) main_call4_v5) (TRef.of (T := ⟨S32x32768x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S32x32768x1, .i32⟩) main_call4_v8) (broadcastInDim S32x32768x1 ![0, 1, 2] bcast_S1x1x1_S32x32768x1_0_1_2),
    TRef.binary (TRef.of (T := ⟨S32x32768x1, .i32⟩) main_call4_v4) (TRef.of (T := ⟨S32x32768x1, .i32⟩) main_call4_v8) (TRef.of (T := ⟨S32x32768x1, .i1⟩) main_call4_v9) (cmpi .sle),
    TRef.binary (TRef.of (T := ⟨S32x32768x1, .i1⟩) main_call4_v6) (TRef.of (T := ⟨S32x32768x1, .i1⟩) main_call4_v9) (TRef.of (T := ⟨S32x32768x1, .i1⟩) main_call4_v10) andi,
    TRef.nullary (TRef.of (T := ⟨S_, .i1⟩) main_call4_c_3) (constantI S_ 1 1#1),
    TRef.binary (TRef.of (T := ⟨S32x32768x1, .i1⟩) main_call4_v10) (TRef.of (T := ⟨S_, .i1⟩) main_call4_c_3) (TRef.of (T := ⟨S32x32768, .i1⟩) main_call4_v11) (fun x v => Host.reduce IntOp.andi x v reducesTo_S32x32768x1_S32x32768_d2 h_S_) ]

/-- Operations 118 to 122: the destination look-up's gather and masked select. -/
abbrev opsC4 : List (HloOp τ sig (Elt F)) :=
  [ TRef.binary (TRef.of (T := ⟨S32x512x9, .f32⟩) main_v60) (TRef.of (T := ⟨S32x32768x1, .i32⟩) main_call4_v4) (TRef.of (T := ⟨S32x32768x9, .f32⟩) main_call4_v12) (fun x i => Host.gather gather_S32x512x9_S32x32768x1_S32x32768x9_2_1_0_0_1_2_119 x i),
    TRef.unary (TRef.of (T := ⟨S32x32768, .i1⟩) main_call4_v11) (TRef.of (T := ⟨S32x32768x9, .i1⟩) main_call4_v13) (broadcastInDim S32x32768x9 ![0, 1] bcast_S32x32768_S32x32768x9_0_1),
    TRef.nullary (TRef.of (T := ⟨S_, .f32⟩) main_call4_cst) (constant S_ .f32 0x7FC00000#32),
    TRef.unary (TRef.of (T := ⟨S_, .f32⟩) main_call4_cst) (TRef.of (T := ⟨S32x32768x9, .f32⟩) main_call4_v14) (broadcastInDim S32x32768x9 ![] bcast_S_S32x32768x9),
    TRef.ternary (TRef.of (T := ⟨S32x32768x9, .i1⟩) main_call4_v13) (TRef.of (T := ⟨S32x32768x9, .f32⟩) main_call4_v12) (TRef.of (T := ⟨S32x32768x9, .f32⟩) main_call4_v14) (TRef.of (T := ⟨S32x32768x9, .f32⟩) main_v68) select ]

theorem ops2_split : (ops2 : List (HloOp τ sig (Elt F))) = opsS ++ (opsA3 ++ (opsB3 ++ (opsC3 ++ (opsA4 ++ (opsB4 ++ opsC4))))) := rfl

/-! ### The words -/

theorem chunkS_v63 (W : Valuation τ sig (Elt F)) (x4 : (⟨S32x2x32768, .i32⟩ : BufTy).Contents (Elt F)) (h4 : W (Proc.devRef .tc main_arg4) = x4) : after opsS W (Proc.devRef .tc main_v63) = val_main_v63 (F := F) x4 := by
  read_back
  rw [h4]
  rfl

theorem chunkS_v66 (W : Valuation τ sig (Elt F)) (x4 : (⟨S32x2x32768, .i32⟩ : BufTy).Contents (Elt F)) (h4 : W (Proc.devRef .tc main_arg4) = x4) : after opsS W (Proc.devRef .tc main_v66) = val_main_v66 (F := F) x4 := by
  read_back
  rw [h4]
  rfl

/-! ### The source look-up -/

set_option maxRecDepth 16384 in
theorem chunkA3 (W : Valuation τ sig (Elt F)) (x4 : (⟨S32x2x32768, .i32⟩ : BufTy).Contents (Elt F)) (h : W (Proc.devRef .tc main_v63) = val_main_v63 (F := F) x4) :
    after opsA3 W (Proc.devRef .tc main_call3_v4) = val_main_call3_v4 (F := F) x4 := by
  read_back
  try simp only [TRef.ofBuf, TRef.toBuf, cast_cast, cast_eq]
  rw [h]
  rfl

set_option maxRecDepth 16384 in
theorem chunkB3 (W : Valuation τ sig (Elt F)) (x4 : (⟨S32x2x32768, .i32⟩ : BufTy).Contents (Elt F)) (h : W (Proc.devRef .tc main_call3_v4) = val_main_call3_v4 (F := F) x4) :
    after opsB3 W (Proc.devRef .tc main_call3_v11) = val_main_call3_v11 (F := F) x4 := by
  read_back
  try simp only [TRef.ofBuf, TRef.toBuf, cast_cast, cast_eq]
  rw [h]
  rfl

set_option maxRecDepth 16384 in
theorem chunkC3 (W : Valuation τ sig (Elt F)) (x1 x2 : (⟨S32x512x4, .f32⟩ : BufTy).Contents (Elt F)) (x3 : (⟨S32x512, .f32⟩ : BufTy).Contents (Elt F)) (x4 : (⟨S32x2x32768, .i32⟩ : BufTy).Contents (Elt F))
    (h60 : W (Proc.devRef .tc main_v60) = val_main_v60 (F := F) x1 x2 x3) (h4 : W (Proc.devRef .tc main_call3_v4) = val_main_call3_v4 (F := F) x4)
    (h11 : W (Proc.devRef .tc main_call3_v11) = val_main_call3_v11 (F := F) x4) :
    after opsC3 W (Proc.devRef .tc main_v67) = val_main_v67 (F := F) x1 x2 x3 x4 := by
  read_back
  try simp only [TRef.ofBuf, TRef.toBuf, cast_cast, cast_eq]
  rw [h60, h4, h11]
  rfl

theorem keepB3_v4 (W : Valuation τ sig (Elt F)) : after opsB3 W (Proc.devRef .tc main_call3_v4) = W (Proc.devRef .tc main_call3_v4) := by
  read_back

/-! ### The destination look-up -/

set_option maxRecDepth 16384 in
theorem chunkA4 (W : Valuation τ sig (Elt F)) (x4 : (⟨S32x2x32768, .i32⟩ : BufTy).Contents (Elt F)) (h : W (Proc.devRef .tc main_v66) = val_main_v66 (F := F) x4) :
    after opsA4 W (Proc.devRef .tc main_call4_v4) = val_main_call4_v4 (F := F) x4 := by
  read_back
  try simp only [TRef.ofBuf, TRef.toBuf, cast_cast, cast_eq]
  rw [h]
  rfl

set_option maxRecDepth 16384 in
theorem chunkB4 (W : Valuation τ sig (Elt F)) (x4 : (⟨S32x2x32768, .i32⟩ : BufTy).Contents (Elt F)) (h : W (Proc.devRef .tc main_call4_v4) = val_main_call4_v4 (F := F) x4) :
    after opsB4 W (Proc.devRef .tc main_call4_v11) = val_main_call4_v11 (F := F) x4 := by
  read_back
  try simp only [TRef.ofBuf, TRef.toBuf, cast_cast, cast_eq]
  rw [h]
  rfl

set_option maxRecDepth 16384 in
theorem chunkC4 (W : Valuation τ sig (Elt F)) (x1 x2 : (⟨S32x512x4, .f32⟩ : BufTy).Contents (Elt F)) (x3 : (⟨S32x512, .f32⟩ : BufTy).Contents (Elt F)) (x4 : (⟨S32x2x32768, .i32⟩ : BufTy).Contents (Elt F))
    (h60 : W (Proc.devRef .tc main_v60) = val_main_v60 (F := F) x1 x2 x3) (h4 : W (Proc.devRef .tc main_call4_v4) = val_main_call4_v4 (F := F) x4)
    (h11 : W (Proc.devRef .tc main_call4_v11) = val_main_call4_v11 (F := F) x4) :
    after opsC4 W (Proc.devRef .tc main_v68) = val_main_v68 (F := F) x1 x2 x3 x4 := by
  read_back
  try simp only [TRef.ofBuf, TRef.toBuf, cast_cast, cast_eq]
  rw [h60, h4, h11]
  rfl

theorem keepB4_v4 (W : Valuation τ sig (Elt F)) : after opsB4 W (Proc.devRef .tc main_call4_v4) = W (Proc.devRef .tc main_call4_v4) := by
  read_back

/-! ### What the stretches leave alone -/

theorem keep60_3 (W : Valuation τ sig (Elt F)) : after opsB3 (after opsA3 (after opsS W)) (Proc.devRef .tc main_v60) = W (Proc.devRef .tc main_v60) := by
  read_back
theorem keep67_4 (W : Valuation τ sig (Elt F)) : after opsC4 (after opsB4 (after opsA4 W)) (Proc.devRef .tc main_v67) = W (Proc.devRef .tc main_v67) := by
  read_back
theorem keep66_3 (W : Valuation τ sig (Elt F)) : after opsC3 (after opsB3 (after opsA3 W)) (Proc.devRef .tc main_v66) = W (Proc.devRef .tc main_v66) := by
  read_back
theorem keep60_6 (W : Valuation τ sig (Elt F)) : after opsB4 (after opsA4 (after opsC3 (after opsB3 (after opsA3 (after opsS W))))) (Proc.devRef .tc main_v60) = W (Proc.devRef .tc main_v60) := by
  read_back

/-! ### The two gathered arrays -/

theorem mid_v67 (W : Valuation τ sig (Elt F)) (x1 x2 : (⟨S32x512x4, .f32⟩ : BufTy).Contents (Elt F)) (x3 : (⟨S32x512, .f32⟩ : BufTy).Contents (Elt F)) (x4 : (⟨S32x2x32768, .i32⟩ : BufTy).Contents (Elt F))
    (h60 : W (Proc.devRef .tc main_v60) = val_main_v60 (F := F) x1 x2 x3) (h4 : W (Proc.devRef .tc main_arg4) = x4) :
    after ops2 W (Proc.devRef .tc main_v67) = val_main_v67 (F := F) x1 x2 x3 x4 := by
  rw [ops2_split]
  simp only [after_app]
  have e63 := chunkS_v63 W x4 h4
  have eA := chunkA3 (after opsS W) x4 e63
  have k4 := (keepB3_v4 (after opsA3 (after opsS W))).trans eA
  have eB := chunkB3 (after opsA3 (after opsS W)) x4 eA
  have k60 := (keep60_3 W).trans h60
  have eC := chunkC3 (after opsB3 (after opsA3 (after opsS W))) x1 x2 x3 x4 k60 k4 eB
  exact (keep67_4 (after opsC3 (after opsB3 (after opsA3 (after opsS W))))).trans eC

theorem mid_v68 (W : Valuation τ sig (Elt F)) (x1 x2 : (⟨S32x512x4, .f32⟩ : BufTy).Contents (Elt F)) (x3 : (⟨S32x512, .f32⟩ : BufTy).Contents (Elt F)) (x4 : (⟨S32x2x32768, .i32⟩ : BufTy).Contents (Elt F))
    (h60 : W (Proc.devRef .tc main_v60) = val_main_v60 (F := F) x1 x2 x3) (h4 : W (Proc.devRef .tc main_arg4) = x4) :
    after ops2 W (Proc.devRef .tc main_v68) = val_main_v68 (F := F) x1 x2 x3 x4 := by
  rw [ops2_split]
  simp only [after_app]
  have e66 := chunkS_v66 W x4 h4
  have k66 := (keep66_3 (after opsS W)).trans e66
  have eA := chunkA4 (after opsC3 (after opsB3 (after opsA3 (after opsS W)))) x4 k66
  have k4 := (keepB4_v4 (after opsA4 (after opsC3 (after opsB3 (after opsA3 (after opsS W)))))).trans eA
  have eB := chunkB4 (after opsA4 (after opsC3 (after opsB3 (after opsA3 (after opsS W))))) x4 eA
  have k60 := (keep60_6 W).trans h60
  exact chunkC4 (after opsB4 (after opsA4 (after opsC3 (after opsB3 (after opsA3 (after opsS W)))))) x1 x2 x3 x4 k60 k4 eB

/-! ### The arguments -/

set_option maxRecDepth 8192 in
theorem mid_arg21 (W : Valuation τ sig (Elt F)) : after ops2 W (Proc.devRef .tc main_arg21) = W (Proc.devRef .tc main_arg21) := by
  read_back

set_option maxRecDepth 8192 in
theorem mid_arg22 (W : Valuation τ sig (Elt F)) : after ops2 W (Proc.devRef .tc main_arg22) = W (Proc.devRef .tc main_arg22) := by
  read_back

set_option maxRecDepth 8192 in
theorem mid_arg23 (W : Valuation τ sig (Elt F)) : after ops2 W (Proc.devRef .tc main_arg23) = W (Proc.devRef .tc main_arg23) := by
  read_back

set_option maxRecDepth 8192 in
theorem mid_arg24 (W : Valuation τ sig (Elt F)) : after ops2 W (Proc.devRef .tc main_arg24) = W (Proc.devRef .tc main_arg24) := by
  read_back

set_option maxRecDepth 8192 in
theorem mid_arg25 (W : Valuation τ sig (Elt F)) : after ops2 W (Proc.devRef .tc main_arg25) = W (Proc.devRef .tc main_arg25) := by
  read_back

set_option maxRecDepth 8192 in
theorem mid_arg26 (W : Valuation τ sig (Elt F)) : after ops2 W (Proc.devRef .tc main_arg26) = W (Proc.devRef .tc main_arg26) := by
  read_back

end Cert.ReferenceIdeal.Chunks

end
-- ==== Proof.RefChunksTail.lean ====
/-
  The reference's last 28 host operations, read back from any buffer contents that hold the two looked-up arrays at
  their stages: side by side, three dense layers with the positive part, the sigmoid — the second result's stage function.
-/
import proofs.«419047_j46299747451450_1_alg».proof.Proof.RefChunksOps

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The third stretch -/

set_option maxRecDepth 16384 in
set_option maxHeartbeats 4000000 in
theorem tail_v90 (W : Valuation τ sig (Elt F)) (x1 x2 : (⟨S32x512x4, .f32⟩ : BufTy).Contents (Elt F)) (x3 : (⟨S32x512, .f32⟩ : BufTy).Contents (Elt F))
    (x4 : (⟨S32x2x32768, .i32⟩ : BufTy).Contents (Elt F)) (x21 : (⟨S18x64, .f32⟩ : BufTy).Contents (Elt F)) (x22 : (⟨S64, .f32⟩ : BufTy).Contents (Elt F))
    (x23 : (⟨S64x64, .f32⟩ : BufTy).Contents (Elt F)) (x24 : (⟨S64, .f32⟩ : BufTy).Contents (Elt F)) (x25 : (⟨S64x10, .f32⟩ : BufTy).Contents (Elt F))
    (x26 : (⟨S10, .f32⟩ : BufTy).Contents (Elt F))
    (h67 : W (Proc.devRef .tc main_v67) = val_main_v67 (F := F) x1 x2 x3 x4) (h68 : W (Proc.devRef .tc main_v68) = val_main_v68 (F := F) x1 x2 x3 x4)
    (h21 : W (Proc.devRef .tc main_arg21) = x21) (h22 : W (Proc.devRef .tc main_arg22) = x22) (h23 : W (Proc.devRef .tc main_arg23) = x23)
    (h24 : W (Proc.devRef .tc main_arg24) = x24) (h25 : W (Proc.devRef .tc main_arg25) = x25) (h26 : W (Proc.devRef .tc main_arg26) = x26) :
    after ops3 W (Proc.devRef .tc main_v90) = val_main_v90 (F := F) x1 x2 x3 x4 x21 x22 x23 x24 x25 x26 := by
  read_back
  try simp only [TRef.ofBuf, TRef.toBuf, cast_cast, cast_eq]
  rw [h67, h68, h21, h22, h23, h24, h25, h26]
  rfl

end Cert.ReferenceIdeal.Chunks

end
-- ==== Proof.RefChunks.lean ====
/-
  The reference's second result read back through all 150 host operations: the three stretches in a row.
-/
import proofs.«419047_j46299747451450_1_alg».proof.Proof.RefChunksHead
import proofs.«419047_j46299747451450_1_alg».proof.Proof.RefChunksMid
import proofs.«419047_j46299747451450_1_alg».proof.Proof.RefChunksTail

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The whole list -/

/-- After all 150 operations the second result's buffer holds its stage function at the arguments. -/
theorem ref_v90 (V : Valuation τ sig (Elt F)) :
    after (ops (F := F)) V (Proc.devRef .tc main_v90)
      = val_main_v90 (F := F) (V (Proc.devRef .tc main_arg1)) (V (Proc.devRef .tc main_arg2)) (V (Proc.devRef .tc main_arg3)) (V (Proc.devRef .tc main_arg4)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  rw [ops_split, after_app, after_app]
  exact tail_v90 _ _ _ _ _ _ _ _ _ _ _
    (mid_v67 _ _ _ _ _ (head_v60 V) (head_arg4 V))
    (mid_v68 _ _ _ _ _ (head_v60 V) (head_arg4 V))
    ((mid_arg21 _).trans (head_arg21 V)) ((mid_arg22 _).trans (head_arg22 V)) ((mid_arg23 _).trans (head_arg23 V)) ((mid_arg24 _).trans (head_arg24 V)) ((mid_arg25 _).trans (head_arg25 V)) ((mid_arg26 _).trans (head_arg26 V))

end Cert.ReferenceIdeal.Chunks

end
-- ==== Proof.NodeRefForm.lean ====
/-
  The host's spelling of the node network.

  The reference program computes the node network on all 16384 feature rows at once: the feature array read as
  16384 rows, each dense layer a contraction plus a bias that is broadcast first along axis 1 of a one-row matrix and
  then down the rows, each batch normalisation with its per-column parameters broadcast the same way and the
  reciprocal square root taken of the variance plus a broadcast ε, the positive part a maximum with a broadcast zero,
  and the sigmoid written out as one over one plus the exponential of the negation. Read entry by entry at the
  extended reals, that is the node network applied to the 16384 rows, in the same association, and the result is
  read back as [32, 512, 8].
-/
import proofs.«419047_j46299747451450_1_alg».proof.Proof.NetOut
import proofs.«419047_j46299747451450_1_alg».proof.Proof.RefRead
import Idealize.ShloMosaic.Lib.IdealHost

noncomputable section

open scoped BigOperators

namespace NetSpec

open Idealize.ShloMosaic Idealize.ShloMosaic.ValueIdx DenseRows

/-! ## The host's spelling of each stage -/

/-- A dense layer on the host: the contraction, the bias broadcast along axis 1 of a one-row matrix and that row
    broadcast down the rows. -/
theorem nref_dense_host_form {m k n : Nat} (X : Mat m k) (W : Mat k n) (b : Col n)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral (DotDims.plain m k n) none X W)
        (broadcastInDim (⟨2, ![m, n]⟩ : Shape) ![0, 1] h2 (broadcastInDim (⟨2, ![1, n]⟩ : Shape) ![1] h1 b))
      = addRow (mm X W) (asRow b) := by
  rw [dotGeneral_plain_eq_mm, broadcastInDim_asRow, bias_host_form]

/-- The batch normalisation on the host: each per-column parameter broadcast to one row and down the rows, the
    reciprocal square root taken of the variance plus the broadcast ε before its two broadcasts. -/
theorem nref_bn_host_form {m n : Nat} (Z : Mat m n) (g b rm rv : Col n)
    (h0 : (⟨0, ![]⟩ : Shape).BroadcastsInDim ⟨1, ![n]⟩ ![])
    (h1 : (⟨1, ![n]⟩ : Shape).BroadcastsInDim ⟨2, ![1, n]⟩ ![1])
    (h2 : (⟨2, ![1, n]⟩ : Shape).BroadcastsInDim ⟨2, ![m, n]⟩ ![0, 1]) :
    addf
        (mulf
          (mulf (broadcastInDim (⟨2, ![m, n]⟩ : Shape) ![0, 1] h2 (broadcastInDim (⟨2, ![1, n]⟩ : Shape) ![1] h1 g))
            (subf Z (broadcastInDim (⟨2, ![m, n]⟩ : Shape) ![0, 1] h2 (broadcastInDim (⟨2, ![1, n]⟩ : Shape) ![1] h1 rm))))
          (broadcastInDim (⟨2, ![m, n]⟩ : Shape) ![0, 1] h2
            (broadcastInDim (⟨2, ![1, n]⟩ : Shape) ![1] h1
              (Host.rsqrt (addf rv (broadcastInDim (⟨1, ![n]⟩ : Shape) ![] h0
                (constant (F := Ideal) (⟨0, ![]⟩ : Shape) .f32 0x3727C5AC#32)))))))
        (broadcastInDim (⟨2, ![m, n]⟩ : Shape) ![0, 1] h2 (broadcastInDim (⟨2, ![1, n]⟩ : Shape) ![1] h1 b))
      = bnRows Z g b rm rv := by
  rw [broadcastInDim_asRow, broadcastInDim_asRow, broadcastInDim_asRow, broadcastInDim_asRow]
  funext i
  obtain ⟨p, q, rfl⟩ : ∃ (p : Fin m) (q : Fin n), i = ix2 p q := ⟨i 0, i 1, eq_ix2 i⟩
  show broadcastInDim (⟨2, ![m, n]⟩ : Shape) ![0, 1] h2 (asRow g) (ix2 p q)
        * (Z (ix2 p q) - broadcastInDim (⟨2, ![m, n]⟩ : Shape) ![0, 1] h2 (asRow rm) (ix2 p q))
        * broadcastInDim (⟨2, ![m, n]⟩ : Shape) ![0, 1] h2
            (asRow (Host.rsqrt (addf rv (broadcastInDim (⟨1, ![n]⟩ : Shape) ![] h0
              (constant (F := Ideal) (⟨0, ![]⟩ : Shape) .f32 0x3727C5AC#32))))) (ix2 p q)
        + broadcastInDim (⟨2, ![m, n]⟩ : Shape) ![0, 1] h2 (asRow b) (ix2 p q)
      = g (ix1 q) * (Z (ix2 p q) - rm (ix1 q)) * Ideal.rsqrt (rv (ix1 q) + bnEps) + b (ix1 q)
  rw [broadcastInDim_oneRow_apply, broadcastInDim_oneRow_apply, broadcastInDim_oneRow_apply, broadcastInDim_oneRow_apply]
  rfl

/-- The host's sigmoid, one over one plus the exponential of the negation with both ones broadcast constants, is the
    logistic function entry by entry. -/
theorem nref_sigm_host_form {m n : Nat} (Z : Mat m n) (hb : (⟨0, ![]⟩ : Shape).BroadcastsInDim ⟨2, ![m, n]⟩ ![]) :
    Host.divf (broadcastInDim (⟨2, ![m, n]⟩ : Shape) ![] hb (constant (F := Ideal) (⟨0, ![]⟩ : Shape) .f32 0x3F800000#32))
        (addf (broadcastInDim (⟨2, ![m, n]⟩ : Shape) ![] hb (constant (F := Ideal) (⟨0, ![]⟩ : Shape) .f32 0x3F800000#32))
          (Host.exp (Host.negf Z)))
      = sigm Z := by
  funext i
  show Ideal.div (Ideal.ofBits .f32 0x3F800000#32) (Ideal.ofBits .f32 0x3F800000#32 + Ideal.exp (-(Z i)))
    = Ideal.logistic (Z i)
  rw [Ideal.ofBits_one_f32]
  rfl

/-! ## The printed shape records are the plain m × k by k × n products -/

theorem nref_dot1_plain :
    Cert.ReferenceIdeal.dot_S16384x1024_S1024x512_S16384x512_1_0_0_1_n_n = DotDims.plain 16384 1024 512 := rfl
theorem nref_dot2_plain :
    Cert.ReferenceIdeal.dot_S16384x512_S512x256_S16384x256_1_0_0_1_n_n = DotDims.plain 16384 512 256 := rfl
theorem nref_dot3_plain :
    Cert.ReferenceIdeal.dot_S16384x256_S256x128_S16384x128_1_0_0_1_n_n = DotDims.plain 16384 256 128 := rfl
theorem nref_dot4_plain :
    Cert.ReferenceIdeal.dot_S16384x128_S128x8_S16384x8_1_0_0_1_n_n = DotDims.plain 16384 128 8 := rfl

/-! ## The reference's first result is the node network on all the rows -/

/-- The reference program's first result, as a function of the feature array and the parameters, is the node network
    applied to the 16384 feature rows and read back as [32, 512, 8]. -/
theorem node_ref_form (h1 : (⟨3, ![32, 512, 1024]⟩ : Shape).ShapeCasts ⟨2, ![16384, 1024]⟩)
    (h2 : (⟨2, ![16384, 8]⟩ : Shape).ShapeCasts ⟨3, ![32, 512, 8]⟩)
    (a0 : FVec Ideal (⟨3, ![32, 512, 1024]⟩ : Shape) .f32) (a5 : Mat 1024 512) (a6 a7 a8 a9 a10 : Col 512)
    (a11 : Mat 512 256) (a12 a13 a14 a15 a16 : Col 256) (a17 : Mat 256 128) (a18 : Col 128) (a19 : Mat 128 8)
    (a20 : Col 8) :
    Cert.ReferenceIdeal.ReadP.val_main_v56 (F := Ideal) a0 a5 a6 a7 a8 a9 a10 a11 a12 a13 a14 a15 a16 a17 a18 a19 a20
      = nodeOut h1 h2 a0 a5 a6 a7 a8 a9 a10 a11 a12 a13 a14 a15 a16 a17 a18 a19 a20 := by
  refine (Cert.ReferenceIdeal.ReadP.val_main_v56_eq (F := Ideal)
    a0 a5 a6 a7 a8 a9 a10 a11 a12 a13 a14 a15 a16 a17 a18 a19 a20).symm.trans ?_
  unfold nodeOut nodeFn
  rw [nref_dot1_plain, nref_dot2_plain, nref_dot3_plain, nref_dot4_plain]
  rw [nref_dense_host_form, nref_bn_host_form, relu_host_form, nref_dense_host_form, nref_bn_host_form, relu_host_form,
    nref_dense_host_form, relu_host_form, nref_dense_host_form, nref_sigm_host_form]

end NetSpec

end
-- ==== Proof.LibGather3.lean ====
/-
  The row gather whose start indices are an [e1 × e2 × 1] array, read at one element, with the two layout
  operations that go with it.

  The gather has the index vector on axis 2 of the start indices, one component, sent to operand axis 0,
  that axis collapsed, and result axis 2 an offset axis of full width.  Result element (p, q, c) reads its
  one start-index component at (p, q, 0), as a signed integer clamped into the operand; when the integer
  is a row number k < n the clamp does nothing and the element is the operand's (k, c).

  An [e1 × e2] array of index words becomes the [e1 × e2 × 1] array of start indices by a broadcast along a
  new last unit axis: the word at (p, q, 0) is the word at (p, q).  The [e1 × e2 × f] result becomes a matrix
  of e1·e2 rows by a reshape: row p·e2 + q of the matrix is the result's row (p, q).

  Each statement takes the dimension numbers' fields as hypotheses, so it applies to any record with those
  fields.
-/
import Idealize.ShloMosaic.PureOps.Ideal
import Idealize.ShloMosaic.Lib.ValueIdx
import Idealize.ShloMosaic.Lib.Pipeline.Value

noncomputable section

namespace Cert.Gcn.Gather3

open Idealize.ShloMosaic Idealize.ShloMosaic.ValueIdx

/-! ## Axes and coordinates of a rank-3 index -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A coordinate of a rank-3 index on the axis numbered 0 is its first coordinate. -/
theorem coord3_of_val0 {a b c : ℕ} (j : (⟨3, ![a, b, c]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {a b c : ℕ} (j : (⟨3, ![a, b, c]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {a b c : ℕ} (j : (⟨3, ![a, b, c]⟩ : Shape).Idx) (X : Fin 3) (hX : X.val = 2) :
    (j X).val = (j 2).val := by
  have : X = 2 := Fin.ext hX
  subst this; rfl

/-- The list of the first two of three axes holds axis i at place i. -/
theorem getElem_01 (l : List (Fin 3)) (hl : l = [0, 1]) (i : ℕ) (hi : i < l.length) : (l[i]).val = i := by
  subst hl
  match i, hi with
  | 0, _ => rfl
  | 1, _ => rfl

/-! ## The start-index position -/

/-- Result element (p, q, c) reads its one start-index component at (p, q, 0). -/
theorem gather3_siIdx {s : Shape} {e1 e2 f : ℕ} (d : GatherDims s ⟨3, ![e1, e2, 1]⟩ ⟨3, ![e1, e2, f]⟩)
    (hod : d.offsetDims = [2]) (hivd : d.indexVectorDim = 2) (j : (⟨3, ![e1, e2, f]⟩ : Shape).Idx)
    (c : Fin d.startIndexMap.length) :
    d.siIdx j c = ix3 (n0 := e1) (n1 := e2) (n2 := 1) (j 0) (j 1) 0 := by
  have hbd : (d.batchDims : List (Fin 3)) = [0, 1] := by
    show (List.finRange 3).filter (fun x => decide (x ∉ d.offsetDims)) = _
    rw [hod]; rfl
  have hsk : (d.siKept : List (Fin 3)) = [0, 1] := by
    show (List.finRange 3).filter (fun x => decide (x.val ≠ d.indexVectorDim)) = _
    rw [hivd]; rfl
  funext b
  match b with
  | ⟨0, h0⟩ =>
    unfold GatherDims.siIdx
    rw [dif_neg (by rw [hivd]; simp)]
    unfold GatherDims.siCoord
    apply Fin.ext
    simp only [Fin.val_cast]
    refine coord3_of_val0 j _ ?_
    rw [getElem_01 _ hbd]
    show List.idxOf (⟨0, h0⟩ : Fin 3) (d.siKept : List (Fin 3)) = 0
    rw [hsk]; rfl
  | ⟨1, h1⟩ =>
    unfold GatherDims.siIdx
    rw [dif_neg (by rw [hivd]; simp)]
    unfold GatherDims.siCoord
    apply Fin.ext
    simp only [Fin.val_cast]
    refine coord3_of_val1 j _ ?_
    rw [getElem_01 _ hbd]
    show List.idxOf (⟨1, h1⟩ : Fin 3) (d.siKept : List (Fin 3)) = 1
    rw [hsk]; rfl
  | ⟨2, h2⟩ =>
    apply Fin.ext
    have hlt := (d.siIdx j c ⟨2, h2⟩).isLt
    have h3 : (⟨3, ![e1, e2, 1]⟩ : Shape).size ⟨2, h2⟩ = 1 := rfl
    show (d.siIdx j c ⟨2, h2⟩).val = 0
    omega

/-! ## The gather read at an element -/

/-- [n × f] operand, [e1 × e2 × 1] start indices, [e1 × e2 × f] result, the last result axis an offset axis
    of full width: when the index word at (p, q, 0), read signed, is a row k < n, result element (p, q, c) is
    the operand's element (k, c). -/
theorem gather3_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (j : (⟨3, ![e1, e2, f]⟩ : Shape).Idx)
    (k : ℕ) (hk : k < n) (hidx : (idx (ix3 (j 0) (j 1) (0 : Fin 1))).toInt = (k : Int)) :
    Host.gather d x idx j = x (ix2 ⟨k, hk⟩ ⟨(j 2).val, (j 2).isLt⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 2).val, (j 2).isLt⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 2).val
    have hall : ∀ x ∈ d.offsetDims, x.val = 2 := by rw [hod]; simp
    rw [coord3_of_val2 j _ (hall _ (List.getElem_mem _))]
    omega

/-- The same, by coordinates. -/
theorem gather3_ix_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (p : Fin e1) (q : Fin e2) (c : Fin f)
    (k : ℕ) (hk : k < n) (hidx : (idx (ix3 p q (0 : Fin 1))).toInt = (k : Int)) :
    Host.gather d x idx (ix3 p q c) = x (ix2 ⟨k, hk⟩ c) :=
  gather3_apply d hod hcoll hob hsim hivd x idx (ix3 p q c) k hk hidx

/-! ## The start indices from a matrix of words, and the result as a matrix of rows -/

variable {α : Type}

/-- A matrix given a new last unit axis by a broadcast reads, at (p, q, 0), the matrix at (p, q). -/
theorem broadcastInDim_ab_ab1_apply {a b : ℕ}
    (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) :=
  broadcastInDim_apply ![0, 1] h x _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl)

/-- An [a × b × c] array reshaped to a matrix of m rows reads, at (r, k) with r = p·b + q, the array at
    (p, q, k). -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (p : Fin a) (q : Fin b)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

end Cert.Gcn.Gather3

end
-- ==== Proof.EdgeRefGather.lean ====
/-
  The row gather over a stack of tables, read at one element.

  The operand is a stack of B tables of n rows and f columns, the start indices a [B × e × 1] array of words, the
  result [B × e × f].  Axis 0 of the operand and axis 0 of the start indices are batching axes, the one component of
  the start index names operand axis 1, which is collapsed, and result axis 2 is an offset axis of full width.  Result
  element (b, q, c) reads its start-index component at (b, q, 0) as a signed integer clamped into the table; when
  the integer is a row number k < n the clamp does nothing and the element is the operand's (b, k, c).

  The statement takes the dimension numbers' fields as hypotheses, so it applies to any record with those fields.
-/
import proofs.«419047_j46299747451450_1_alg».proof.Proof.LibGather3

noncomputable section

namespace NetSpec

open Idealize.ShloMosaic Idealize.ShloMosaic.ValueIdx Cert.Gcn.Gather3

/-- A position on an axis of three places is the first, the second or the third. -/
theorem eref_fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- The coordinate a result index gives the start indices' axis 0 is its own first coordinate. -/
theorem eref_siCoord_axis0 {s : Shape} {e1 e2 f : ℕ} (d : GatherDims s ⟨3, ![e1, e2, 1]⟩ ⟨3, ![e1, e2, f]⟩)
    (hod : d.offsetDims = [2]) (hivd : d.indexVectorDim = 2) (j : (⟨3, ![e1, e2, f]⟩ : Shape).Idx)
    (b : Fin 3) (hb : b ∈ d.siKept) (h0 : b.val = 0) : (d.siCoord j b hb).val = (j 0).val := by
  have hbd : (d.batchDims : List (Fin 3)) = [0, 1] := by
    show (List.finRange 3).filter (fun x => decide (x ∉ d.offsetDims)) = _
    rw [hod]; rfl
  have hsk : (d.siKept : List (Fin 3)) = [0, 1] := by
    show (List.finRange 3).filter (fun x => decide (x.val ≠ d.indexVectorDim)) = _
    rw [hivd]; rfl
  have hb0 : b = 0 := Fin.ext h0
  subst hb0
  unfold GatherDims.siCoord
  simp only [Fin.val_cast]
  refine coord3_of_val0 j _ ?_
  rw [getElem_01 _ hbd]
  show List.idxOf (0 : Fin 3) (d.siKept : List (Fin 3)) = 0
  rw [hsk]; rfl

/-- [B × n × f] operand, [B × e × 1] start indices, [B × e × f] result, axis 0 a batching axis on both sides: when the
    index word at (b, q, 0), read signed, is a row k < n, result element (b, q, c) is the operand's (b, k, c). -/
theorem eref_gatherB_apply {α : Type} {B n f e w : ℕ}
    (d : GatherDims ⟨3, ![B, n, f]⟩ ⟨3, ![B, e, 1]⟩ ⟨3, ![B, e, f]⟩)
    (hod : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, n, f]⟩ : Shape).Idx → α) (idx : IVec ⟨3, ![B, e, 1]⟩ w) (j : (⟨3, ![B, e, f]⟩ : Shape).Idx)
    (k : ℕ) (hk : k < n) (hidx : (idx (ix3 (j 0) (j 1) (0 : Fin 1))).toInt = (k : Int)) :
    Host.gather d x idx j
      = x (ix3 (⟨(j 0).val, (j 0).isLt⟩ : Fin B) (⟨k, hk⟩ : Fin n) (⟨(j 2).val, (j 2).isLt⟩ : Fin f)) := by
  unfold Host.gather
  congr 1
  funext a
  apply Fin.ext
  show d.start j idx a + d.batchCoord j a + d.offCoord j a
    = (ix3 (⟨(j 0).val, (j 0).isLt⟩ : Fin B) (⟨k, hk⟩ : Fin n) (⟨(j 2).val, (j 2).isLt⟩ : Fin f) a).val
  rcases eref_fin3_cases a with rfl | rfl | rfl
  · -- the batching axis
    have hmem : (0 : Fin 3) ∈ d.operandBatchingDims := by rw [hob]; exact List.mem_singleton.mpr rfl
    have hkp : (0 : Fin 3) ∉ d.sKept := by rw [GatherDims.mem_sKept, hob]; simp
    rw [GatherDims.start_batching _ _ _ _ hmem, GatherDims.offCoord_eq_zero _ _ _ hkp]
    unfold GatherDims.batchCoord
    rw [dif_pos hmem]
    have hall : ∀ y ∈ d.startIndicesBatchingDims, y.val = 0 := by rw [hsb]; simp
    show 0 + (d.siCoord j _ _).val + 0 = (j 0).val
    rw [eref_siCoord_axis0 d hod hivd j _ _ (hall _ (List.getElem_mem _))]
    omega
  · -- the indexed, collapsed axis
    have hnb : (1 : Fin 3) ∉ d.operandBatchingDims := by rw [hob]; simp
    have hkp : (1 : Fin 3) ∉ d.sKept := by rw [GatherDims.mem_sKept, hcoll]; simp
    have hm : (1 : Fin 3) ∈ d.startIndexMap := by rw [hsim]; exact List.mem_singleton.mpr rfl
    have hsl : d.sliceSizes 1 = 1 := d.slice_collapsed 1 (by rw [hcoll]; exact List.mem_singleton.mpr rfl)
    rw [GatherDims.batchCoord_eq_zero _ _ _ hnb, GatherDims.offCoord_eq_zero _ _ _ hkp]
    unfold GatherDims.start
    rw [dif_pos hm, gather3_siIdx d hod hivd, hidx, hsl]
    show min (k : Int).toNat (n - 1) + 0 + 0 = k
    omega
  · -- the offset axis
    have hnb : (2 : Fin 3) ∉ d.operandBatchingDims := by rw [hob]; simp
    have hkp : (2 : Fin 3) ∈ d.sKept := by rw [GatherDims.mem_sKept, hcoll, hob]; simp
    have hm : (2 : Fin 3) ∉ d.startIndexMap := by rw [hsim]; simp
    rw [GatherDims.batchCoord_eq_zero _ _ _ hnb]
    unfold GatherDims.start GatherDims.offCoord
    rw [dif_neg hm, dif_pos hkp]
    show 0 + 0 + (j _).val = (j 2).val
    have hall : ∀ y ∈ d.offsetDims, y.val = 2 := by rw [hod]; simp
    rw [coord3_of_val2 j _ (hall _ (List.getElem_mem _))]
    omega

/-- The same, by coordinates. -/
theorem eref_gatherB_ix_apply {α : Type} {B n f e w : ℕ}
    (d : GatherDims ⟨3, ![B, n, f]⟩ ⟨3, ![B, e, 1]⟩ ⟨3, ![B, e, f]⟩)
    (hod : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, n, f]⟩ : Shape).Idx → α) (idx : IVec ⟨3, ![B, e, 1]⟩ w) (b : Fin B) (q : Fin e) (c : Fin f)
    (k : ℕ) (hk : k < n) (hidx : (idx (ix3 b q (0 : Fin 1))).toInt = (k : Int)) :
    Host.gather d x idx (ix3 b q c) = x (ix3 b ⟨k, hk⟩ c) :=
  eref_gatherB_apply d hod hcoll hob hsb hsim hivd x idx (ix3 b q c) k hk hidx

end NetSpec

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.EdgeRefForm.lean ====
/-
  The reference's edge result is the edge network of every batch entry.

  The reference builds the node attributes [32, 512, 9], takes for every edge the attribute rows its source word and
  its destination word name (a lookup along the node axis: a word is normalised by adding 512 when negative, tested
  for the range 0 … 511, looked up by a gather batched over the first axis, and replaced by a not-a-number where the
  test fails), puts the two rows side by side, reads the [32, 32768, 18] array as 32 · 32768 rows, and takes them through
  two dense layers with the positive part and a head 1 / (1 + e^(−z)).

  Every index word being below 512, the normalisation leaves it alone and the range test holds everywhere, so the
  lookup at (b, e, c) is the attribute array at (b, word (b, e), c).  Row b · 32768 + e of the matrix of edge
  attributes is therefore row e of the two looked-up rows of batch entry b side by side, and the dense layers and the
  head, being row-local, give row e of the edge network of batch entry b.  Nothing here needs a finite value.
-/
import proofs.«419047_j46299747451450_1_alg».proof.Proof.RefRead
import proofs.«419047_j46299747451450_1_alg».proof.Proof.EdgeRefGather
import proofs.«419047_j46299747451450_1_alg».proof.Proof.LibWordArith
import proofs.«419047_j46299747451450_1_alg».proof.Proof.NetOut
import proofs.«419047_j46299747451450_1_alg».proof.Proof.KIHost

noncomputable section

open scoped BigOperators

namespace NetSpec

open Idealize.ShloMosaic Idealize.ShloMosaic.ValueIdx DenseRows Cert.Gcn.Gather3 Cert.Gcn.WordArith
open Cert.ReferenceIdeal Cert.ReferenceIdeal.ReadP

/-! ## Words below 512 -/

/-- The index normalisation (add 512 to a negative word) leaves a word below 512 alone. -/
theorem eref_norm_word {w : BitVec 32} (hw : w.toNat < 512) :
    Scalar.select (IntOp.cmpi .slt w 0#32) (IntOp.addi w 512#32) w = w :=
  select_slt_zero_small _ (by omega)

/-- The range test 0 ≤ w ≤ 511, both comparisons signed, holds of a word below 512. -/
theorem eref_mask_word {w : BitVec 32} (hw : w.toNat < 512) :
    IntOp.andi (IntOp.cmpi .sge w 0#32) (IntOp.cmpi .sle w 511#32) = 1#1 := by
  have h0 : (0#32 : BitVec 32).toNat = 0 := rfl
  have h511 : (511#32 : BitVec 32).toNat = 511 := rfl
  rw [sge_small (by omega) (by decide), sle_small (by omega) (by decide), h0, h511, if_pos (Nat.zero_le _),
    if_pos (by omega)]
  rfl

/-- The table row a word below 512 names is the word's value. -/
theorem eref_rowOf_small {w : BitVec 32} (hw : w.toNat < 512) : rowOf w = ⟨w.toNat, hw⟩ :=
  Fin.ext (Nat.mod_eq_of_lt hw)

/-- An and-fold of ones from one is one. -/
theorem eref_fold_andi_ones {ι : Type} (S : Finset ι) (f : ι → BitVec 1) (hf : ∀ k, f k = 1#1) :
    S.fold IntOp.andi 1#1 f = 1#1 := by
  classical
  induction S using Finset.induction_on with
  | empty => rfl
  | insert a s ha ih => rw [Finset.fold_insert ha, ih, hf]; rfl

/-- A reduce with an and body from one, over an array of ones, is one. -/
theorem eref_reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_fold, hi]
  exact eref_fold_andi_ones _ _ hx

/-! ## The network on a matrix of 18-column rows -/

/-- The two dense layers with the positive part and the sigmoid head, on a matrix of 18-column rows. -/
def eref_net18 {m : Nat} (G : Mat m 18) (W1 : Mat 18 64) (b1 : Col 64) (W2 : Mat 64 64) (b2 : Col 64)
    (Wi : Mat 64 10) (bi : Col 10) : Mat m 10 :=
  sigm (addRow (mm (relu (addRow (mm (relu (addRow (mm G W1) (asRow b1))) W2) (asRow b2))) Wi) (asRow bi))

/-- The edge network is that network on the two looked-up rows side by side. -/
theorem eref_edgeFn_eq_net18 {n : Nat} (A : Mat 512 9) (S D : WCol n) (W1 : Mat 18 64) (b1 : Col 64) (W2 : Mat 64 64)
    (b2 : Col 64) (Wi : Mat 64 10) (bi : Col 10) :
    edgeFn A S D W1 b1 W2 b2 Wi bi = eref_net18 (cat9 (gath A S) (gath A D)) W1 b1 W2 b2 Wi bi := rfl

/-- Row p of X being row P of G, row p of the network on X is row P of the network on G. -/
theorem eref_net18_rows {m M : Nat} (X : Mat m 18) (G : Mat M 18) (W1 : Mat 18 64) (b1 : Col 64) (W2 : Mat 64 64)
    (b2 : Col 64) (Wi : Mat 64 10) (bi : Col 10) (p : Fin m) (P : Fin M)
    (h : ∀ c, X (ix2 p c) = G (ix2 P c)) (q : Fin 10) :
    eref_net18 X W1 b1 W2 b2 Wi bi (ix2 p q) = eref_net18 G W1 b1 W2 b2 Wi bi (ix2 P q) := by
  show Ideal.logistic (addRow _ _ (ix2 p q)) = Ideal.logistic (addRow _ _ (ix2 P q))
  congr 1
  refine addRow_rows _ _ _ p P (fun c => ?_) q
  refine mm_rows _ _ _ p P (fun c => ?_) c
  refine relu_rows _ _ p P (fun c => ?_) c
  refine addRow_rows _ _ _ p P (fun c => ?_) c
  refine mm_rows _ _ _ p P (fun c => ?_) c
  refine relu_rows _ _ p P (fun c => ?_) c
  refine addRow_rows _ _ _ p P (fun c => ?_) c
  exact mm_rows _ _ _ p P h c

/-! ## The two halves of a row of 18 -/

theorem eref_cat9_left {n : Nat} (P Q : Mat n 9) (e : Fin n) (c : Fin 18) (h : c.val < 9) :
    cat9 P Q (ix2 e c) = P (ix2 e ⟨c.val, h⟩) := dif_pos h

theorem eref_cat9_right {n : Nat} (P Q : Mat n 9) (e : Fin n) (c : Fin 18) (h : ¬ c.val < 9) :
    cat9 P Q (ix2 e c) = Q (ix2 e ⟨c.val - 9, by have := c.isLt; omega⟩) := dif_neg h

/-- The word 0x3F800000 is the number one. -/
theorem eref_ofBits_one_f32 : Ideal.ofBits .f32 0x3F800000#32 = 1 := by
  simp [Ideal.ofBits, Ideal.ieee, -EReal.coe_mul]
  norm_num

/-! ## The reference's stages -/

section Ref

variable (a1 a2 : FVec Ideal S32x512x4 .f32) (a3 : FVec Ideal S32x512 .f32) (a4 : IVec S32x2x32768 32)
  (a21 : FVec Ideal S18x64 .f32) (a22 : FVec Ideal S64 .f32) (a23 : FVec Ideal S64x64 .f32) (a24 : FVec Ideal S64 .f32)
  (a25 : FVec Ideal S64x10 .f32) (a26 : FVec Ideal S10 .f32)

/-- The reference's node attributes are the kernel program's. -/
theorem eref_attr [Cert.KernelIdeal.Facts] :
    val_main_v60 (F := Ideal) a1 a2 a3 = Cert.KernelIdeal.attrK a1 a2 a3 := rfl

/-- The reference's source words are the kernel program's. -/
theorem eref_src [Cert.KernelIdeal.Facts] : val_main_v63 (F := Ideal) a4 = Cert.KernelIdeal.srcK a4 := rfl

/-- The reference's destination words are the kernel program's. -/
theorem eref_dst [Cert.KernelIdeal.Facts] : val_main_v66 (F := Ideal) a4 = Cert.KernelIdeal.dstK a4 := rfl

/-- Every source word is an entry of the index array, so below 512. -/
theorem eref_src_lt [Cert.KernelIdeal.Facts] (hidx : ∀ i, (a4 i).toNat < 512) (i : S32x32768x1.Idx) :
    (Cert.KernelIdeal.srcK a4 i).toNat < 512 := hidx _

/-- Every destination word is an entry of the index array, so below 512. -/
theorem eref_dst_lt [Cert.KernelIdeal.Facts] (hidx : ∀ i, (a4 i).toNat < 512) (i : S32x32768x1.Idx) :
    (Cert.KernelIdeal.dstK a4 i).toNat < 512 := hidx _

/-! ### The source lookup -/

/-- The normalised source word is the source word. -/
theorem eref_call3_v4 [Cert.KernelIdeal.Facts] (hidx : ∀ i, (a4 i).toNat < 512) (i : S32x32768x1.Idx) :
    val_main_call3_v4 (F := Ideal) a4 i = Cert.KernelIdeal.srcK a4 i := by
  show Scalar.select (IntOp.cmpi .slt (Cert.KernelIdeal.srcK a4 i) 0#32) (IntOp.addi (Cert.KernelIdeal.srcK a4 i) 512#32)
    (Cert.KernelIdeal.srcK a4 i) = _
  exact eref_norm_word (eref_src_lt a4 hidx i)

/-- The range test holds of every source word. -/
theorem eref_call3_v10 [Cert.KernelIdeal.Facts] (hidx : ∀ i, (a4 i).toNat < 512) (i : S32x32768x1.Idx) :
    val_main_call3_v10 (F := Ideal) a4 i = 1#1 := by
  show IntOp.andi (IntOp.cmpi .sge (val_main_call3_v4 (F := Ideal) a4 i) 0#32)
    (IntOp.cmpi .sle (val_main_call3_v4 (F := Ideal) a4 i) 511#32) = 1#1
  rw [eref_call3_v4 a4 hidx i]
  exact eref_mask_word (eref_src_lt a4 hidx i)

/-- So does its and-reduction over the unit axis. -/
theorem eref_call3_v11 [Cert.KernelIdeal.Facts] (hidx : ∀ i, (a4 i).toNat < 512) (j : S32x32768.Idx) :
    val_main_call3_v11 (F := Ideal) a4 j = 1#1 :=
  eref_reduce_andi_ones _ _ _ _ (eref_call3_v10 a4 hidx) (fun _ => rfl) j

/-- And the mask broadcast along the channels. -/
theorem eref_call3_v13 [Cert.KernelIdeal.Facts] (hidx : ∀ i, (a4 i).toNat < 512) (b : Fin 32) (e : Fin 32768) (c : Fin 9) :
    val_main_call3_v13 (F := Ideal) a4 (ix3 b e c) = 1#1 := by
  unfold val_main_call3_v13
  rw [broadcastInDim_apply ![0, 1] _ _ (ix3 b e c) (ix2 b e) (fun ax => by
    match ax with
    | ⟨0, _⟩ => show b.val = if (32 : Nat) = 1 then 0 else b.val; rw [if_neg (by decide)]
    | ⟨1, _⟩ => show e.val = if (32768 : Nat) = 1 then 0 else e.val; rw [if_neg (by decide)])]
  exact eref_call3_v11 a4 hidx _

/-- The source lookup at (b, e, c): the attribute row the source word of edge e names, in batch entry b. -/
theorem eref_v67_apply [Cert.KernelIdeal.Facts] (hidx : ∀ i, (a4 i).toNat < 512) (b : Fin 32) (e : Fin 32768) (c : Fin 9) :
    val_main_v67 (F := Ideal) a1 a2 a3 a4 (ix3 b e c)
      = Cert.KernelIdeal.attrK a1 a2 a3 (ix3 b (rowOf (Cert.KernelIdeal.srcK a4 (ix3 b e (0 : Fin 1)))) c) := by
  have hw := eref_src_lt a4 hidx (ix3 b e (0 : Fin 1))
  show Scalar.select (val_main_call3_v13 (F := Ideal) a4 (ix3 b e c)) (val_main_call3_v12 (F := Ideal) a1 a2 a3 a4 (ix3 b e c))
    (val_main_call3_v14 (F := Ideal) (ix3 b e c)) = _
  rw [eref_call3_v13 a4 hidx, select_one, eref_rowOf_small hw]
  unfold val_main_call3_v12
  rw [eref_attr]
  exact eref_gatherB_ix_apply _ rfl rfl rfl rfl rfl rfl _ _ b e c _ hw
    (by rw [eref_call3_v4 a4 hidx]; exact toInt_of_small (by omega))

/-! ### The destination lookup -/

theorem eref_call4_v4 [Cert.KernelIdeal.Facts] (hidx : ∀ i, (a4 i).toNat < 512) (i : S32x32768x1.Idx) :
    val_main_call4_v4 (F := Ideal) a4 i = Cert.KernelIdeal.dstK a4 i := by
  show Scalar.select (IntOp.cmpi .slt (Cert.KernelIdeal.dstK a4 i) 0#32) (IntOp.addi (Cert.KernelIdeal.dstK a4 i) 512#32)
    (Cert.KernelIdeal.dstK a4 i) = _
  exact eref_norm_word (eref_dst_lt a4 hidx i)

theorem eref_call4_v10 [Cert.KernelIdeal.Facts] (hidx : ∀ i, (a4 i).toNat < 512) (i : S32x32768x1.Idx) :
    val_main_call4_v10 (F := Ideal) a4 i = 1#1 := by
  show IntOp.andi (IntOp.cmpi .sge (val_main_call4_v4 (F := Ideal) a4 i) 0#32)
    (IntOp.cmpi .sle (val_main_call4_v4 (F := Ideal) a4 i) 511#32) = 1#1
  rw [eref_call4_v4 a4 hidx i]
  exact eref_mask_word (eref_dst_lt a4 hidx i)

theorem eref_call4_v11 [Cert.KernelIdeal.Facts] (hidx : ∀ i, (a4 i).toNat < 512) (j : S32x32768.Idx) :
    val_main_call4_v11 (F := Ideal) a4 j = 1#1 :=
  eref_reduce_andi_ones _ _ _ _ (eref_call4_v10 a4 hidx) (fun _ => rfl) j

theorem eref_call4_v13 [Cert.KernelIdeal.Facts] (hidx : ∀ i, (a4 i).toNat < 512) (b : Fin 32) (e : Fin 32768) (c : Fin 9) :
    val_main_call4_v13 (F := Ideal) a4 (ix3 b e c) = 1#1 := by
  unfold val_main_call4_v13
  rw [broadcastInDim_apply ![0, 1] _ _ (ix3 b e c) (ix2 b e) (fun ax => by
    match ax with
    | ⟨0, _⟩ => show b.val = if (32 : Nat) = 1 then 0 else b.val; rw [if_neg (by decide)]
    | ⟨1, _⟩ => show e.val = if (32768 : Nat) = 1 then 0 else e.val; rw [if_neg (by decide)])]
  exact eref_call4_v11 a4 hidx _

/-- The destination lookup at (b, e, c): the attribute row the destination word of edge e names, in batch entry b. -/
theorem eref_v68_apply [Cert.KernelIdeal.Facts] (hidx : ∀ i, (a4 i).toNat < 512) (b : Fin 32) (e : Fin 32768) (c : Fin 9) :
    val_main_v68 (F := Ideal) a1 a2 a3 a4 (ix3 b e c)
      = Cert.KernelIdeal.attrK a1 a2 a3 (ix3 b (rowOf (Cert.KernelIdeal.dstK a4 (ix3 b e (0 : Fin 1)))) c) := by
  have hw := eref_dst_lt a4 hidx (ix3 b e (0 : Fin 1))
  show Scalar.select (val_main_call4_v13 (F := Ideal) a4 (ix3 b e c)) (val_main_call4_v12 (F := Ideal) a1 a2 a3 a4 (ix3 b e c))
    (val_main_call4_v14 (F := Ideal) (ix3 b e c)) = _
  rw [eref_call4_v13 a4 hidx, select_one, eref_rowOf_small hw]
  unfold val_main_call4_v12
  rw [eref_attr]
  exact eref_gatherB_ix_apply _ rfl rfl rfl rfl rfl rfl _ _ b e c _ hw
    (by rw [eref_call4_v4 a4 hidx]; exact toInt_of_small (by omega))

/-! ### The two lookups side by side, as rows -/

theorem eref_v69_left (b : Fin 32) (e : Fin 32768) (c : Fin 18) (h : c.val < 9) :
    val_main_v69 (F := Ideal) a1 a2 a3 a4 (ix3 b e c) = val_main_v67 (F := Ideal) a1 a2 a3 a4 (ix3 b e ⟨c.val, h⟩) := by
  unfold val_main_v69
  exact concatenate_pair_apply_left (t := S32x32768x18) (s₁ := S32x32768x9) (s₂ := S32x32768x9) (2 : Fin 3) _ _ _ (ix3 b e c) rfl
    (ix3 b e (⟨c.val, h⟩ : Fin 9)) (fun ax => by
    match ax with
    | ⟨0, _⟩ => rfl
    | ⟨1, _⟩ => rfl
    | ⟨2, _⟩ => rfl)

theorem eref_v69_right (b : Fin 32) (e : Fin 32768) (c : Fin 18) (h : ¬ c.val < 9) :
    val_main_v69 (F := Ideal) a1 a2 a3 a4 (ix3 b e c)
      = val_main_v68 (F := Ideal) a1 a2 a3 a4 (ix3 b e ⟨c.val - 9, by have := c.isLt; omega⟩) := by
  unfold val_main_v69
  exact concatenate_pair_apply_right (t := S32x32768x18) (s₁ := S32x32768x9) (s₂ := S32x32768x9) (2 : Fin 3) _ _ _ (ix3 b e c) rfl rfl
    (ix3 b e (⟨c.val - 9, by have := c.isLt; omega⟩ : Fin 9)) (fun ax hax => by
    match ax, hax with
    | ⟨0, _⟩, _ => rfl
    | ⟨1, _⟩, _ => rfl
    | ⟨2, _⟩, hax => exact absurd rfl hax)
    (by show c.val - 9 + 9 = c.val; omega)

/-- Row b · 32768 + e of the reference's matrix of edge attributes is row e of the two looked-up rows of batch
    entry b side by side. -/
theorem eref_v70_row [Cert.KernelIdeal.Facts] (hidx : ∀ i, (a4 i).toNat < 512) (b : Fin 32) (e : Fin 32768)
    (R : Fin 1048576) (hR : R.val = b.val * 32768 + e.val) (c : Fin 18) :
    val_main_v70 (F := Ideal) a1 a2 a3 a4 (ix2 R c)
      = cat9 (gath (slab (Cert.KernelIdeal.attrK a1 a2 a3) b) (slab (Cert.KernelIdeal.srcK a4) b))
          (gath (slab (Cert.KernelIdeal.attrK a1 a2 a3) b) (slab (Cert.KernelIdeal.dstK a4) b)) (ix2 e c) := by
  unfold val_main_v70
  rw [shapeCast_abc_mc_apply _ _ R c b e hR]
  by_cases h : c.val < 9
  · rw [eref_v69_left a1 a2 a3 a4 b e c h, eref_cat9_left _ _ e c h, eref_v67_apply a1 a2 a3 a4 hidx]
    rfl
  · rw [eref_v69_right a1 a2 a3 a4 b e c h, eref_cat9_right _ _ e c h, eref_v68_apply a1 a2 a3 a4 hidx]
    rfl

/-! ### The dense layers and the head -/

theorem eref_v71 : val_main_v71 (F := Ideal) a1 a2 a3 a4 a21 = mm (val_main_v70 (F := Ideal) a1 a2 a3 a4) a21 :=
  dotGeneral_plain_eq_mm none _ a21

theorem eref_v74 : val_main_v74 (F := Ideal) a1 a2 a3 a4 a21 a22
    = addRow (mm (val_main_v70 (F := Ideal) a1 a2 a3 a4) a21) (asRow a22) := by
  unfold val_main_v74 val_main_v73 val_main_v72
  rw [eref_v71, broadcastInDim_asRow]
  exact bias_host_form _ _ _

theorem eref_v75 : val_main_v75 (F := Ideal) a1 a2 a3 a4 a21 a22
    = relu (addRow (mm (val_main_v70 (F := Ideal) a1 a2 a3 a4) a21) (asRow a22)) := by
  unfold val_main_v75 val_main_call5_v0 val_main_call5_cst
  rw [eref_v74]
  exact relu_host_form _ _

theorem eref_v76 : val_main_v76 (F := Ideal) a1 a2 a3 a4 a21 a22 a23
    = mm (relu (addRow (mm (val_main_v70 (F := Ideal) a1 a2 a3 a4) a21) (asRow a22))) a23 := by
  unfold val_main_v76
  rw [eref_v75]
  exact dotGeneral_plain_eq_mm none _ a23

theorem eref_v79 : val_main_v79 (F := Ideal) a1 a2 a3 a4 a21 a22 a23 a24
    = addRow (mm (relu (addRow (mm (val_main_v70 (F := Ideal) a1 a2 a3 a4) a21) (asRow a22))) a23) (asRow a24) := by
  unfold val_main_v79 val_main_v78 val_main_v77
  rw [eref_v76, broadcastInDim_asRow]
  exact bias_host_form _ _ _

theorem eref_v80 : val_main_v80 (F := Ideal) a1 a2 a3 a4 a21 a22 a23 a24
    = relu (addRow (mm (relu (addRow (mm (val_main_v70 (F := Ideal) a1 a2 a3 a4) a21) (asRow a22))) a23) (asRow a24)) := by
  unfold val_main_v80 val_main_call6_v0 val_main_call6_cst
  rw [eref_v79]
  exact relu_host_form _ _

theorem eref_v81 : val_main_v81 (F := Ideal) a1 a2 a3 a4 a21 a22 a23 a24 a25
    = mm (relu (addRow (mm (relu (addRow (mm (val_main_v70 (F := Ideal) a1 a2 a3 a4) a21) (asRow a22))) a23) (asRow a24))) a25 := by
  unfold val_main_v81
  rw [eref_v80]
  exact dotGeneral_plain_eq_mm none _ a25

theorem eref_v84 : val_main_v84 (F := Ideal) a1 a2 a3 a4 a21 a22 a23 a24 a25 a26
    = addRow (mm (relu (addRow (mm (relu (addRow (mm (val_main_v70 (F := Ideal) a1 a2 a3 a4) a21) (asRow a22))) a23)
        (asRow a24))) a25) (asRow a26) := by
  unfold val_main_v84 val_main_v83 val_main_v82
  rw [eref_v81, broadcastInDim_asRow]
  exact bias_host_form _ _ _

/-- The reference's result is the network on its matrix of edge attributes: 1 / (1 + e^(−z)) is the sigmoid. -/
theorem eref_v90 : val_main_v90 (F := Ideal) a1 a2 a3 a4 a21 a22 a23 a24 a25 a26
    = eref_net18 (val_main_v70 (F := Ideal) a1 a2 a3 a4) a21 a22 a23 a24 a25 a26 := by
  funext i
  show Ideal.div (Ideal.ofBits .f32 0x3F800000#32) (Ideal.ofBits .f32 0x3F800000#32
      + Ideal.exp (-(val_main_v84 (F := Ideal) a1 a2 a3 a4 a21 a22 a23 a24 a25 a26 i))) = _
  rw [eref_ofBits_one_f32, eref_v84]
  rfl

/-- The reference's edge result is the edge network of every batch entry, on the kernel program's attribute table
    and index words. -/
theorem edge_ref_form [Cert.KernelIdeal.Facts] [Cert.ReferenceIdeal.Facts] (hidx : ∀ i, (a4 i).toNat < 512)
    (h : (⟨3, ![32, 32768, 10]⟩ : Shape).ShapeCasts ⟨2, ![1048576, 10]⟩) :
    val_main_v90 (F := Ideal) a1 a2 a3 a4 a21 a22 a23 a24 a25 a26
      = edgeOut h (Cert.KernelIdeal.attrK a1 a2 a3) (Cert.KernelIdeal.srcK a4) (Cert.KernelIdeal.dstK a4)
          a21 a22 a23 a24 a25 a26 := by
  funext i
  obtain ⟨R, q, rfl⟩ : ∃ (R : Fin 1048576) (q : Fin 10), i = ix2 R q := ⟨i 0, i 1, eq_ix2 i⟩
  have hRlt : R.val < 1048576 := R.isLt
  have hR : R.val = (⟨R.val / 32768, by omega⟩ : Fin 32).val * 32768
      + (⟨R.val % 32768, Nat.mod_lt _ (by decide)⟩ : Fin 32768).val := by
    show R.val = R.val / 32768 * 32768 + R.val % 32768
    omega
  rw [eref_v90]
  unfold edgeOut
  rw [shapeCast_abc_mc_apply _ h R q _ _ hR]
  show eref_net18 _ _ _ _ _ _ _ (ix2 R q) = edgeFn (slab _ _) (slab _ _) (slab _ _) a21 a22 a23 a24 a25 a26 (ix2 _ q)
  rw [eref_edgeFn_eq_net18]
  exact eref_net18_rows _ _ _ _ _ _ _ _ R _ (fun c => eref_v70_row a1 a2 a3 a4 hidx _ _ R hR c) q

end Ref

end NetSpec

end
-- ==== Proof.PreIdx.lean ====
/-
  The index range, read back from the precondition.

  The precondition is a conjunction of "all" tests, one per input: each float input is finite everywhere, and
  every word w of the integer input of edge endpoints satisfies 0 ≤ w and w < 512 as signed 32-bit integers.  The
  conjunction is a chain of one-bit "and"s whose last operand is the test of the integer input, so from
  "the conjunction is 1" follows "the last operand is 1"; that operand is the "and" over all positions of the
  one-bit words (0 ≤ w) ∧ (w < 512), so each of them is 1; and a 32-bit word that is at least 0 and below 512 as a
  signed integer has its sign bit clear and hence is below 512 as a natural number.
-/
import proofs.«419047_j46299747451450_1_alg».proof.Defs
import Idealize.ShloMosaic.Lib.ReduceAll
import Idealize.ShloMosaic.Lib.StableHlo.Predicate

noncomputable section

namespace Cert.PreIdx

open Idealize.ShloMosaic
open Cert.Pre_finite_inputs

/-- The shape of a scalar has exactly one index. -/
instance subsingleton_scalar_idx : Subsingleton S_.Idx := ⟨fun a b => funext fun d => d.elim0⟩

/-- The one index of a scalar. -/
def i0 : S_.Idx := fun d => d.elim0

/-- A 32-bit word that is, as a signed integer, at least 0 and below 512 is below 512 as a natural number:
    its signed value is its unsigned value when the sign bit is clear, and 2³² less otherwise, which would be
    negative. -/
theorem toNat_lt_512 (w : BitVec 32) (h0 : IntOp.cmpi .sge w 0#32 = 1#1) (h1 : IntOp.cmpi .slt w 512#32 = 1#1) :
    w.toNat < 512 := by
  rw [IntOp.cmpi_sge] at h0
  rw [IntOp.cmpi_slt] at h1
  have z : (0#32 : BitVec 32).toInt = 0 := by decide
  have c : (512#32 : BitVec 32).toInt = 512 := by decide
  rw [z] at h0
  rw [c] at h1
  have hw := w.isLt
  rw [BitVec.toInt_eq_toNat_cond] at h0 h1
  split at h0 <;> omega

/-- The last part of the chain: its result is the "and" of the conjunction so far with the test of the integer
    input, so if it is 1 every word of that input is in [0, 512). -/
theorem idx_lt_of_part7 {F : FTy → Type} [FloatOps F] [Facts] (a4 : IVec S32x2x32768 32) (a26 : FVec F S10 .f32)
    (v118 : IVec S_ 1) (v119 : FVec F S64x10 .f32)
    (h : fn_part7 (F := F) a4 a26 v118 v119 = fun _ => 1#1) (i : S32x2x32768.Idx) : (a4 i).toNat < 512 := by
  have e := congrFun h i0
  simp only [fn_part7, andi, IntOp.andi_eq_one] at e
  obtain ⟨-, e134⟩ := e
  have el := Host.reduce_andi_all _ _ _ _ _ e134 i
  -- at position i the reduced array is the "and" of the two compares of the word there, against 0 and against 512
  have el2 : IntOp.andi (IntOp.cmpi .sge (a4 i) 0#32) (IntOp.cmpi .slt (a4 i) 512#32) = 1#1 := el
  obtain ⟨hge, hlt⟩ := IntOp.andi_eq_one.1 el2
  exact toNat_lt_512 (a4 i) hge hlt

/-- THE PRECONDITION DECODED: if the printed precondition of the 27 inputs is the all-ones scalar, every word
    of the integer input is below 512.  The chain of parts unfolds to the last part applied to the integer input. -/
theorem idx_lt_of_fn {F : FTy → Type} [FloatOps F] [Facts] (a0 : FVec F S32x512x1024 .f32) (a1 : FVec F S32x512x4 .f32) (a2 : FVec F S32x512x4 .f32) (a3 : FVec F S32x512 .f32) (a4 : IVec S32x2x32768 32) (a5 : FVec F S1024x512 .f32) (a6 : FVec F S512 .f32) (a7 : FVec F S512 .f32) (a8 : FVec F S512 .f32) (a9 : FVec F S512 .f32) (a10 : FVec F S512 .f32) (a11 : FVec F S512x256 .f32) (a12 : FVec F S256 .f32) (a13 : FVec F S256 .f32) (a14 : FVec F S256 .f32) (a15 : FVec F S256 .f32) (a16 : FVec F S256 .f32) (a17 : FVec F S256x128 .f32) (a18 : FVec F S128 .f32) (a19 : FVec F S128x8 .f32) (a20 : FVec F S8 .f32) (a21 : FVec F S18x64 .f32) (a22 : FVec F S64 .f32) (a23 : FVec F S64x64 .f32) (a24 : FVec F S64 .f32) (a25 : FVec F S64x10 .f32) (a26 : FVec F S10 .f32)
    (h : fn (F := F) a0 a1 a2 a3 a4 a5 a6 a7 a8 a9 a10 a11 a12 a13 a14 a15 a16 a17 a18 a19 a20 a21 a22 a23 a24 a25 a26 = fun _ => 1#1) (i : S32x2x32768.Idx) : (a4 i).toNat < 512 := by
  unfold fn fn_part1 fn_part2 fn_part3 fn_part4 fn_part5 fn_part6 at h
  exact idx_lt_of_part7 (F := F) a4 a26 _ _ h i

/-- At the idealized kernel's memory: under the precondition, on every device, every word of the buffer of edge
    endpoints is below 512. -/
theorem idx_lt_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x2x32768.Idx) :
    (m ((c.tc : Thread Cert.KernelIdeal.nD Cert.KernelIdeal.τ).loc Cert.KernelIdeal.main_arg4) i).toNat < 512 :=
  idx_lt_of_fn (F := Ideal) _ _ _ _ _ _ _ _ _ _ _ _ _ _ _ _ _ _ _ _ _ _ _ _ _ _ _ (h c) i

end Cert.PreIdx

end
-- ==== Proof.lean ====
/-
  The certificate of the graph network kernel against its jnp reference.

  The kernel's program is two kernel regions among host lines: a node kernel, gridded over blocks of 1024 feature
  rows, and an edge kernel, gridded over (batch entry, block of 8192 edges), which looks the end nodes' attribute rows
  up by multiplying a 0/1 matrix (the index word compared with an iota) by the attribute table. The reference computes
  the same two networks on whole arrays, the look-up by a gather.

  Frames. Each region's body, run on whole staging buffers, leaves its inputs as they were and stores one value; the
  two regions and the three host stretches chain through the buffer contents at their boundaries, and an argument's
  buffer read through that chain is its launch contents. The reference is a line of host operations, whose run reads
  every buffer back as a term of the arguments.

  Values, over the extended reals. A block of the node kernel's result is the node network of the block's rows, the
  network is row-local, and the blocks tile the rows: the region leaves the node network of the whole feature array.
  Under the precondition's range on the index words (each in [0, 512)) a row of the 0/1 product is the table row the
  word names (1 · x = x and 0 · x = 0 for every extended real), so the edge region leaves the edge network of the
  attribute table and the index words; the reference's gather, behind jnp's wrap-and-mask of the index, reads the same
  row. Both sides are then one function of the arguments, entry by entry; no law that needs finiteness is used.
-/
import proofs.«419047_j46299747451450_1_alg».proof.Defs
import proofs.«419047_j46299747451450_1_alg».proof.Proof.Gen.Kernel
import proofs.«419047_j46299747451450_1_alg».proof.Proof.Gen.KernelIdeal
import proofs.«419047_j46299747451450_1_alg».proof.Proof.Gen.ReferenceIdeal
import proofs.«419047_j46299747451450_1_alg».proof.Proof.Gen.Pre_finite_inputs
import proofs.«419047_j46299747451450_1_alg».proof.Proof.KFrame
import proofs.«419047_j46299747451450_1_alg».proof.Proof.KIFrame
import proofs.«419047_j46299747451450_1_alg».proof.Proof.KIResult
import proofs.«419047_j46299747451450_1_alg».proof.Proof.RefRun
import proofs.«419047_j46299747451450_1_alg».proof.Proof.RefRead
import proofs.«419047_j46299747451450_1_alg».proof.Proof.NodeRefForm
import proofs.«419047_j46299747451450_1_alg».proof.Proof.EdgeRefForm
import proofs.«419047_j46299747451450_1_alg».proof.Proof.PreIdx
import Idealize.ShloMosaic.Adequacy
import Idealize.ShloMosaic.Init

set_option maxRecDepth 16384

noncomputable section

namespace Cert.Proof

open Idealize.ShloMosaic Idealize.SL.Sem

/-- The word-level program runs to the end, nothing faulting, its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's run, with its results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing: there is nothing to preserve. -/
theorem preserves : Cert.preserves_Kernel_KernelIdeal := trivial

/-- Run from memories that agree on the arguments, under the precondition, the idealized kernel and the idealized
    reference both end, with the node network and the edge network of the arguments as their two results. -/
theorem algebraic : Cert.algebraic_KernelIdeal_ReferenceIdeal := by
  intro m ρ m' ρ' hpre hagree
  have hidx : ∀ (c : Dev Cert.KernelIdeal.nD) i, (m ((c.tc : Thread Cert.KernelIdeal.nD Cert.KernelIdeal.τ).loc Cert.KernelIdeal.main_arg4) i).toNat < 512 :=
    fun c i => Cert.PreIdx.idx_lt_of_pre m hpre c i
  refine ⟨_, _, Cert.KernelIdeal.Hand.ki_run m ρ hidx, ?_⟩
  refine (θ_run Cert.ReferenceIdeal.defs _ _).mono (fun _ h c => ?_) (Cert.ReferenceIdeal.ValueP.run (F := Ideal) m' ρ')
  obtain ⟨e0, e1, e2, e3, e4, e5, e6, e7, e8, e9, e10, e11, e12, e13, e14, e15, e16, e17, e18, e19, e20, e21, e22, e23, e24, e25, e26⟩ := hagree c
  have hidx' : ∀ i, (m' ((c.tc : Thread Cert.ReferenceIdeal.nD Cert.ReferenceIdeal.τ).loc Cert.ReferenceIdeal.main_arg4) i).toNat < 512 := by
    rw [e4]; exact hidx c
  refine ⟨?_, ?_, (h c).2.2⟩
  · refine ((h c).1.trans ((Cert.ReferenceIdeal.ReadP.val_main_v56_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))).trans
      (NetSpec.node_ref_form Cert.KernelIdeal.Facts₀.shapeCasts_S32x512x1024_S16384x1024 Cert.KernelIdeal.Facts₀.shapeCasts_S16384x8_S32x512x8 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))))).trans ?_
    rw [e0, e5, e6, e7, e8, e9, e10, e11, e12, e13, e14, e15, e16, e17, e18, e19, e20]
  · refine ((h c).2.1.trans ((Cert.ReferenceIdeal.ReadP.val_main_v90_eq (F := Ideal) m' c).trans
      (NetSpec.edge_ref_form (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) hidx' Cert.KernelIdeal.Facts₀.shapeCasts_S32x32768x10_S1048576x10))).trans ?_
    rw [e1, e2, e3, e4, e21, e22, e23, e24, e25, e26]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
